-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S1024x512 : Shape := ⟨2, ![1024, 512]⟩
abbrev S1x512 : Shape := ⟨2, ![1, 512]⟩
abbrev S16x512 : Shape := ⟨2, ![16, 512]⟩
abbrev S_ : Shape := ⟨0, ![]⟩
abbrev S15 : Shape := ⟨1, ![15]⟩
abbrev S512 : Shape := ⟨1, ![512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1x512, .f32⟩
  | .local _ .vmem, ⟨1, _⟩ => ⟨S1024x512, .f32⟩
  | .local _ .vmem, ⟨2, _⟩ => ⟨S16x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.addi v2 c1_i32_64
  let c16_i32_65 : BitVec 32 := 16#32
  let v71 : BitVec 32 := Scalar.remsi v70 c16_i32_65
  let c1_i32_68 : BitVec 32 := 1#32
  let v72 : BitVec 32 := Scalar.muli v71 c1_i32_68
  let v73 : BitVec 32 := Scalar.addi c0_i32_69 v72
  v73.toNat
def k0_dev17 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v80 : BitVec 32 := Scalar.addi v2 c2_i32_74
  let c16_i32_75 : BitVec 32 := 16#32
  let v81 : BitVec 32 := Scalar.remsi v80 c16_i32_75
  let c1_i32_78 : BitVec 32 := 1#32
  let v82 : BitVec 32 := Scalar.muli v81 c1_i32_78
  let v83 : BitVec 32 := Scalar.addi c0_i32_79 v82
  v83.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_84 : BitVec 32 := 3#32
  let v90 : BitVec 32 := Scalar.addi v2 c3_i32_84
  let c16_i32_85 : BitVec 32 := 16#32
  let v91 : BitVec 32 := Scalar.remsi v90 c16_i32_85
  let c1_i32_88 : BitVec 32 := 1#32
  let v92 : BitVec 32 := Scalar.muli v91 c1_i32_88
  let v93 : BitVec 32 := Scalar.addi c0_i32_89 v92
  v93.toNat
def k0_dev19 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_94 : BitVec 32 := 4#32
  let v100 : BitVec 32 := Scalar.addi v2 c4_i32_94
  let c16_i32_95 : BitVec 32 := 16#32
  let v101 : BitVec 32 := Scalar.remsi v100 c16_i32_95
  let c1_i32_98 : BitVec 32 := 1#32
  let v102 : BitVec 32 := Scalar.muli v101 c1_i32_98
  let v103 : BitVec 32 := Scalar.addi c0_i32_99 v102
  v103.toNat
def k0_dev20 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_104 : BitVec 32 := 5#32
  let v110 : BitVec 32 := Scalar.addi v2 c5_i32_104
  let c16_i32_105 : BitVec 32 := 16#32
  let v111 : BitVec 32 := Scalar.remsi v110 c16_i32_105
  let c1_i32_108 : BitVec 32 := 1#32
  let v112 : BitVec 32 := Scalar.muli v111 c1_i32_108
  let v113 : BitVec 32 := Scalar.addi c0_i32_109 v112
  v113.toNat
def k0_dev21 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_114 : BitVec 32 := 6#32
  let v120 : BitVec 32 := Scalar.addi v2 c6_i32_114
  let c16_i32_115 : BitVec 32 := 16#32
  let v121 : BitVec 32 := Scalar.remsi v120 c16_i32_115
  let c1_i32_118 : BitVec 32 := 1#32
  let v122 : BitVec 32 := Scalar.muli v121 c1_i32_118
  let v123 : BitVec 32 := Scalar.addi c0_i32_119 v122
  v123.toNat
def k0_dev22 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_124 : BitVec 32 := 7#32
  let v130 : BitVec 32 := Scalar.addi v2 c7_i32_124
  let c16_i32_125 : BitVec 32 := 16#32
  let v131 : BitVec 32 := Scalar.remsi v130 c16_i32_125
  let c1_i32_128 : BitVec 32 := 1#32
  let v132 : BitVec 32 := Scalar.muli v131 c1_i32_128
  let v133 : BitVec 32 := Scalar.addi c0_i32_129 v132
  v133.toNat
def k0_dev23 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v140 : BitVec 32 := Scalar.addi v2 c8_i32_134
  let c16_i32_135 : BitVec 32 := 16#32
  let v141 : BitVec 32 := Scalar.remsi v140 c16_i32_135
  let c1_i32_138 : BitVec 32 := 1#32
  let v142 : BitVec 32 := Scalar.muli v141 c1_i32_138
  let v143 : BitVec 32 := Scalar.addi c0_i32_139 v142
  v143.toNat
def k0_dev24 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_144 : BitVec 32 := 9#32
  let v150 : BitVec 32 := Scalar.addi v2 c9_i32_144
  let c16_i32_145 : BitVec 32 := 16#32
  let v151 : BitVec 32 := Scalar.remsi v150 c16_i32_145
  let c1_i32_148 : BitVec 32 := 1#32
  let v152 : BitVec 32 := Scalar.muli v151 c1_i32_148
  let v153 : BitVec 32 := Scalar.addi c0_i32_149 v152
  v153.toNat
def k0_dev25 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_154 : BitVec 32 := 10#32
  let v160 : BitVec 32 := Scalar.addi v2 c10_i32_154
  let c16_i32_155 : BitVec 32 := 16#32
  let v161 : BitVec 32 := Scalar.remsi v160 c16_i32_155
  let c1_i32_158 : BitVec 32 := 1#32
  let v162 : BitVec 32 := Scalar.muli v161 c1_i32_158
  let v163 : BitVec 32 := Scalar.addi c0_i32_159 v162
  v163.toNat
def k0_dev26 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_164 : BitVec 32 := 11#32
  let v170 : BitVec 32 := Scalar.addi v2 c11_i32_164
  let c16_i32_165 : BitVec 32 := 16#32
  let v171 : BitVec 32 := Scalar.remsi v170 c16_i32_165
  let c1_i32_168 : BitVec 32 := 1#32
  let v172 : BitVec 32 := Scalar.muli v171 c1_i32_168
  let v173 : BitVec 32 := Scalar.addi c0_i32_169 v172
  v173.toNat
def k0_dev27 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_174 : BitVec 32 := 12#32
  let v180 : BitVec 32 := Scalar.addi v2 c12_i32_174
  let c16_i32_175 : BitVec 32 := 16#32
  let v181 : BitVec 32 := Scalar.remsi v180 c16_i32_175
  let c1_i32_178 : BitVec 32 := 1#32
  let v182 : BitVec 32 := Scalar.muli v181 c1_i32_178
  let v183 : BitVec 32 := Scalar.addi c0_i32_179 v182
  v183.toNat
def k0_dev28 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_184 : BitVec 32 := 13#32
  let v190 : BitVec 32 := Scalar.addi v2 c13_i32_184
  let c16_i32_185 : BitVec 32 := 16#32
  let v191 : BitVec 32 := Scalar.remsi v190 c16_i32_185
  let c1_i32_188 : BitVec 32 := 1#32
  let v192 : BitVec 32 := Scalar.muli v191 c1_i32_188
  let v193 : BitVec 32 := Scalar.addi c0_i32_189 v192
  v193.toNat
def k0_dev29 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_194 : BitVec 32 := 14#32
  let v200 : BitVec 32 := Scalar.addi v2 c14_i32_194
  let c16_i32_195 : BitVec 32 := 16#32
  let v201 : BitVec 32 := Scalar.remsi v200 c16_i32_195
  let c1_i32_198 : BitVec 32 := 1#32
  let v202 : BitVec 32 := Scalar.muli v201 c1_i32_198
  let v203 : BitVec 32 := Scalar.addi c0_i32_199 v202
  v203.toNat
def k0_dev30 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_204 : BitVec 32 := 15#32
  let v210 : BitVec 32 := Scalar.addi v2 c15_i32_204
  let c16_i32_205 : BitVec 32 := 16#32
  let v211 : BitVec 32 := Scalar.remsi v210 c16_i32_205
  let c1_i32_208 : BitVec 32 := 1#32
  let v212 : BitVec 32 := Scalar.muli v211 c1_i32_208
  let v213 : BitVec 32 := Scalar.addi c0_i32_209 v212
  v213.toNat
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  inb_S16x512_S1x512_0_0 : ∀ a, (![0, 0] : Fin 2 → Nat) a + S1x512.size a ≤ S16x512.size a
  h_S1x512 : 0 < S1x512.numel
  shapeCasts_S1x512_S1x512 : S1x512.ShapeCasts S1x512
  hamt_15 : (15#32 : BitVec 32).msb = false
  inb_S15_S1_0 : ∀ a, (![0] : Fin 1 → Nat) a + S1.size a ≤ S15.size a
  squeezes_S1_S_ : S1.Squeezes S_
  inb_S16x512_S1x512_1_0 : ∀ a, (![1, 0] : Fin 2 → Nat) a + S1x512.size a ≤ S16x512.size a
  inb_S15_S1_1 : ∀ a, (![1] : Fin 1 → Nat) a + S1.size a ≤ S15.size a
  inb_S16x512_S1x512_2_0 : ∀ a, (![2, 0] : Fin 2 → Nat) a + S1x512.size a ≤ S16x512.size a
  inb_S15_S1_2 : ∀ a, (![2] : Fin 1 → Nat) a + S1.size a ≤ S15.size a
  inb_S16x512_S1x512_3_0 : ∀ a, (![3, 0] : Fin 2 → Nat) a + S1x512.size a ≤ S16x512.size a
  inb_S15_S1_3 : ∀ a, (![3] : Fin 1 → Nat) a + S1.size a ≤ S15.size a
  inb_S16x512_S1x512_4_0 : ∀ a, (![4, 0] : Fin 2 → Nat) a + S1x512.size a ≤ S16x512.size a
  inb_S15_S1_4 : ∀ a, (![4] : Fin 1 → Nat) a + S1.size a ≤ S15.size a
  inb_S16x512_S1x512_5_0 : ∀ a, (![5, 0] : Fin 2 → Nat) a + S1x512.size a ≤ S16x512.size a
  inb_S15_S1_5 : ∀ a, (![5] : Fin 1 → Nat) a + S1.size a ≤ S15.size a
  inb_S16x512_S1x512_6_0 : ∀ a, (![6, 0] : Fin 2 → Nat) a + S1x512.size a ≤ S16x512.size a
  inb_S15_S1_6 : ∀ a, (![6] : Fin 1 → Nat) a + S1.size a ≤ S15.size a
  inb_S16x512_S1x512_7_0 : ∀ a, (![7, 0] : Fin 2 → Nat) a + S1x512.size a ≤ S16x512.size a
  inb_S15_S1_7 : ∀ a, (![7] : Fin 1 → Nat) a + S1.size a ≤ S15.size a
  inb_S16x512_S1x512_8_0 : ∀ a, (![8, 0] : Fin 2 → Nat) a + S1x512.size a ≤ S16x512.size a
  inb_S15_S1_8 : ∀ a, (![8] : Fin 1 → Nat) a + S1.size a ≤ S15.size a
  inb_S16x512_S1x512_9_0 : ∀ a, (![9, 0] : Fin 2 → Nat) a + S1x512.size a ≤ S16x512.size a
  inb_S15_S1_9 : ∀ a, (![9] : Fin 1 → Nat) a + S1.size a ≤ S15.size a
  inb_S16x512_S1x512_10_0 : ∀ a, (![10, 0] : Fin 2 → Nat) a + S1x512.size a ≤ S16x512.size a
  inb_S15_S1_10 : ∀ a, (![10] : Fin 1 → Nat) a + S1.size a ≤ S15.size a
  inb_S16x512_S1x512_11_0 : ∀ a, (![11, 0] : Fin 2 → Nat) a + S1x512.size a ≤ S16x512.size a
  inb_S15_S1_11 : ∀ a, (![11] : Fin 1 → Nat) a + S1.size a ≤ S15.size a
  inb_S16x512_S1x512_12_0 : ∀ a, (![12, 0] : Fin 2 → Nat) a + S1x512.size a ≤ S16x512.size a
  inb_S15_S1_12 : ∀ a, (![12] : Fin 1 → Nat) a + S1.size a ≤ S15.size a
  inb_S16x512_S1x512_13_0 : ∀ a, (![13, 0] : Fin 2 → Nat) a + S1x512.size a ≤ S16x512.size a
  inb_S15_S1_13 : ∀ a, (![13] : Fin 1 → Nat) a + S1.size a ≤ S15.size a
  inb_S16x512_S1x512_14_0 : ∀ a, (![14, 0] : Fin 2 → Nat) a + S1x512.size a ≤ S16x512.size a
  inb_S15_S1_14 : ∀ a, (![14] : Fin 1 → Nat) a + S1.size a ≤ S15.size a
  inb_S16x512_S1x512_15_0 : ∀ a, (![15, 0] : Fin 2 → Nat) a + S1x512.size a ≤ S16x512.size a
  inb_S16x512_S16x512_0_0 : ∀ a, (![0, 0] : Fin 2 → Nat) a + S16x512.size a ≤ S16x512.size a
  h_S16x512 : 0 < S16x512.numel
  reduces_S16x512_S512 : S16x512.Reduces [0] S512
  inb_S1x512_S1x512_0_0 : ∀ a, (![0, 0] : Fin 2 → Nat) a + S1x512.size a ≤ S1x512.size a
  hcc0_scratch2 : 1 + S_.numel ≤ 32
  hcc0_scratch3 : 2 + S15.numel ≤ 32
  hcc0_scratch4 : 17 + S15.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole

variable [Facts₀]

abbrev cc0_scratch2 : DmaSems sig S_ := SemArray.consecutive 1 S_ hcc0_scratch2
abbrev cc0_scratch3 : DmaSems sig S15 := SemArray.consecutive 2 S15 hcc0_scratch3
abbrev cc0_scratch4 : DmaSems sig S15 := SemArray.consecutive 17 S15 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x512_S512_d0 : S16384x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Dist.Mesh.lean ====
/- The mesh of sixteen devices as a cycle: the device a given device addresses at shift d+1, and the device that
   addresses it at that shift. -/
import proofs.«900934_g7700000000000935_dist_mean_ax0_shard0_i_m1024_n512_v7x_i16_bf16_1_alg».proof.Proof.Gen.KernelIdeal

namespace Cert.KernelIdeal.Dist

open Cert.KernelIdeal Cert.KernelIdeal.Gen
open Idealize.ShloMosaic

/-- The device `c` signals, and copies its partial sum to, at shift `d + 1`. -/
def peer (c : Dev nD) (d : Fin 15) : Dev nD := ⟨(c.val + d.val + 1) % 16, Nat.mod_lt _ (by decide)⟩

/-- The shift, counted from the other side: `d + 1` and `rev d + 1` add up to sixteen. -/
def rev (d : Fin 15) : Fin 15 := ⟨14 - d.val, by omega⟩

/-- The device whose shift-`(d+1)` peer is `c`: sixteen minus `d + 1` steps ahead, that is `d + 1` steps behind. -/
def src (c : Dev nD) (d : Fin 15) : Dev nD := peer c (rev d)

theorem rev_rev (d : Fin 15) : rev (rev d) = d := by revert d; decide
theorem src_peer (c : Dev nD) (d : Fin 15) : src (peer c d) d = c := by revert c d; decide
theorem peer_src (c : Dev nD) (d : Fin 15) : peer (src c d) d = c := by revert c d; decide
theorem peer_ne (c : Dev nD) (d : Fin 15) : peer c d ≠ c := by revert c d; decide
theorem peer_inj (c : Dev nD) : Function.Injective (peer c) := by revert c; decide
theorem peer_left_inj (d : Fin 15) : Function.Injective (fun c => peer c d) := by revert d; decide
theorem exists_peer (c c' : Dev nD) (h : c' ≠ c) : ∃ d, peer c d = c' := by revert c c'; decide

/-- Shifting by `d + 1` is a bijection of the mesh. -/
def shift (d : Fin 15) : Dev nD ≃ Dev nD := ⟨fun c => peer c d, fun c => src c d, fun c => src_peer c d, fun c => peer_src c d⟩

/-- The printed device chains: the fifteen signals and the fifteen copies address `peer c 0 … peer c 14` in order. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 10 := by revert c; decide +kernel
theorem dev12_eq (c : Dev nD) : (⟨k0_dev12 c, k0_dev12_lt c⟩ : Dev nD) = peer c 11 := by revert c; decide +kernel
theorem dev13_eq (c : Dev nD) : (⟨k0_dev13 c, k0_dev13_lt c⟩ : Dev nD) = peer c 12 := by revert c; decide +kernel
theorem dev14_eq (c : Dev nD) : (⟨k0_dev14 c, k0_dev14_lt c⟩ : Dev nD) = peer c 13 := by revert c; decide +kernel
theorem dev15_eq (c : Dev nD) : (⟨k0_dev15 c, k0_dev15_lt c⟩ : Dev nD) = peer c 14 := by revert c; decide +kernel
theorem dev16_eq (c : Dev nD) : (⟨k0_dev16 c, k0_dev16_lt c⟩ : Dev nD) = peer c 0 := by revert c; decide +kernel
theorem dev17_eq (c : Dev nD) : (⟨k0_dev17 c, k0_dev17_lt c⟩ : Dev nD) = peer c 1 := by revert c; decide +kernel
theorem dev18_eq (c : Dev nD) : (⟨k0_dev18 c, k0_dev18_lt c⟩ : Dev nD) = peer c 2 := by revert c; decide +kernel
theorem dev19_eq (c : Dev nD) : (⟨k0_dev19 c, k0_dev19_lt c⟩ : Dev nD) = peer c 3 := by revert c; decide +kernel
theorem dev20_eq (c : Dev nD) : (⟨k0_dev20 c, k0_dev20_lt c⟩ : Dev nD) = peer c 4 := by revert c; decide +kernel
theorem dev21_eq (c : Dev nD) : (⟨k0_dev21 c, k0_dev21_lt c⟩ : Dev nD) = peer c 5 := by revert c; decide +kernel
theorem dev22_eq (c : Dev nD) : (⟨k0_dev22 c, k0_dev22_lt c⟩ : Dev nD) = peer c 6 := by revert c; decide +kernel
theorem dev23_eq (c : Dev nD) : (⟨k0_dev23 c, k0_dev23_lt c⟩ : Dev nD) = peer c 7 := by revert c; decide +kernel
theorem dev24_eq (c : Dev nD) : (⟨k0_dev24 c, k0_dev24_lt c⟩ : Dev nD) = peer c 8 := by revert c; decide +kernel
theorem dev25_eq (c : Dev nD) : (⟨k0_dev25 c, k0_dev25_lt c⟩ : Dev nD) = peer c 9 := by revert c; decide +kernel
theorem dev26_eq (c : Dev nD) : (⟨k0_dev26 c, k0_dev26_lt c⟩ : Dev nD) = peer c 10 := by revert c; decide +kernel
theorem dev27_eq (c : Dev nD) : (⟨k0_dev27 c, k0_dev27_lt c⟩ : Dev nD) = peer c 11 := by revert c; decide +kernel
theorem dev28_eq (c : Dev nD) : (⟨k0_dev28 c, k0_dev28_lt c⟩ : Dev nD) = peer c 12 := by revert c; decide +kernel
theorem dev29_eq (c : Dev nD) : (⟨k0_dev29 c, k0_dev29_lt c⟩ : Dev nD) = peer c 13 := by revert c; decide +kernel
theorem dev30_eq (c : Dev nD) : (⟨k0_dev30 c, k0_dev30_lt c⟩ : Dev nD) = peer c 14 := by revert c; decide +kernel

end Cert.KernelIdeal.Dist
-- ==== Proof.Dist.Cells.lean ====
/- The buffers, the rows of the exchange buffer, the semaphores and cells of the all-to-all exchange, and what each
   buffer holds: a device's partial column sums, and the exchange buffer's final contents (row k: the partial sums of the
   device k steps behind). -/
import proofs.«900934_g7700000000000935_dist_mean_ax0_shard0_i_m1024_n512_v7x_i16_bf16_1_alg».proof.Proof.Dist.Mesh
import proofs.«900934_g7700000000000935_dist_mean_ax0_shard0_i_m1024_n512_v7x_i16_bf16_1_alg».proof.Proof.Gen.KernelIdeal.Skeleton
import proofs.«900934_g7700000000000935_dist_mean_ax0_shard0_i_m1024_n512_v7x_i16_bf16_1_alg».proof.Proof.Gen.KernelIdeal.Launch
import Idealize.ShloMosaic.Lib.Pipeline.Launch
import Idealize.ShloMosaic.Lib.Pipeline.Kit
import Idealize.ShloMosaic.Lib.ValueIdx
import Idealize.ShloMosaic.Lib.Tactic

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by the shift) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers -/

abbrev xH : Memref sig .tc .hbm S1024x512 .f32 := Memref.whole main_arg0
abbrev oM : Memref sig .tc .vmem S1x512 .f32 := Memref.whole cc0_stg0_0
abbrev xV : Memref sig .tc .vmem S1024x512 .f32 := Memref.whole cc0_scratch0
abbrev cM : Memref sig .tc .vmem S16x512 .f32 := Memref.whole cc0_scratch1

theorem row_inb (k : ℕ) (hk : k < 16) : ∀ a, (![k, 0] : Fin 2 → Nat) a + S1x512.size a ≤ S16x512.size a := by
  intro a; fin_cases a
  · show k + 1 ≤ 16; omega
  · show 0 + 512 ≤ 512; omega

/-- Row `k` of the exchange buffer, as the kernel slices it. -/
abbrev rowM (k : ℕ) (hk : k < 16) : Memref sig .tc .vmem S1x512 .f32 :=
  (cM : Memref sig .tc .vmem S16x512 .f32).slice (Rect.unit (s := S16x512) ![k, 0] S1x512.size (row_inb k hk)) (fun _ => rfl)

/-! ## The semaphores and cells -/

abbrev barS : Sem sig := (SemArray.scalar (sig.barrier 0 rfl) : Sems sig S_).sem
abbrev copyS : DmaSem sig := (cc0_scratch2 : DmaSems sig S_).sem

theorem sem_inb (d : Fin 15) : ∀ a, (![d.val] : Fin 1 → Nat) a + S1.size a ≤ S15.size a := by
  intro a; fin_cases a; show d.val + 1 ≤ 15; omega

/-- The send and the receive semaphore of shift `d + 1`. -/
def sendS (d : Fin 15) : DmaSem sig :=
  (((cc0_scratch3 : DmaSems sig S15).slice (Rect.unit (s := S15) ![d.val] S1.size (sem_inb d))).squeeze S_ squeezes_S1_S_).sem
def recvS (d : Fin 15) : DmaSem sig :=
  (((cc0_scratch4 : DmaSems sig S15).slice (Rect.unit (s := S15) ![d.val] S1.size (sem_inb d))).squeeze S_ squeezes_S1_S_).sem

abbrev barCell (c : Dev nD) : GSem nD τ sig := ((c : Thread nD τ), .reg barS)
abbrev copyCell (c : Dev nD) : GSem nD τ sig := ((c : Thread nD τ), .dma copyS)
abbrev sendCell (c : Dev nD) (d : Fin 15) : GSem nD τ sig := ((c : Thread nD τ), .dma (sendS d))
abbrev recvCell (c : Dev nD) (d : Fin 15) : GSem nD τ sig := ((c : Thread nD τ), .dma (recvS d))

/-- What a cell is for. -/
inductive CK | bar | copy | send (e : Fin 15) | recv (e : Fin 15) | other
  deriving DecidableEq

def sendIdx (sm : SemLoc sig) : Option (Fin 15) := (List.finRange 15).find? (fun e => sm = .dma (sendS e))
def recvIdx (sm : SemLoc sig) : Option (Fin 15) := (List.finRange 15).find? (fun e => sm = .dma (recvS e))

def kind (sm : SemLoc sig) : CK :=
  if sm = .reg barS then .bar else if sm = .dma copyS then .copy
  else match sendIdx sm with
    | some e => .send e
    | none => match recvIdx sm with
      | some e => .recv e
      | none => .other

theorem kind_bar : kind (.reg barS) = .bar := by decide
theorem kind_copy : kind (.dma copyS) = .copy := by decide
theorem kind_send (e : Fin 15) : kind (.dma (sendS e)) = .send e := by revert e; decide
theorem kind_recv (e : Fin 15) : kind (.dma (recvS e)) = .recv e := by revert e; decide
theorem kind_stage : kind (.dma cc0_sem0_0) = .other := by decide

/-- The exchange's semaphores of one core, indexed by the DMA semaphore's number, the barrier at 0
    (DMA semaphore 0 is the output window's staging semaphore, the pipeline's own). -/
def csem (k : Fin 32) : SemLoc sig := if k = 0 then .reg barS else .dma k
abbrev kcell (ck : Dev nD × Fin 32) : GSem nD τ sig := ((ck.1 : Thread nD τ), csem ck.2)
/-- The kernel's own (scoped) semaphores as the launch indexes them: DMA semaphores 1 to 31. -/
def osem (j : Fin 31) : SemLoc sig := .dma (⟨j.val + 1, by omega⟩ : Fin 32)

theorem csem_copy : csem 1 = .dma copyS := by decide
theorem csem_send (e : Fin 15) : csem ⟨e.val + 2, by omega⟩ = .dma (sendS e) := by revert e; decide
theorem csem_recv (e : Fin 15) : csem ⟨e.val + 17, by omega⟩ = .dma (recvS e) := by revert e; decide
theorem csem_injective : Function.Injective csem := by decide

/-- The credit of a landed row, and of the landed block of `x`. -/
abbrev N : ℕ := (rowM 0 (by decide)).view.dmaCredit
abbrev NX : ℕ := (xV : Memref sig .tc .vmem S1024x512 .f32).view.dmaCredit
theorem N_pos : 0 < N := View.dmaCredit_pos _ (by decide)
theorem NX_pos : 0 < NX := View.dmaCredit_pos _ (by decide)

/-! ## Contents -/

/-- Device `c`'s block of `x`, as launched. -/
def xblk (c : Dev nD) : Vec F S1024x512 .f32 := m ((c : Thread nD τ).loc main_arg0)
/-- Its column sums over the block's 1024 rows, as the kernel's first reduction computes them. -/
def psum (c : Dev nD) : FVec F S1x512 .f32 := k0_pay2 (xblk m c)
/-- The device whose partial sums row `k` of `c`'s exchange buffer ends holding: `k` steps behind `c`. -/
def donor (c : Dev nD) (k : Fin 16) : Dev nD := ⟨(c.val + 16 - k.val) % 16, Nat.mod_lt _ (by decide)⟩
theorem donor_zero (c : Dev nD) : donor c 0 = c := by revert c; decide
theorem donor_succ (c : Dev nD) (d : Fin 15) : donor c ⟨d.val + 1, by omega⟩ = src c d := by revert c d; decide
/-- The exchange buffer's final contents on device `c`. -/
def commFinal (c : Dev nD) : Vec F S16x512 .f32 := fun i => psum m (donor c (i 0)) (ValueIdx.ix2 (0 : Fin 1) (i 1))
/-- The kernel's result on device `c`: the sixteen partial sums added and scaled. -/
def outAt (c : Dev nD) : FVec F S1x512 .f32 := k0_pay1 (k0_pay3 (commFinal m c))

/-! ## Shares of the source row: fifteen transfers read it at once -/

def restSh : ℕ → PosShare TreeShare
  | 0 => fullShare
  | n + 1 => (restSh n).right
def sendSh (n : ℕ) : PosShare TreeShare := (restSh n).left
open PCS in
theorem restSh_split (n : ℕ) : restSh n ∈ sendSh n ·? restSh (n + 1) := PosShare.mem_left_op_right _

/-! ## Points-to, by buffer and by row -/

/-- Row `k` of device `c`'s exchange buffer at share `q`, holding (on that row) what `f` holds there. -/
def rowPts (c : Dev nD) (k : ℕ) (hk : k < 16) (q : PosShare TreeShare)
    (f : Buf (Elt F) ((cM : Memref sig .tc .vmem S16x512 .f32).view.loc (c : Thread nD τ))) : sProp 𝕄 :=
  (rowM k hk).view.loc (c : Thread nD τ) ↦[(rowM k hk).view.set]{q} f
def commPts (c : Dev nD) (f : Buf (Elt F) ((cM : Memref sig .tc .vmem S16x512 .f32).view.loc (c : Thread nD τ))) : sProp 𝕄 :=
  (cM : Memref sig .tc .vmem S16x512 .f32).view.loc (c : Thread nD τ) ↦[(cM : Memref sig .tc .vmem S16x512 .f32).view.set]{fullShare} f
def xVPts (c : Dev nD) (f : Buf (Elt F) ((xV : Memref sig .tc .vmem S1024x512 .f32).view.loc (c : Thread nD τ))) : sProp 𝕄 :=
  (xV : Memref sig .tc .vmem S1024x512 .f32).view.loc (c : Thread nD τ) ↦[(xV : Memref sig .tc .vmem S1024x512 .f32).view.set]{fullShare} f
def xHPts (c : Dev nD) : sProp 𝕄 :=
  (xH : Memref sig .tc .hbm S1024x512 .f32).view.loc (c : Thread nD τ) ↦[(xH : Memref sig .tc .hbm S1024x512 .f32).view.set]{fullShare} xblk m c

end Cert.KernelIdeal.Dist

end
-- ==== Proof.Dist.Sched.lean ====
/- The exchange's schedule. Every cell has one round. A device's barrier cell has fifteen duties of one unit, duty d paid by
   the device d+1 steps behind, handing over the row of ITS exchange buffer that this device's copy will fill, and
   that its receive cell for that copy stands at round 0. The copy cell, each send cell and each receive cell have one
   duty: the landed block of x with the source back; the share of the source row lent to that transfer back; the
   landed row, holding the sender's partial sums. -/
import proofs.«900934_g7700000000000935_dist_mean_ax0_shard0_i_m1024_n512_v7x_i16_bf16_1_alg».proof.Proof.Dist.Cells

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The payloads -/

/-- Duty `d` of `c`'s barrier cell, paid by `src c d`: that device's row `rev d + 1`, where `c`'s copy of shift
    `rev d + 1` lands, and that its receive cell of that shift stands at round 0. -/
def barPay (c : Dev nD) (d : Fin 15) : sProp 𝕄 :=
  iprop((∃ f, rowPts (src c d) ((rev d).val + 1) (by omega) fullShare f) ∗ reached ER (recvCell (src c d) (rev d)) 0)
/-- The local copy of the block of `x` landed, the source back. -/
def copyPay (c : Dev nD) : sProp 𝕄 := iprop(xVPts c (xblk m c) ∗ xHPts m c)
/-- The share of the source row lent to the transfer of shift `e + 1`, back. -/
def sendPay (c : Dev nD) (e : Fin 15) : sProp 𝕄 := rowPts c 0 (by decide) (sendSh e.val) (commFinal m c)
/-- Row `e + 1` landed: the partial sums of the device `e + 1` steps behind. -/
def recvPay (c : Dev nD) (e : Fin 15) : sProp 𝕄 := rowPts c (e.val + 1) (by omega) fullShare (commFinal m c)

def payOf (c : Dev nD) (d : Fin 15) : CK → sProp 𝕄
  | .bar => barPay c d
  | .copy => copyPay m c
  | .send e => sendPay m c e
  | .recv e => recvPay m c e
  | .other => iprop(emp)

/-- One round, round 0. -/
def sched : Rounds.Schedule (GSem nD τ sig) (Fin 15) 𝕄 where
  duties g r := if r = 0 ∧ g.1.2 = .tc then (match kind g.2 with | .bar => Finset.univ | .other => ∅ | _ => {0}) else ∅
  unitless _ := False
  amount g _ _ := match kind g.2 with | .bar => 1 | .copy => NX | _ => N
  payload g _ d := payOf m g.1.1 d (kind g.2)
  amount_pos g _ _ _ := by
    cases kind g.2 <;> first | exact Nat.one_pos | exact NX_pos | exact N_pos

instance payOf_storable (c : Dev nD) (d : Fin 15) (k : CK) : BI.Storable (upEmb : UEmb _ 𝕄) (payOf (F := F) m c d k) := by
  cases k <;> (unfold payOf barPay copyPay sendPay recvPay rowPts xVPts xHPts) <;> infer_instance

instance sched_payload_storable (g : GSem nD τ sig) (r : ℕ) (d : Fin 15) :
    BI.Storable (upEmb : UEmb _ 𝕄) ((sched (F := F) m).payload g r d) := by
  show BI.Storable upEmb (payOf m g.1.1 d (kind g.2)); infer_instance

/-! ## The table -/

section Table
variable (c : Dev nD) (e : Fin 15)

theorem duties_bar : (sched (F := F) m).duties (barCell c) 0 = Finset.univ := by
  dsimp only [sched]; rw [if_pos ⟨rfl, rfl⟩, kind_bar]
theorem duties_copy : (sched (F := F) m).duties (copyCell c) 0 = {0} := by
  dsimp only [sched]; rw [if_pos ⟨rfl, rfl⟩, kind_copy]
theorem duties_send : (sched (F := F) m).duties (sendCell c e) 0 = {0} := by
  dsimp only [sched]; rw [if_pos ⟨rfl, rfl⟩, kind_send]
theorem duties_recv : (sched (F := F) m).duties (recvCell c e) 0 = {0} := by
  dsimp only [sched]; rw [if_pos ⟨rfl, rfl⟩, kind_recv]
theorem duties_later (g : GSem nD τ sig) : ∀ r, 1 ≤ r → (sched (F := F) m).duties g r = ∅ :=
  fun r hr => by dsimp only [sched]; rw [if_neg fun h => by omega]

theorem amount_bar (d : Fin 15) : (sched (F := F) m).amount (barCell c) 0 d = 1 := by dsimp only [sched]; rw [kind_bar]
theorem amount_copy (d : Fin 15) : (sched (F := F) m).amount (copyCell c) 0 d = NX := by dsimp only [sched]; rw [kind_copy]
theorem amount_send (d : Fin 15) : (sched (F := F) m).amount (sendCell c e) 0 d = N := by dsimp only [sched]; rw [kind_send]
theorem amount_recv (d : Fin 15) : (sched (F := F) m).amount (recvCell c e) 0 d = N := by dsimp only [sched]; rw [kind_recv]

/-- The units a round expects: its duties' amounts added. -/
theorem expect_eq (g : GSem nD τ sig) (r : ℕ) :
    (sched (F := F) m).expect g r = ∑ d ∈ (sched (F := F) m).duties g r, (sched (F := F) m).amount g r d := rfl

theorem expect_bar : (sched (F := F) m).expect (barCell c) 0 = 15 := by
  rw [expect_eq, duties_bar, Finset.sum_congr rfl fun d _ => amount_bar m c d, Finset.sum_const, Finset.card_univ, Fintype.card_fin, smul_eq_mul]
theorem expect_copy : (sched (F := F) m).expect (copyCell c) 0 = NX := by
  rw [expect_eq, duties_copy, Finset.sum_singleton, amount_copy]
theorem expect_send : (sched (F := F) m).expect (sendCell c e) 0 = N := by
  rw [expect_eq, duties_send, Finset.sum_singleton, amount_send]
theorem expect_recv : (sched (F := F) m).expect (recvCell c e) 0 = N := by
  rw [expect_eq, duties_recv, Finset.sum_singleton, amount_recv]

theorem payload_bar (d : Fin 15) : (sched (F := F) m).payload (barCell c) 0 d = barPay c d := by
  dsimp only [sched]; rw [kind_bar]; rfl
theorem payload_copy (d : Fin 15) : (sched (F := F) m).payload (copyCell c) 0 d = copyPay m c := by
  dsimp only [sched]; rw [kind_copy]; rfl
theorem payload_send (d : Fin 15) : (sched (F := F) m).payload (sendCell c e) 0 d = sendPay m c e := by
  dsimp only [sched]; rw [kind_send]; rfl
theorem payload_recv (d : Fin 15) : (sched (F := F) m).payload (recvCell c e) 0 d = recvPay m c e := by
  dsimp only [sched]; rw [kind_recv]; rfl

/-- The whole of a one-duty round, nothing taken yet, is that duty's payload; the barrier's the fifteen payloads. -/
theorem rest_copy : bigSep ((sched (F := F) m).duties (copyCell c) 0 \ ∅) (fun d => (sched (F := F) m).payload (copyCell c) 0 d) = copyPay m c := by
  rw [Finset.sdiff_empty, duties_copy, bigSep_singleton, payload_copy]
theorem rest_send : bigSep ((sched (F := F) m).duties (sendCell c e) 0 \ ∅) (fun d => (sched (F := F) m).payload (sendCell c e) 0 d) = sendPay m c e := by
  rw [Finset.sdiff_empty, duties_send, bigSep_singleton, payload_send]
theorem rest_recv : bigSep ((sched (F := F) m).duties (recvCell c e) 0 \ ∅) (fun d => (sched (F := F) m).payload (recvCell c e) 0 d) = recvPay m c e := by
  rw [Finset.sdiff_empty, duties_recv, bigSep_singleton, payload_recv]
theorem rest_bar : bigSep ((sched (F := F) m).duties (barCell c) 0 \ ∅) (fun d => (sched (F := F) m).payload (barCell c) 0 d)
    = bigSep Finset.univ (fun d : Fin 15 => barPay (F := F) c d) := by
  rw [Finset.sdiff_empty, duties_bar]; exact bigSep_congr fun d _ => payload_bar m c d

end Table

end Cert.KernelIdeal.Dist

end
-- ==== Proof.Dist.Owes.lean ====
/- What a device owes at launch — one unit to each other device's barrier cell and a row's credit to the receive cell
   of each of its fifteen copies — written as a chain that the body's payments peel in program order; the levels
   (barrier cells below receive cells, everything else lowest) and the evidence each wait needs; the credit tokens the
   launch deals a device for its own barrier and receive cells. -/
import proofs.«900934_g7700000000000935_dist_mean_ax0_shard0_i_m1024_n512_v7x_i16_bf16_1_alg».proof.Proof.Dist.Sched

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The shift as a number. -/
def dN (j : ℕ) : Fin 15 := ⟨j % 15, Nat.mod_lt _ (by decide)⟩

/-- The payments of device `c`, numbered from the LAST one back: 0 to 14 the copies of shift 15 down to 1 (to the
    target's receive cell), 15 to 29 the barrier signals of shift 15 down to 1. -/
def evCell (c : Dev nD) (k : ℕ) : GSem nD τ sig :=
  if k < 15 then recvCell (peer c (dN (14 - k))) (dN (14 - k)) else barCell (peer c (dN (29 - k)))
def evAmt (k : ℕ) : ℕ := if k < 15 then N else 1

/-- What is still owed when the last `k` payments are outstanding. -/
def owe (c : Dev nD) : ℕ → CellTallies nD τ sig Unit
  | 0 => 0
  | k + 1 => owe c k + tallyAt (evCell c k) () (evAmt k)

def O₀ (c : Dev nD) : CellTallies nD τ sig Unit := owe c 30

theorem owe_succ (c : Dev nD) (k : ℕ) : owe c (k + 1) = owe c k + tallyAt (evCell c k) () (evAmt k) := rfl

/-- The peeling equations the body uses, at the literal positions. -/
theorem evCell_lt {c : Dev nD} {j : ℕ} (h : j < 15) : evCell c j = recvCell (peer c (dN (14 - j))) (dN (14 - j)) := if_pos h
theorem evCell_ge {c : Dev nD} {j : ℕ} (h : ¬ j < 15) : evCell c j = barCell (peer c (dN (29 - j))) := if_neg h
theorem evAmt_lt {j : ℕ} (h : j < 15) : evAmt j = N := if_pos h
theorem evAmt_ge {j : ℕ} (h : ¬ j < 15) : evAmt j = 1 := if_neg h

theorem owe_sig (c : Dev nD) (d : Fin 15) : owe c (30 - d.val) = owe c (29 - d.val) + tallyAt (barCell (peer c d)) () 1 := by
  have hd := d.isLt
  have h : 30 - d.val = (29 - d.val) + 1 := by omega
  have h1 : ¬ (29 - d.val < 15) := by omega
  have h2 : dN (29 - (29 - d.val)) = d := Fin.ext (by show (29 - (29 - d.val)) % 15 = d.val; omega)
  rw [h, owe_succ, evCell_ge h1, evAmt_ge h1, h2]
theorem owe_send (c : Dev nD) (e : Fin 15) : owe c (15 - e.val) = owe c (14 - e.val) + tallyAt (recvCell (peer c e) e) () N := by
  have he := e.isLt
  have h : 15 - e.val = (14 - e.val) + 1 := by omega
  have h1 : 14 - e.val < 15 := by omega
  have h2 : dN (14 - (14 - e.val)) = e := Fin.ext (by show (14 - (14 - e.val)) % 15 = e.val; omega)
  rw [h, owe_succ, evCell_lt h1, evAmt_lt h1, h2]

def L (g : GSem nD τ sig) : Finset Unit := if g.1.2 = .tc then {()} else ∅
/-- Barrier cells at 1, receive cells at 2, everything else (staging, copy, send) at 0. -/
def lv (g : GSem nD τ sig) (_ : Unit) : ℕ := match kind g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Whatever is owed is owed to a barrier cell or a receive cell of a TensorCore. -/
theorem owe_pos {c : Dev nD} {k : ℕ} {g : GSem nD τ sig} {u : Unit} (h : 0 < owe c k g u) : ∃ j, j < k ∧ g = evCell c j := by
  induction k with
  | zero =>
    rw [show owe c 0 = 0 from rfl, Pi.zero_apply, Finsupp.zero_apply] at h
    exact absurd h (Nat.lt_irrefl 0)
  | succ k ih =>
    rw [owe_succ] at h
    rcases Pipeline.add_pos_cases h with h1 | h2
    · obtain ⟨j, hj, e⟩ := ih h1
      exact ⟨j, Nat.lt_succ_of_lt hj, e⟩
    · rw [tallyAt_apply] at h2
      by_cases hh : g = evCell c k ∧ u = ()
      · exact ⟨k, Nat.lt_succ_self k, hh.1⟩
      · rw [if_neg hh] at h2; exact absurd h2 (Nat.lt_irrefl 0)

/-- The cells owed to are TensorCore cells, -/
theorem L_evCell (c : Dev nD) (j : ℕ) : L (evCell c j) = {()} := by
  by_cases h : j < 15
  · rw [evCell_lt h]; exact L_tc _ _
  · rw [evCell_ge h]; exact L_tc _ _
/-- a receive cell (level 2) for the last fifteen payments, a barrier cell (level 1) for the first fifteen. -/
theorem lv_recv (c : Dev nD) (e : Fin 15) (u : Unit) : lv (recvCell c e) u = 2 := by
  dsimp only [lv]; rw [kind_recv]
theorem lv_bar (c : Dev nD) (u : Unit) : lv (barCell c) u = 1 := by
  dsimp only [lv]; rw [kind_bar]
theorem lv_evCell_lt (c : Dev nD) {j : ℕ} (h : j < 15) (u : Unit) : lv (evCell c j) u = 2 := by
  rw [evCell_lt h]; exact lv_recv _ _ _
theorem lv_evCell_pos (c : Dev nD) (j : ℕ) (u : Unit) : 0 < lv (evCell c j) u := by
  by_cases h : j < 15
  · rw [evCell_lt h, lv_recv]; decide
  · rw [evCell_ge h, lv_bar]; decide

/-- A wait on a cell at level 0 (staging, copy, send) while owing any part of the launch's tallies. -/
theorem mayWait_low (c : Dev nD) (sm : SemLoc sig) (hsm : lv ((c : Thread nD τ), sm) () = 0) (k : ℕ) :
    (levAts L lv : sProp 𝕄) ⊢ MayWait (c : Thread nD τ) sm () (owe c k) :=
  MayOwe.of_cut (L := L) (lev := lv) 0
    (fun p hp => by rw [Finset.mem_singleton.mp hp, L_tc]; exact Finset.mem_singleton_self _)
    (fun g u hg => by obtain ⟨j, -, rfl⟩ := owe_pos hg; rw [L_evCell]; exact Finset.mem_singleton_self _)
    (fun p hp => by rw [Finset.mem_singleton.mp hp]; exact le_of_eq hsm)
    (fun g u hg => by obtain ⟨j, -, rfl⟩ := owe_pos hg; exact lv_evCell_pos c j u)

/-- At its barrier wait a device owes only the fifteen receive credits: receive cells sit above barrier cells. -/
theorem mayWait_bar (c : Dev nD) :
    (levAts L lv : sProp 𝕄) ⊢ MayWait (c : Thread nD τ) (.reg barS) () (owe c 15) :=
  MayOwe.of_cut (L := L) (lev := lv) 1
    (fun p hp => by rw [Finset.mem_singleton.mp hp, L_tc]; exact Finset.mem_singleton_self _)
    (fun g u hg => by obtain ⟨j, -, rfl⟩ := owe_pos hg; rw [L_evCell]; exact Finset.mem_singleton_self _)
    (fun p hp => by rw [Finset.mem_singleton.mp hp]; exact le_of_eq (lv_bar c ()))
    (fun g u hg => by obtain ⟨j, hj, rfl⟩ := owe_pos hg; rw [lv_evCell_lt c hj]; decide)

/-! ## The launch credit -/

/-- Payment `j` of every device, as a family over the devices. -/
def evTally (j : ℕ) (d : Dev nD) : CellTallies nD τ sig Unit := tallyAt (evCell d j) () (evAmt j)

theorem owe_eq_sum (c : Dev nD) (k : ℕ) : owe c k = ∑ j ∈ Finset.range k, evTally j c := by
  induction k with
  | zero => rfl
  | succ k ih => rw [owe_succ, Finset.sum_range_succ, ih]; rfl

theorem O₀_eq_sum : (O₀ : Dev nD → CellTallies nD τ sig Unit) = fun d => ∑ j ∈ Finset.range 30, evTally j d :=
  funext fun d => owe_eq_sum d 30

/-- Payment `j < 15` is each device's copy of one shift: a bijection of the mesh onto the receive cells of that shift, -/
theorem launch_recv (c : Dev nD) {j : ℕ} (h : j < 15) :
    (Pipeline.launchCred (evTally j) c : sProp 𝕄) ⊢ cred (tallyAt (recvCell c (dN (14 - j))) () N) := by
  have hT : (evTally j : Dev nD → CellTallies nD τ sig Unit)
      = fun d => tallyAt (((peer d (dN (14 - j))).tc : Thread nD τ), SemLoc.dma (recvS (dN (14 - j)))) () N := by
    funext d; unfold evTally; rw [evCell_lt h, evAmt_lt h]
  rw [hT]
  exact Pipeline.launchCred_tallyAt (.dma (recvS (dN (14 - j)))) (fun d => peer d (dN (14 - j))) (fun d => src d (dN (14 - j)))
    (fun x => peer_src x _) (fun x => src_peer x _) () N c
/-- payment `j ≥ 15` each device's signal of one shift: a bijection of the mesh onto the barrier cells. -/
theorem launch_bar (c : Dev nD) {j : ℕ} (h : ¬ j < 15) :
    (Pipeline.launchCred (evTally j) c : sProp 𝕄) ⊢ cred (tallyAt (barCell c) () 1) := by
  have hT : (evTally j : Dev nD → CellTallies nD τ sig Unit)
      = fun d => tallyAt (((peer d (dN (29 - j))).tc : Thread nD τ), SemLoc.reg barS) () 1 := by
    funext d; unfold evTally; rw [evCell_ge h, evAmt_ge h]
  rw [hT]
  exact Pipeline.launchCred_tallyAt (.reg barS) (fun d => peer d (dN (29 - j))) (fun d => src d (dN (29 - j)))
    (fun x => peer_src x _) (fun x => src_peer x _) () 1 c

/-- Unit tokens on one cell add up. -/
theorem cred_units (g : GSem nD τ sig) (s : Finset ℕ) :
    (bigSep s fun _ => cred (tallyAt g () 1) : sProp 𝕄) ⊢ cred (tallyAt g () s.card) := by
  induction s using Finset.induction_on with
  | empty => rw [bigSep_empty, Finset.card_empty, tallyAt_zero, cred_zero]; exact BI.Entails.refl _
  | insert a s ha ih =>
    rw [bigSep_insert ha, Finset.card_insert_of_notMem ha, Nat.add_comm, ← tallyAt_add]
    exact (sep_mono_right ih).trans (cred_add _ _).2

theorem dN_injOn : Set.InjOn (fun j : ℕ => dN (14 - j)) (Finset.range 15 : Finset ℕ) := by
  intro a ha b hb hab
  have ha' := Finset.mem_range.mp (Finset.mem_coe.mp ha)
  have hb' := Finset.mem_range.mp (Finset.mem_coe.mp hb)
  have h := congrArg Fin.val hab
  change (14 - a) % 15 = (14 - b) % 15 at h
  omega
theorem dN_image : (Finset.range 15).image (fun j : ℕ => dN (14 - j)) = (Finset.univ : Finset (Fin 15)) := by decide

/-- The credit tokens the launch deals device `c`: its barrier's fifteen units and each receive cell's row credit. -/
theorem creds (c : Dev nD) :
    (Pipeline.launchCred O₀ c : sProp 𝕄)
      ⊢ iprop(cred (tallyAt (barCell c) () 15) ∗ bigSep Finset.univ fun e : Fin 15 => cred (tallyAt (recvCell c e) () N)) := by
  have hrecv : (bigSep (Finset.range 15) fun j => (Pipeline.launchCred (evTally j) c : sProp 𝕄))
      ⊢ bigSep Finset.univ fun e : Fin 15 => cred (tallyAt (recvCell c e) () N) := by
    rw [← dN_image, bigSep_image_of_injOn dN_injOn]
    exact bigSep_mono fun j hj => launch_recv c (Finset.mem_range.mp hj)
  have hbar : (bigSep (Finset.range 30 \ Finset.range 15) fun j => (Pipeline.launchCred (evTally j) c : sProp 𝕄))
      ⊢ cred (tallyAt (barCell c) () 15) :=
    (bigSep_mono fun j hj => launch_bar c (fun h => (Finset.mem_sdiff.mp hj).2 (Finset.mem_range.mpr h))).trans
      ((cred_units (barCell c) _).trans (Entails.of_eq (by rw [show (Finset.range 30 \ Finset.range 15).card = 15 from by decide])))
  have hsplit : (bigSep (Finset.range 30) fun j => (Pipeline.launchCred (evTally j) c : sProp 𝕄))
      = iprop((bigSep (Finset.range 15) fun j => (Pipeline.launchCred (evTally j) c : sProp 𝕄))
          ∗ bigSep (Finset.range 30 \ Finset.range 15) fun j => (Pipeline.launchCred (evTally j) c : sProp 𝕄)) :=
    bigSep_sdiff_split (t := Finset.range 15) (by decide)
  rw [O₀_eq_sum, Pipeline.launchCred_sum, hsplit]
  iintro ⟨H1, H2⟩
  isplitl [H2]
  · iapply hbar; iexact H2
  · iapply hrecv; iexact H1

end Cert.KernelIdeal.Dist

end
-- ==== Proof.Dist.Ghost.lean ====
/- The ghost state a device's body starts from, the body's invariant before and after the one grid point, and the
   pipeline's proof data. Every device holds every cell's invariant and that every cell stands at round 0 (persistent
   facts); its own cells' positions; and the tokens of the duties IT pays: its signal's duty in each other device's
   barrier cell, the receive duty of each of its copies, its own send duties and its local copy's. -/
import proofs.«900934_g7700000000000935_dist_mean_ax0_shard0_i_m1024_n512_v7x_i16_bf16_1_alg».proof.Proof.Dist.Owes

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- Every cell's invariant under the names the launch allocated them at, and every cell at round 0. -/
def records (K : Dev nD × Fin 32 → ℕ) : sProp 𝕄 :=
  iprop((bigSep Finset.univ fun ck : Dev nD × Fin 32 => cellInv ER (sched m) (K ck) (kcell ck))
    ∗ bigSep Finset.univ fun ck : Dev nD × Fin 32 => reached ER (kcell ck) 0)

instance records_persistent (K : Dev nD × Fin 32 → ℕ) : BI.Persistent (records (F := F) m K) := by unfold records; infer_instance

/-- Device `c`'s positions in its own thirty-two cells. -/
def positions (c : Dev nD) : sProp 𝕄 := bigSep Finset.univ fun k : Fin 32 => atPos ER (kcell (c, k)) 0 ∅ 0

/-- The tokens of the duties device `c` pays. -/
def payToks (c : Dev nD) : sProp 𝕄 :=
  iprop((bigSep Finset.univ fun d : Fin 15 => dutyTok ER (barCell (peer c d)) 0 d)
    ∗ (bigSep Finset.univ fun e : Fin 15 => dutyTok ER (recvCell (peer c e) e) 0 (0 : Fin 15))
    ∗ (bigSep Finset.univ fun e : Fin 15 => dutyTok ER (sendCell c e) 0 (0 : Fin 15))
    ∗ dutyTok ER (copyCell c) 0 (0 : Fin 15))

def ghost (K : Dev nD × Fin 32 → ℕ) (c : Dev nD) : sProp 𝕄 := iprop(records m K ∗ positions c ∗ payToks c)

/-- What device `c`'s body starts from beside its scoped buffers: the ghost state at some names, the credit tokens of its
    barrier cell and of its fifteen receive cells, the level facts, and its block of `x`. -/
def start (c : Dev nD) : sProp 𝕄 :=
  iprop((∃ K, ghost m K c) ∗ cred (tallyAt (barCell c) () 15) ∗ (bigSep Finset.univ fun e : Fin 15 => cred (tallyAt (recvCell c e) () N))
    ∗ levAts L lv ∗ xHPts m c)

/-- Before the point: that, and the two scratch buffers at some contents. -/
def Φ₀ (c : Dev nD) : sProp 𝕄 := iprop(start m c ∗ (∃ f, xVPts c f) ∗ (∃ f, commPts c f))
/-- After it: the block of `x` untouched, the scratch buffers (the exchange buffer at its final contents), and the kernel's
    thirty-one own semaphores at zero, their cells closed. -/
def Φ₁ (c : Dev nD) : sProp 𝕄 :=
  iprop(xHPts m c ∗ (∃ f, xVPts c f) ∗ commPts c (commFinal m c) ∗ bigSep Finset.univ fun j : Fin 31 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

end Cert.KernelIdeal.Dist

end
-- ==== Proof.LibLandingRestated.lean ====
/- Two general facts used wherever a transfer lands in a part of a buffer that is held region by region.
   First: a view overwritten on every index holds, on its own elements, any contents whose read through the view is
   what was written; so a landing "the destination's old contents with the payload written through the view" may be
   restated at any whole-buffer function that agrees with the payload on the view (the final contents of an array that
   is written stripe by stripe, for instance), by congruence of a region points-to on its elements.
   Second: one summand of a separating conjunction over a finite set, with the remaining conjunction written out. -/
import Idealize.ShloMosaic.Lib.Pipeline.Value
import Idealize.SL.BI.BigOp

namespace Cert.Lib

open Idealize.ShloMosaic
open Idealize.SL Idealize.SL.RA Idealize.SL.BI
open scoped Idealize.SL.BI
open Idealize.SL.BI.BIBase

/-- A view overwritten on every index holds, on its elements, any contents that read back as what was written. -/
theorem write_univ_eq_on {sig : RefSig} {Val : EltTy → Type} {κ : Kind} {sp : Space} {s : Shape} {e : EltTy}
    (d : View sig κ sp s e) (fd T : d.ty.Contents Val) (w : s.Idx → Val e) (hT : ∀ y, d.read Val T y = w y) :
    ∀ i ∈ d.set, d.write Val fd w Finset.univ i = T i := by
  intro i hi
  obtain ⟨y, rfl⟩ := d.exists_emb_of_mem_set hi
  rw [View.write_emb_of_mem _ _ (Finset.mem_univ y), ← hT y, View.read_apply, cast_cast, cast_eq]

/-- One summand taken out of a separating conjunction over a finite set; the right side is written as a separating
    conjunction so that it can be destructed at once. -/
theorem bigSep_pick {M : Type} [URA M] {I : Type} [DecidableEq I] {s : Finset I} {i : I} (hi : i ∈ s) (Φ : I → sProp M) :
    bigSep s Φ ⊢ iprop(Φ i ∗ bigSep (s.erase i) Φ) := Entails.of_eq (bigSep_erase hi)

/-- info: 'Cert.Lib.write_univ_eq_on' depends on axioms: [propext, Classical.choice, Quot.sound] -/
#guard_msgs in #print axioms write_univ_eq_on

end Cert.Lib
-- ==== Proof.Dist.Rows.lean ====
/- The exchange buffer cut into its sixteen rows and the source row into the shares lent to the fifteen copies; a row's
   points-to depends on that row's contents only; the final contents read row by row; the store of the partial sums and a
   landed row restated at the final contents. -/
import proofs.«900934_g7700000000000935_dist_mean_ax0_shard0_i_m1024_n512_v7x_i16_bf16_1_alg».proof.Proof.Dist.Ghost
import proofs.«900934_g7700000000000935_dist_mean_ax0_shard0_i_m1024_n512_v7x_i16_bf16_1_alg».proof.Proof.LibLandingRestated

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The exchange buffer by rows, the source row by shares -/

/-- Every element of the exchange buffer is under the whole buffer's view. -/
private theorem mem_comm_set (i : (cM : Memref sig .tc .vmem S16x512 .f32).view.ty.Idx) :
    i ∈ (cM : Memref sig .tc .vmem S16x512 .f32).view.set ↔ True := by
  have h : (cM : Memref sig .tc .vmem S16x512 .f32).view.set = Finset.univ := View.set_whole cc0_scratch1
  rw [h]; exact iff_of_true (Finset.mem_univ i) trivial

/-- An element of the exchange buffer is in row `k` exactly when its first coordinate is `k`. -/
private theorem mem_row_set (k : ℕ) (hk : k < 16) (i : (cM : Memref sig .tc .vmem S16x512 .f32).view.ty.Idx) :
    i ∈ (rowM k hk).view.set ↔ (i 0).val = k := by
  have h : (rowM k hk).view.set = (Rect.unit (s := S16x512) ![k, 0] S1x512.size (row_inb k hk)).set :=
    View.set_slice_whole cc0_scratch1 _
  rw [h, Rect.mem_set_unit]
  constructor
  · intro h
    have h0 := h 0
    have h1 : k ≤ (i 0).val ∧ (i 0).val < k + 1 := h0
    omega
  · intro h a
    fin_cases a
    · show k ≤ (i 0).val ∧ (i 0).val < k + 1
      omega
    · show 0 ≤ (i 1).val ∧ (i 1).val < 0 + 512
      have := (i 1).isLt
      have h512 : (i 1).val < 512 := this
      omega

theorem comm_rows (c : Dev nD) (f : Buf (Elt F) ((cM : Memref sig .tc .vmem S16x512 .f32).view.loc (c : Thread nD τ))) :
    (commPts c f : sProp 𝕄) ⊣⊢ bigSep Finset.univ fun k : Fin 16 => rowPts c k.val k.isLt fullShare f := by
  have hset : (cM : Memref sig .tc .vmem S16x512 .f32).view.set
      = Finset.univ.biUnion fun k : Fin 16 => (rowM k.val k.isLt).view.set := by
    ext i
    rw [mem_comm_set, Finset.mem_biUnion]
    refine iff_of_true trivial ⟨⟨(i 0).val, (i 0).isLt⟩, Finset.mem_univ _, ?_⟩
    rw [mem_row_set]
  have hdisj : ∀ t ∈ (Finset.univ : Finset (Fin 16)), ∀ t' ∈ (Finset.univ : Finset (Fin 16)), t ≠ t' →
      Disjoint (rowM t.val t.isLt).view.set (rowM t'.val t'.isLt).view.set := by
    intro t _ t' _ hne
    rw [Finset.disjoint_left]
    intro i hi hi'
    rw [mem_row_set] at hi hi'
    exact hne (Fin.ext (hi.symm.trans hi'))
  have key : (commPts c f : sProp 𝕄) = bigSep Finset.univ fun k : Fin 16 => rowPts c k.val k.isLt fullShare f := by
    unfold commPts
    rw [hset]
    exact pointsTo_biUnion Finset.univ _ hdisj
  exact ⟨Entails.of_eq key, Entails.of_eq key.symm⟩

/-- Moving the middle conjunct of three to the front. -/
private theorem sep_rot {M : Type} [URA M] {P Q R : sProp M} : iprop(P ∗ Q ∗ R) ⊣⊢ iprop((Q ∗ P) ∗ R) := by
  constructor
  · iintro ⟨HP, HQ, HR⟩
    isplitr [HR]
    · isplitl [HQ]
      · iexact HQ
      · iexact HP
    · iexact HR
  · iintro ⟨⟨HQ, HP⟩, HR⟩
    isplitl [HP]
    · iexact HP
    · isplitl [HQ]
      · iexact HQ
      · iexact HR

/-- The source row at the full share is the first `n` lent shares and the rest after them. -/
private theorem row0_shares_range (c : Dev nD) (f : Buf (Elt F) ((cM : Memref sig .tc .vmem S16x512 .f32).view.loc (c : Thread nD τ))) (n : ℕ) :
    (rowPts c 0 (by decide) fullShare f : sProp 𝕄)
      = iprop((bigSep (Finset.range n) fun e : ℕ => rowPts c 0 (by decide) (sendSh e) f) ∗ rowPts c 0 (by decide) (restSh n) f) := by
  induction n with
  | zero =>
    rw [Finset.range_zero, bigSep_empty]
    exact (BI.equiv_iff.mp BI.emp_sep).symm
  | succ n ih =>
    have hs : (rowPts c 0 (by decide) (restSh n) f : sProp 𝕄)
        ⊣⊢ iprop(rowPts c 0 (by decide) (sendSh n) f ∗ rowPts c 0 (by decide) (restSh (n + 1)) f) := by
      unfold rowPts
      exact pointsTo_share (restSh_split n)
    rw [ih, BI.equiv_iff.mp ⟨hs.1, hs.2⟩, Finset.range_add_one, bigSep_insert Finset.notMem_range_self]
    exact BI.equiv_iff.mp ⟨sep_rot.1, sep_rot.2⟩

theorem row0_shares (c : Dev nD) (f : Buf (Elt F) ((cM : Memref sig .tc .vmem S16x512 .f32).view.loc (c : Thread nD τ))) :
    (rowPts c 0 (by decide) fullShare f : sProp 𝕄)
      ⊣⊢ iprop((bigSep Finset.univ fun e : Fin 15 => rowPts c 0 (by decide) (sendSh e.val) f) ∗ rowPts c 0 (by decide) (restSh 15) f) := by
  have hr : (Finset.univ : Finset (Fin 15)).map Fin.valEmbedding = Finset.range 15 := by
    ext x
    rw [Finset.mem_map, Finset.mem_range]
    constructor
    · rintro ⟨y, -, rfl⟩; exact y.isLt
    · intro hx; exact ⟨⟨x, hx⟩, Finset.mem_univ _, rfl⟩
  have h := row0_shares_range (F := F) c f 15
  rw [← hr, bigSep_map] at h
  exact ⟨Entails.of_eq h, Entails.of_eq h.symm⟩

/-- A row's points-to depends on the contents on that row only. -/
theorem rowPts_congr (c : Dev nD) (k : ℕ) (hk : k < 16) (q : PosShare TreeShare)
    (f g : Buf (Elt F) ((cM : Memref sig .tc .vmem S16x512 .f32).view.loc (c : Thread nD τ)))
    (h : ∀ y, (rowM k hk).view.read (Elt F) f y = (rowM k hk).view.read (Elt F) g y) :
    (rowPts c k hk q f : sProp 𝕄) = rowPts c k hk q g := by
  unfold rowPts
  refine pointsTo_congr fun i hi => ?_
  obtain ⟨y, rfl⟩ := (rowM k hk).view.exists_emb_of_mem_set hi
  have hy := h y
  rw [View.read_apply, View.read_apply] at hy
  exact (cast_inj _).mp hy

/-- Row `k` of the final contents, read through the row's view: the partial sums of the device `k` steps behind. -/
theorem read_commFinal (c : Dev nD) (k : ℕ) (hk : k < 16) :
    (rowM k hk).view.read (Elt F) (commFinal m c) = psum m (donor c ⟨k, hk⟩) := by
  funext y
  have hy0 : (y 0).val = 0 := by
    have h1 : (y 0).val < 1 := (y 0).isLt
    omega
  have hrow : ((rowM k hk).view.emb y) 0 = (⟨k, hk⟩ : Fin 16) := by
    apply Fin.ext
    show k + 1 * (y 0).val = k
    omega
  have hcol : ((rowM k hk).view.emb y) 1 = y 1 := by
    apply Fin.ext
    show 0 + 1 * (y 1).val = (y 1).val
    omega
  have hy : y = ValueIdx.ix2 (0 : Fin 1) (y 1) := by
    rw [ValueIdx.eq_ix2 y]
    congr 1
    exact Fin.ext hy0
  show commFinal m c ((rowM k hk).view.emb y) = psum m (donor c ⟨k, hk⟩) y
  unfold commFinal
  show psum m (donor c (((rowM k hk).view.emb y) 0)) (ValueIdx.ix2 (0 : Fin 1) (((rowM k hk).view.emb y) 1)) = _
  rw [hrow, hcol]
  exact congrArg _ hy.symm

/-- The store of the partial sums into row 0, restated at the final contents. -/
theorem store_row0 (c : Dev nD) (f : Buf (Elt F) ((cM : Memref sig .tc .vmem S16x512 .f32).view.loc (c : Thread nD τ))) :
    (rowPts c 0 (by decide) fullShare
      (((cM : Memref sig .tc .vmem S16x512 .f32).access (Rect.unit (s := S16x512) ![0, 0] S1x512.size inb_S16x512_S1x512_0_0) : View sig .tc _ _ _).write (Elt F) f (psum m c) Finset.univ) : sProp 𝕄)
      = rowPts c 0 (by decide) fullShare (commFinal m c) := by
  refine rowPts_congr c 0 (by decide) fullShare _ _ fun y => ?_
  rw [read_commFinal]
  refine (View.read_write_of_mem (v := ((cM : Memref sig .tc .vmem S16x512 .f32).access (Rect.unit (s := S16x512) ![0, 0] S1x512.size inb_S16x512_S1x512_0_0) : View sig .tc _ _ _)) f (psum m c) (Finset.mem_univ y)).trans ?_
  have hd : donor c ⟨0, by decide⟩ = c := donor_zero c
  rw [hd]

/-- What the peer `e + 1` steps ahead handed over with its signal (duty `rev e` of the barrier cell), restated at `e`. -/
theorem barPay_rev (c : Dev nD) (e : Fin 15) :
    (barPay (F := F) c (rev e) : sProp 𝕄)
      = iprop((∃ f, rowPts (peer c e) (e.val + 1) (by omega) fullShare f) ∗ reached ER (recvCell (peer c e) e) 0) := by
  have key : ∀ x : Fin 15, x = e →
      (iprop((∃ f, rowPts (peer c x) (x.val + 1) (by omega) fullShare f) ∗ reached ER (recvCell (peer c x) x) 0) : sProp 𝕄)
        = iprop((∃ f, rowPts (peer c e) (e.val + 1) (by omega) fullShare f) ∗ reached ER (recvCell (peer c e) e) 0) := by
    intro x hx; subst hx; rfl
  exact key (rev (rev e)) (rev_rev e)

/-- A copy's landing in row `e + 1` of the peer, restated at the peer's final contents: the source row holds the sender's
    partial sums, which is what that row of the peer's final contents holds. -/
theorem landed_row (c : Dev nD) (e : Fin 15) (hk : e.val + 1 < 16) (h0 : 0 < 16)
    (fd : Buf (Elt F) ((rowM (e.val + 1) hk).view.loc ((peer c e : Dev nD) : Thread nD τ))) :
    ((rowM (e.val + 1) hk).view.loc ((peer c e : Dev nD) : Thread nD τ) ↦[(rowM (e.val + 1) hk).view.set]{fullShare}
        ((rowM (e.val + 1) hk).view.write (Elt F) fd ((rowM 0 h0).view.read (Elt F) (commFinal m c)) Finset.univ) : sProp 𝕄)
      = rowPts (peer c e) (e.val + 1) hk fullShare (commFinal m (peer c e)) := by
  unfold rowPts
  refine pointsTo_congr ?_
  refine Cert.Lib.write_univ_eq_on (rowM (e.val + 1) hk).view fd (commFinal m (peer c e)) _ fun y => ?_
  rw [read_commFinal, read_commFinal]
  have h1 : donor (peer c e) ⟨e.val + 1, hk⟩ = c := (donor_succ (peer c e) e).trans (src_peer c e)
  have h2 : donor c ⟨0, h0⟩ = c := donor_zero c
  rw [h1, h2]

end Cert.KernelIdeal.Dist

end
-- ==== Proof.Dist.Steps.lean ====
/- The exchange's steps, one lemma per kind of statement of the body, each at a symbolic shift: a barrier signal hands
   the peer the row its copy will fill; the local copy of x and its wait; the barrier wait returns the fifteen peers'
   rows; a copy of the partial sums into a peer's row, its send wait (the lent share of the source row back) and its
   receive wait (a row landed, holding the sender's partial sums); a cell closed. And the exchange buffer cut into its
   sixteen rows, and the source row into the shares lent to the fifteen copies. -/
import proofs.«900934_g7700000000000935_dist_mean_ax0_shard0_i_m1024_n512_v7x_i16_bf16_1_alg».proof.Proof.Dist.Rows

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records read -/

theorem inv_at' (ck : Dev nD × Fin 32) :
    (bigSep Finset.univ fun ck : Dev nD × Fin 32 => (cellInv ER (sched m) (K ck) (kcell ck) : sProp 𝕄)) ⊢ cellInv ER (sched m) (K ck) (kcell ck) :=
  bigSep_elim (Finset.mem_univ ck)
theorem reached_at' (ck : Dev nD × Fin 32) :
    (bigSep Finset.univ fun ck : Dev nD × Fin 32 => (reached ER (kcell ck) 0 : sProp 𝕄)) ⊢ reached ER (kcell ck) 0 :=
  bigSep_elim (Finset.mem_univ ck)
theorem inv_at (ck : Dev nD × Fin 32) : records (F := F) m K ⊢ cellInv ER (sched m) (K ck) (kcell ck) := by
  unfold records; iintro ⟨HI, -⟩; iapply (inv_at' m K ck); iexact HI
theorem reached_at (ck : Dev nD × Fin 32) : records (F := F) m K ⊢ reached ER (kcell ck) 0 := by
  unfold records; iintro ⟨-, HR⟩; iapply (reached_at' (F := F) ck); iexact HR

/-! ## The cells under the launch's indexing, and the facts read off the records at each -/

private theorem csem_bar : csem 0 = (.reg barS : SemLoc sig) := if_pos rfl
private theorem csem_osem (j : Fin 31) : csem ⟨j.val + 1, by omega⟩ = osem j := by revert j; decide

private theorem kcell_bar (c : Dev nD) : kcell (c, (0 : Fin 32)) = barCell c := congrArg (Prod.mk (c : Thread nD τ)) csem_bar
private theorem kcell_copy (c : Dev nD) : kcell (c, (1 : Fin 32)) = copyCell c := congrArg (Prod.mk (c : Thread nD τ)) csem_copy
private theorem kcell_send (c : Dev nD) (e : Fin 15) : kcell (c, (⟨e.val + 2, by omega⟩ : Fin 32)) = sendCell c e :=
  congrArg (Prod.mk (c : Thread nD τ)) (csem_send e)
private theorem kcell_recv (c : Dev nD) (e : Fin 15) : kcell (c, (⟨e.val + 17, by omega⟩ : Fin 32)) = recvCell c e :=
  congrArg (Prod.mk (c : Thread nD τ)) (csem_recv e)
private theorem kcell_own (c : Dev nD) (j : Fin 31) : kcell (c, (⟨j.val + 1, by omega⟩ : Fin 32)) = ((c : Thread nD τ), osem j) :=
  congrArg (Prod.mk (c : Thread nD τ)) (csem_osem j)

private theorem inv_bar (c : Dev nD) : records (F := F) m K ⊢ cellInv ER (sched m) (K (c, 0)) (barCell c) := by
  have h := inv_at m K (c, (0 : Fin 32)); rw [kcell_bar] at h; exact h
private theorem inv_copy (c : Dev nD) : records (F := F) m K ⊢ cellInv ER (sched m) (K (c, 1)) (copyCell c) := by
  have h := inv_at m K (c, (1 : Fin 32)); rw [kcell_copy] at h; exact h
private theorem inv_send (c : Dev nD) (e : Fin 15) : records (F := F) m K ⊢ cellInv ER (sched m) (K (c, ⟨e.val + 2, by omega⟩)) (sendCell c e) := by
  have h := inv_at m K (c, (⟨e.val + 2, by omega⟩ : Fin 32)); rw [kcell_send] at h; exact h
private theorem inv_recv (c : Dev nD) (e : Fin 15) : records (F := F) m K ⊢ cellInv ER (sched m) (K (c, ⟨e.val + 17, by omega⟩)) (recvCell c e) := by
  have h := inv_at m K (c, (⟨e.val + 17, by omega⟩ : Fin 32)); rw [kcell_recv] at h; exact h
private theorem inv_own (c : Dev nD) (j : Fin 31) :
    records (F := F) m K ⊢ cellInv ER (sched m) (K (c, ⟨j.val + 1, by omega⟩)) ((c : Thread nD τ), osem j) := by
  have h := inv_at m K (c, (⟨j.val + 1, by omega⟩ : Fin 32)); rw [kcell_own] at h; exact h

private theorem reached_bar (c : Dev nD) : records (F := F) m K ⊢ reached ER (barCell c) 0 := by
  have h := reached_at m K (c, (0 : Fin 32)); rw [kcell_bar] at h; exact h
private theorem reached_copy (c : Dev nD) : records (F := F) m K ⊢ reached ER (copyCell c) 0 := by
  have h := reached_at m K (c, (1 : Fin 32)); rw [kcell_copy] at h; exact h
private theorem reached_send (c : Dev nD) (e : Fin 15) : records (F := F) m K ⊢ reached ER (sendCell c e) 0 := by
  have h := reached_at m K (c, (⟨e.val + 2, by omega⟩ : Fin 32)); rw [kcell_send] at h; exact h
private theorem reached_recv (c : Dev nD) (e : Fin 15) : records (F := F) m K ⊢ reached ER (recvCell c e) 0 := by
  have h := reached_at m K (c, (⟨e.val + 17, by omega⟩ : Fin 32)); rw [kcell_recv] at h; exact h

/-- The copy cell sits at the lowest level. -/
private theorem lv_copy (c : Dev nD) : lv ((c : Thread nD τ), SemLoc.dma copyS) () = 0 := by simp only [lv, kind_copy]

/-- Every view of a row's shape in vector memory credits what row 0 of the exchange buffer does. -/
private theorem credit_row (d : Memref sig .tc .vmem S1x512 .f32) : d.view.dmaCredit = N := rfl

/-- The whole block copied over the whole scratch buffer leaves the block. -/
private theorem landed_x (c : Dev nD) (fd : Buf (Elt F) ((xV : Memref sig .tc .vmem S1024x512 .f32).view.loc (c : Thread nD τ))) (fs : Vec F S1024x512 .f32) :
    (xV : Memref sig .tc .vmem S1024x512 .f32).view.write (Elt F) fd ((xH : Memref sig .tc .hbm S1024x512 .f32).view.read (Elt F) fs) Finset.univ = fs := by
  show (View.whole cc0_scratch0).write (Elt F) fd ((View.whole main_arg0).read (Elt F) fs) Finset.univ = fs
  rw [View.read_whole]
  exact View.write_whole_univ _ _ _

/-! ## The resources a step consumes -/

/-- For the signal of shift `d + 1`: its duty's token in the peer's barrier cell, and the row the peer's copy will fill. -/
def sigRes (c : Dev nD) (d : Fin 15) : sProp 𝕄 :=
  iprop(dutyTok ER (barCell (peer c d)) 0 d ∗ ∃ f, rowPts c ((rev d).val + 1) (by omega) fullShare f)

/-- For the copy of shift `e + 1`: its send and receive duties' tokens, the share of the source row lent to it, and what
    the peer's signal handed over: the destination row and that the peer's receive cell stands at round 0. -/
def sendRes (c : Dev nD) (e : Fin 15) : sProp 𝕄 :=
  iprop(dutyTok ER (sendCell c e) 0 (0 : Fin 15) ∗ dutyTok ER (recvCell (peer c e) e) 0 (0 : Fin 15)
    ∗ rowPts c 0 (by decide) (sendSh e.val) (commFinal m c)
    ∗ (∃ f, rowPts (peer c e) (e.val + 1) (by omega) fullShare f))

/-! ## The steps -/

section Step
variable (c : Dev nD)

/-- A barrier signal. -/
theorem wp_sig {α : Type} {Q : α → sProp 𝕄} (n : Dev nD) (d : Fin 15) (hn : n = peer c d) (W : Waits sig Unit)
    {k : PUnit → Prog (TpuEff nD τ sig (Elt F) Λ₀ .tc) α} :
    iprop(records m K ∗ owes (c : Thread nD τ) (owe c (30 - d.val)) W ∗ sigRes c d)
      ⊢ iprop((owes (c : Thread nD τ) (owe c (29 - d.val)) W -∗ WP c (k ⟨⟩) Q)
          -∗ WP c (.op (.semSignal ((n, Proc.tc) : Thread nD τ) barS (1#32).toNat) k) Q) := by
  subst hn
  unfold sigRes
  iintro ⟨#Hrec, HO, Htok, %f, Hrow⟩ Hk
  iapply (Rounds.wp_signal 𝒱₀ ER (sched m) (c : Thread nD τ) none (dst := (peer c d : Thread nD τ)) (sem := barS)
    (r := 0) (d := d) (κ := K (peer c d, 0)) (by rw [duties_bar]; exact Finset.mem_univ _)
    ((amount_bar m (peer c d) d).trans (by decide)) () (owe c (29 - d.val)) (owe_sig c d) (W := W)) $$ [HO Htok Hrow]
  · isplitr; · iapply (inv_bar m K (peer c d)); iexact Hrec
    isplitl [HO]; · iexact HO
    isplitl [Htok]; · iexact Htok
    isplitl [Hrow]
    · rw [payload_bar]; unfold barPay; rw [src_peer]
      isplitl [Hrow]; · iexists f; iexact Hrow
      iapply (reached_recv m K c (rev d)); iexact Hrec
    · iapply (reached_bar m K (peer c d)); iexact Hrec
  iexact Hk

/-- The local copy of the block of `x` into its scratch buffer. -/
theorem wp_copyx {α : Type} {Q : α → sProp 𝕄} (fd : Buf (Elt F) ((xV : Memref sig .tc .vmem S1024x512 .f32).view.loc (c : Thread nD τ)))
    {hsrc : (xH : Memref sig .tc .hbm S1024x512 .f32).view.WordExact} {hdst : (xV : Memref sig .tc .vmem S1024x512 .f32).view.WordExact}
    {hsem : DmaTarget.Typed (nD := nD) (τ := τ) .hbm (.dma copyS) (DmaTarget.here (p := (Proc.tc : Proc τ)) (xV : Memref sig .tc .vmem S1024x512 .f32))}
    {k : PUnit → Prog (TpuEff nD τ sig (Elt F) Λ₀ .tc) α} :
    iprop(records m K ∗ xHPts m c ∗ xVPts c fd ∗ dutyTok ER (copyCell c) 0 (0 : Fin 15))
      ⊢ iprop((cred (tallyAt (copyCell c) () NX) -∗ WP c (k ⟨⟩) Q)
          -∗ WP c (.op (.enqueueDma xH (DmaTarget.here (p := (Proc.tc : Proc τ)) xV) (.dma copyS) hsrc hdst hsem) k) Q) := by
  unfold xHPts xVPts
  iintro ⟨#Hrec, HxH, HxV, Htok⟩ Hk
  iapply (Rounds.wp_copy_pointsTo 𝒱₀ ER (sched m) (c : Thread nD τ) none
    (src := (xH : Memref sig .tc .hbm S1024x512 .f32)) (dst := (xV : Memref sig .tc .vmem S1024x512 .f32)) (sem := .dma copyS)
    (q := fullShare) (fs := xblk m c) (fd := fd) (r := 0) (d := (0 : Fin 15)) (κ := K (c, 1))
    (by rw [duties_copy]; exact Finset.mem_singleton_self _) () NX rfl (amount_copy m c 0)
    (by rw [payload_copy]; unfold copyPay xVPts xHPts; rw [landed_x])) $$ [HxH HxV Htok]
  · isplitr; · iapply (inv_copy m K c); iexact Hrec
    isplitl [HxH]; · iexact HxH
    isplitl [HxV]; · iexact HxV
    isplitl [Htok]; · iexact Htok
    iapply (reached_copy m K c); iexact Hrec
  iexact Hk

/-- Its wait, while the last `j` payments are outstanding: the block landed, the source back. -/
theorem wp_wait_copy {α : Type} {Q : α → sProp 𝕄} (j : ℕ) (W : Waits sig Unit)
    {hsrc : (xH : Memref sig .tc .hbm S1024x512 .f32).view.WordExact} {hdst : (xV : Memref sig .tc .vmem S1024x512 .f32).view.WordExact}
    {k : PUnit → Prog (TpuEff nD τ sig (Elt F) Λ₀ .tc) α} :
    iprop(records m K ∗ levAts L lv ∗ cred (tallyAt (copyCell c) () NX) ∗ owes (c : Thread nD τ) (owe c j) W ∗ atPos ER (copyCell c) 0 ∅ 0)
      ⊢ iprop(((owes (c : Thread nD τ) (owe c j) (insert (SemLoc.dma copyS, ()) W) ∗ atPos ER (copyCell c) 1 ∅ 0 ∗ xVPts c (xblk m c) ∗ xHPts m c)
            -∗ WP c (k ⟨⟩) Q)
          -∗ WP c (.op (.waitDma2 copyS xH xV hsrc hdst) k) Q) := by
  iintro ⟨#Hrec, #Hlev, Hc, HO, Hat⟩ Hk
  iapply (Rounds.wp_wait_rest_token 𝒱₀ ER (sched m) (c : Thread nD τ) none (κ := K (c, 1))
      (wpE_waitDma2_eq 𝒱₀ (c : Thread nD τ) none Set.univ) (Set.mem_univ _) () (O := owe c j) (W := W) (R := 0) (m := 0) (T := ∅)
      (by rw [Nat.zero_add, expect_copy])) $$ [Hc HO Hat]
  · isplitr; · iapply (inv_copy m K c); iexact Hrec
    isplitl [Hc]; · iexact Hc
    isplitl [HO]; · iexact HO
    isplitr; · iapply (mayWait_low c (.dma copyS) (lv_copy c) j); iexact Hlev
    iexact Hat
  iintro ⟨HO, Hat, -, Hpay⟩
  ihave Hp := (Entails.of_eq (rest_copy m c)) $$ Hpay
  unfold copyPay
  icases Hp with ⟨HxV, HxH⟩
  iapply Hk
  isplitl [HO]; · iexact HO
  isplitl [Hat]; · iexact Hat
  isplitl [HxV]; · iexact HxV
  iexact HxH

/-- The barrier wait for fifteen, owing the fifteen receive credits: every peer's payload comes with it. -/
theorem wp_wait_bar {α : Type} {Q : α → sProp 𝕄} (W : Waits sig Unit) {k : PUnit → Prog (TpuEff nD τ sig (Elt F) Λ₀ .tc) α} :
    iprop(records m K ∗ levAts L lv ∗ cred (tallyAt (barCell c) () 15) ∗ owes (c : Thread nD τ) (owe c 15) W ∗ atPos ER (barCell c) 0 ∅ 0)
      ⊢ iprop(((owes (c : Thread nD τ) (owe c 15) (insert (SemLoc.reg barS, ()) W) ∗ atPos ER (barCell c) 1 ∅ 0
              ∗ bigSep Finset.univ (fun d : Fin 15 => barPay (F := F) c d))
            -∗ WP c (k ⟨⟩) Q)
          -∗ WP c (.op (.semWait barS (15#32).toNat) k) Q) := by
  iintro ⟨#Hrec, #Hlev, Hc, HO, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owe c 15) (W := W) (R := 0) (m := 0) (T := ∅)
      (by rw [expect_bar]; decide)) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The copy of the partial sums into row `e + 1` of the peer `e + 1` steps ahead. -/
theorem wp_send {α : Type} {Q : α → sProp 𝕄} (n : Dev nD) (e : Fin 15) (hn : n = peer c e) (W : Waits sig Unit)
    {hsc : (rowM (e.val + 1) (by omega) : Memref sig (Dev.tc n : Thread nD τ).2.kind .vmem S1x512 .f32).view.ref.isScScratch = false}
    {hsrc : (rowM 0 (by decide) : Memref sig .tc .vmem S1x512 .f32).view.WordExact}
    {hdst : (rowM (e.val + 1) (by omega) : Memref sig .tc .vmem S1x512 .f32).view.WordExact}
    {hsem : DmaTarget.Typed .vmem (.dma (recvS e)) (.remote (Dev.tc n : Thread nD τ) (rowM (e.val + 1) (by omega) : Memref sig .tc .vmem S1x512 .f32) (.dma (sendS e)) hsc)}
    {k : PUnit → Prog (TpuEff nD τ sig (Elt F) Λ₀ .tc) α} :
    iprop(records m K ∗ owes (c : Thread nD τ) (owe c (15 - e.val)) W ∗ sendRes m c e)
      ⊢ iprop(((cred (tallyAt (sendCell c e) () N) ∗ owes (c : Thread nD τ) (owe c (14 - e.val)) W) -∗ WP c (k ⟨⟩) Q)
          -∗ WP c (.op (.enqueueDma (rowM 0 (by decide)) (.remote (Dev.tc n : Thread nD τ) (rowM (e.val + 1) (by omega)) (.dma (sendS e)) hsc) (.dma (recvS e)) hsrc hdst hsem) k) Q) := by
  subst hn
  have h0 : 0 < 16 := by decide
  have hk : e.val + 1 < 16 := by omega
  unfold sendRes
  iintro ⟨#Hrec, HO, HtS, HtR, Hsrc, %fd, Hdst⟩ Hk
  unfold rowPts
  iapply (Rounds.wp_send_pointsTo 𝒱₀ ER (sched m) (c : Thread nD τ) none
      (c' := (peer c e : Thread nD τ)) (src := (rowM 0 h0 : Memref sig .tc .vmem S1x512 .f32))
      (dst := (rowM (e.val + 1) hk : Memref sig .tc .vmem S1x512 .f32))
      (sS := .dma (sendS e)) (sem := .dma (recvS e)) (q := sendSh e.val) (fs := commFinal m c) (fd := fd)
      (κ₁ := K (c, ⟨e.val + 2, by omega⟩)) (κ₂ := K (peer c e, ⟨e.val + 17, by omega⟩))
      (r₁ := 0) (r₂ := 0) (d₁ := (0 : Fin 15)) (d₂ := (0 : Fin 15))
      (by rw [duties_send]; exact Finset.mem_singleton_self _) (by rw [duties_recv]; exact Finset.mem_singleton_self _)
      () () N rfl (amount_send m c e 0) (amount_recv m (peer c e) e 0) (owe c (14 - e.val)) (owe_send c e) (W := W)
      (by rw [payload_send]; unfold sendPay rowPts; exact BI.Entails.refl _)
      (by rw [payload_recv]; unfold recvPay; exact Entails.of_eq (landed_row m c e hk h0 fd))) $$ [HO HtS HtR Hsrc Hdst]
  · isplitr; · iapply (inv_send m K c e); iexact Hrec
    isplitr; · iapply (inv_recv m K (peer c e) e); iexact Hrec
    isplitl [Hsrc]; · iexact Hsrc
    isplitl [Hdst]; · iexact Hdst
    isplitl [HO]; · iexact HO
    isplitl [HtS]; · iexact HtS
    isplitr; · iapply (reached_send m K c e); iexact Hrec
    isplitl [HtR]; · iexact HtR
    iapply (reached_recv m K (peer c e) e); iexact Hrec
  iexact Hk

/-- The wait on the send cell of shift `e + 1`, nothing owed: the lent share of the source row back. -/
theorem wp_wait_send {α : Type} {Q : α → sProp 𝕄} (e : Fin 15) (W : Waits sig Unit)
    {s d : Memref sig .tc .vmem S1x512 .f32} {hsrc : s.view.WordExact} {hdst : d.view.WordExact}
    {k : PUnit → Prog (TpuEff nD τ sig (Elt F) Λ₀ .tc) α} :
    iprop(records m K ∗ cred (tallyAt (sendCell c e) () N) ∗ owes (c : Thread nD τ) 0 W ∗ atPos ER (sendCell c e) 0 ∅ 0)
      ⊢ iprop(((owes (c : Thread nD τ) 0 (insert (SemLoc.dma (sendS e), ()) W) ∗ atPos ER (sendCell c e) 1 ∅ 0
              ∗ rowPts c 0 (by decide) (sendSh e.val) (commFinal m c))
            -∗ WP c (k ⟨⟩) Q)
          -∗ WP c (.op (.waitDma2 (sendS e) s d hsrc hdst) k) Q) := by
  iintro ⟨#Hrec, Hc, HO, Hat⟩ Hk
  have hw : ∀ K' : PUnit → sProp 𝕄, wpE (defs₀ (F := F)) 𝒱₀ (c : Thread nD τ) none Set.univ (.waitDma2 (sendS e) s d hsrc hdst) K'
      = waitSpec (c : Thread nD τ) Set.univ (.dma (sendS e)) N K' :=
    fun K' => (wpE_waitDma2_eq 𝒱₀ (c : Thread nD τ) none Set.univ K').trans (by rw [credit_row])
  iapply (Rounds.wp_wait_rest_token 𝒱₀ ER (sched m) (c : Thread nD τ) none (κ := K (c, ⟨e.val + 2, by omega⟩))
      hw (Set.mem_univ _) () (O := 0) (W := W) (R := 0) (m := 0) (T := ∅)
      (by rw [Nat.zero_add, expect_send])) $$ [Hc HO Hat]
  · isplitr; · iapply (inv_send m K c e); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m c e)) $$ Hpay
  unfold sendPay
  iapply Hk
  isplitl [HO]; · iexact HO
  isplitl [Hat]; · iexact Hat
  iexact Hp

/-- The wait on the receive cell of shift `e + 1`, nothing owed: row `e + 1` landed. -/
theorem wp_wait_recv {α : Type} {Q : α → sProp 𝕄} (e : Fin 15) (W : Waits sig Unit)
    {s d : Memref sig .tc .vmem S1x512 .f32} {hsrc : s.view.WordExact} {hdst : d.view.WordExact}
    {k : PUnit → Prog (TpuEff nD τ sig (Elt F) Λ₀ .tc) α} :
    iprop(records m K ∗ cred (tallyAt (recvCell c e) () N) ∗ owes (c : Thread nD τ) 0 W ∗ atPos ER (recvCell c e) 0 ∅ 0)
      ⊢ iprop(((owes (c : Thread nD τ) 0 (insert (SemLoc.dma (recvS e), ()) W) ∗ atPos ER (recvCell c e) 1 ∅ 0
              ∗ rowPts c (e.val + 1) (by omega) fullShare (commFinal m c))
            -∗ WP c (k ⟨⟩) Q)
          -∗ WP c (.op (.waitDma2 (recvS e) s d hsrc hdst) k) Q) := by
  iintro ⟨#Hrec, Hc, HO, Hat⟩ Hk
  have hw : ∀ K' : PUnit → sProp 𝕄, wpE (defs₀ (F := F)) 𝒱₀ (c : Thread nD τ) none Set.univ (.waitDma2 (recvS e) s d hsrc hdst) K'
      = waitSpec (c : Thread nD τ) Set.univ (.dma (recvS e)) N K' :=
    fun K' => (wpE_waitDma2_eq 𝒱₀ (c : Thread nD τ) none Set.univ K').trans (by rw [credit_row])
  iapply (Rounds.wp_wait_rest_token 𝒱₀ ER (sched m) (c : Thread nD τ) none (κ := K (c, ⟨e.val + 17, by omega⟩))
      hw (Set.mem_univ _) () (O := 0) (W := W) (R := 0) (m := 0) (T := ∅)
      (by rw [Nat.zero_add, expect_recv])) $$ [Hc HO Hat]
  · isplitr; · iapply (inv_recv m K c e); iexact Hrec
    isplitl [Hc]; · iexact Hc
    isplitl [HO]; · iexact HO
    isplitr; · rw [MayWait_zero]; iempintro
    iexact Hat
  iintro ⟨HO, Hat, -, Hpay⟩
  ihave Hp := (Entails.of_eq (rest_recv m c e)) $$ Hpay
  unfold recvPay
  iapply Hk
  isplitl [HO]; · iexact HO
  isplitl [Hat]; · iexact Hat
  iexact Hp

/-- One of the kernel's own cells, its one round consumed, closed: its counter, at zero, back. -/
theorem close_own (j : Fin 31) :
    iprop(records m K ∗ atPos ER ((c : Thread nD τ), osem j) 1 ∅ 0) ⊢ iprop(|={Set.univ}=> semVal ((c : Thread nD τ), osem j) 0) := by
  iintro ⟨#Hrec, Hat⟩
  iapply (Rounds.cell_close ER (sched m) (g := ((c : Thread nD τ), osem j)) (κ := K (c, ⟨j.val + 1, by omega⟩))
    (Set.mem_univ _) (fun h => h) (R := 1) (duties_later m _))
  isplitr; · iapply (inv_own m K c j); iexact Hrec
  iexact Hat

end Step

end Cert.KernelIdeal.Dist

end
-- ==== Proof.Dist.BodyDefs.lean ====
/- The states between which the printed parts of the body move. Three families, each indexed by a count: after the local
   copy is started and `a` barrier signals are sent; after the barrier wait and `b` copies are started; after all copies
   are started and `w` of the thirty DMA waits are done (wait 2e is the send wait of shift e+1, wait 2e+1 its receive
   wait). Every state holds the persistent records and level facts, and what is owed with the waits recorded so far. -/
import proofs.«900934_g7700000000000935_dist_mean_ax0_shard0_i_m1024_n512_v7x_i16_bf16_1_alg».proof.Proof.Dist.Steps

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-- The barrier semaphore as the body names it. -/
abbrev barH : Sems sig S_ := SemArray.scalar (sig.barrier 0 rfl)

/-- The output window's staging buffer, at some contents. -/
def outStg : sProp 𝕄 :=
  iprop(∃ f : Buf (Elt F) ((c : Thread nD τ).loc cc0_stg0_0), ((c : Thread nD τ).loc cc0_stg0_0) ↦{fullShare} f)
/-- The tokens of the duties the fifteen copies pay: each one's send duty here and its receive duty on the peer. -/
def sendToks : sProp 𝕄 :=
  bigSep Finset.univ fun e : Fin 15 => iprop(dutyTok ER (sendCell c e) 0 (0 : Fin 15) ∗ dutyTok ER (recvCell (peer c e) e) 0 (0 : Fin 15))
def sendPoss : sProp 𝕄 := bigSep Finset.univ fun e : Fin 15 => atPos ER (sendCell c e) 0 ∅ 0
/-- What each receive wait needs: the launch's credit token and the position. -/
def recvWaits : sProp 𝕄 :=
  bigSep Finset.univ fun e : Fin 15 => iprop(cred (tallyAt (recvCell c e) () N) ∗ atPos ER (recvCell c e) 0 ∅ 0)

/-- Before the first statement. -/
def StartSt : sProp 𝕄 := iprop(records m K ∗ levAts L lv
  ∗ (∃ W, owes (c : Thread nD τ) (owe c 30) W)
  ∗ (bigSep Finset.univ fun d : Fin 15 => dutyTok ER (barCell (peer c d)) 0 d)
  ∗ dutyTok ER (copyCell c) 0 (0 : Fin 15) ∗ xHPts m c ∗ (∃ f, xVPts c f) ∗ (∃ f, commPts c f)
  ∗ atPos ER (copyCell c) 0 ∅ 0
  ∗ cred (tallyAt (barCell c) () 15) ∗ atPos ER (barCell c) 0 ∅ 0
  ∗ sendToks c ∗ sendPoss c ∗ recvWaits c ∗ outStg c)

/-- The local copy started, the exchange buffer cut into rows, `a` signals sent: signal d has handed row 15 - d away. -/
def SigSt (a : ℕ) : sProp 𝕄 := iprop(records m K ∗ levAts L lv
  ∗ (∃ W, owes (c : Thread nD τ) (owe c (30 - a)) W)
  ∗ bigSep (Finset.univ.filter fun d : Fin 15 => a ≤ d.val) (sigRes c)
  ∗ cred (tallyAt (copyCell c) () NX) ∗ atPos ER (copyCell c) 0 ∅ 0
  ∗ (∃ f, rowPts c 0 (by decide) fullShare f)
  ∗ cred (tallyAt (barCell c) () 15) ∗ atPos ER (barCell c) 0 ∅ 0
  ∗ sendToks c ∗ sendPoss c ∗ recvWaits c ∗ outStg c)

/-- The block of `x` landed, the partial sums stored in row 0 (cut into the shares lent to the copies), the barrier
    waited (every peer's row in hand), `b` copies started. -/
def SendSt (b : ℕ) : sProp 𝕄 := iprop(records m K ∗ levAts L lv
  ∗ (∃ W, owes (c : Thread nD τ) (owe c (15 - b)) W)
  ∗ bigSep (Finset.univ.filter fun e : Fin 15 => b ≤ e.val) (sendRes m c)
  ∗ bigSep (Finset.univ.filter fun e : Fin 15 => e.val < b) (fun e => cred (tallyAt (sendCell c e) () N))
  ∗ rowPts c 0 (by decide) (restSh 15) (commFinal m c)
  ∗ xVPts c (xblk m c) ∗ xHPts m c ∗ atPos ER (copyCell c) 1 ∅ 0 ∗ atPos ER (barCell c) 1 ∅ 0
  ∗ sendPoss c ∗ recvWaits c ∗ outStg c)

/-- All copies started, `w` of the thirty waits done. -/
def WaitSt (w : ℕ) : sProp 𝕄 := iprop(records m K ∗ levAts L lv
  ∗ (∃ W, owes (c : Thread nD τ) 0 W)
  ∗ bigSep (Finset.univ.filter fun e : Fin 15 => w ≤ 2 * e.val)
      (fun e => iprop(cred (tallyAt (sendCell c e) () N) ∗ atPos ER (sendCell c e) 0 ∅ 0))
  ∗ bigSep (Finset.univ.filter fun e : Fin 15 => 2 * e.val < w)
      (fun e => iprop(atPos ER (sendCell c e) 1 ∅ 0 ∗ rowPts c 0 (by decide) (sendSh e.val) (commFinal m c)))
  ∗ bigSep (Finset.univ.filter fun e : Fin 15 => w ≤ 2 * e.val + 1)
      (fun e => iprop(cred (tallyAt (recvCell c e) () N) ∗ atPos ER (recvCell c e) 0 ∅ 0))
  ∗ bigSep (Finset.univ.filter fun e : Fin 15 => 2 * e.val + 1 < w)
      (fun e => iprop(atPos ER (recvCell c e) 1 ∅ 0 ∗ rowPts c (e.val + 1) (by omega) fullShare (commFinal m c)))
  ∗ rowPts c 0 (by decide) (restSh 15) (commFinal m c)
  ∗ xVPts c (xblk m c) ∗ xHPts m c ∗ atPos ER (copyCell c) 1 ∅ 0 ∗ atPos ER (barCell c) 1 ∅ 0 ∗ outStg c)

/-- Every wait done, the rows and shares rejoined: the exchange buffer whole at its final contents, every own cell's one
    round consumed. -/
def FinalSt : sProp 𝕄 := iprop(records m K ∗ levAts L lv
  ∗ (∃ W, owes (c : Thread nD τ) 0 W)
  ∗ commPts c (commFinal m c) ∗ xVPts c (xblk m c) ∗ xHPts m c
  ∗ atPos ER (copyCell c) 1 ∅ 0 ∗ atPos ER (barCell c) 1 ∅ 0
  ∗ (bigSep Finset.univ fun e : Fin 15 => atPos ER (sendCell c e) 1 ∅ 0)
  ∗ (bigSep Finset.univ fun e : Fin 15 => atPos ER (recvCell c e) 1 ∅ 0)
  ∗ outStg c)

/-! ## The printed parts at this kernel's buffers -/

abbrev part1 := k0_part1 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part2 := k0_part2 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part3 := k0_part3 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part4 := k0_part4 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part5 := k0_part5 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part6 := k0_part6 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part7 := k0_part7 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part8 := k0_part8 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part9 := k0_part9 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part10 := k0_part10 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part11 := k0_part11 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part12 := k0_part12 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part13 := k0_part13 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part14 := k0_part14 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part15 := k0_part15 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4

end Cert.KernelIdeal.Dist

end
-- ==== Proof.Dist.BodyA.lean ====
/- The first stretch of the body: the device id read, the local copy of x started, the exchange buffer cut into rows, the
   fifteen barrier signals (each hands the peer the row its copy will fill), the local copy waited, the partial sums
   stored in row 0 and that row cut into the shares lent to the copies, the barrier waited. -/
import proofs.«900934_g7700000000000935_dist_mean_ax0_shard0_i_m1024_n512_v7x_i16_bf16_1_alg».proof.Proof.Dist.BodyDefs

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-! ## A device's thirty-two positions, by the kind of cell -/

/-- The index of the send cell, and of the receive cell, of shift `e + 1` among a device's thirty-two cells. -/
private def sendIx (e : Fin 15) : Fin 32 := ⟨e.val + 2, by omega⟩
private def recvIx (e : Fin 15) : Fin 32 := ⟨e.val + 17, by omega⟩

private theorem sendIx_inj : Set.InjOn sendIx (↑(Finset.univ : Finset (Fin 15))) := by
  intro a _ b _ h
  have h' : a.val + 2 = b.val + 2 := congrArg Fin.val h
  exact Fin.ext (by omega)
private theorem recvIx_inj : Set.InjOn recvIx (↑(Finset.univ : Finset (Fin 15))) := by
  intro a _ b _ h
  have h' : a.val + 17 = b.val + 17 := congrArg Fin.val h
  exact Fin.ext (by omega)

/-- Thirty-two summands: the first, the second, fifteen from the third on, fifteen from the eighteenth on. -/
private theorem fin32_split (Φ : Fin 32 → sProp 𝕄) :
    bigSep Finset.univ Φ
      = iprop(Φ 0 ∗ Φ 1 ∗ (bigSep Finset.univ fun e : Fin 15 => Φ (sendIx e)) ∗ bigSep Finset.univ fun e : Fin 15 => Φ (recvIx e)) := by
  have hu : (Finset.univ : Finset (Fin 32))
      = insert 0 (insert 1 ((Finset.univ : Finset (Fin 15)).image sendIx ∪ (Finset.univ : Finset (Fin 15)).image recvIx)) := by decide
  rw [hu, bigSep_insert (by decide), bigSep_insert (by decide), bigSep_union (by decide),
    bigSep_image_of_injOn sendIx_inj, bigSep_image_of_injOn recvIx_inj]
  rfl

private theorem kcell_bar : kcell (c, (0 : Fin 32)) = barCell c :=
  congrArg (Prod.mk (c : Thread nD τ)) (show csem 0 = .reg barS from by decide)
private theorem kcell_copy : kcell (c, (1 : Fin 32)) = copyCell c :=
  congrArg (Prod.mk (c : Thread nD τ)) csem_copy
private theorem kcell_send (e : Fin 15) : kcell (c, sendIx e) = sendCell c e :=
  congrArg (Prod.mk (c : Thread nD τ)) (csem_send e)
private theorem kcell_recv (e : Fin 15) : kcell (c, recvIx e) = recvCell c e :=
  congrArg (Prod.mk (c : Thread nD τ)) (csem_recv e)

/-- A device's positions: its barrier cell's, its copy cell's, its fifteen send cells', its fifteen receive cells'. -/
private theorem pos_split :
    (positions c : sProp 𝕄)
      = iprop(atPos ER (barCell c) 0 ∅ 0 ∗ atPos ER (copyCell c) 0 ∅ 0
          ∗ (bigSep Finset.univ fun e : Fin 15 => atPos ER (sendCell c e) 0 ∅ 0)
          ∗ bigSep Finset.univ fun e : Fin 15 => atPos ER (recvCell c e) 0 ∅ 0) := by
  have hs : (bigSep Finset.univ fun e : Fin 15 => (atPos ER (kcell (c, sendIx e)) 0 ∅ 0 : sProp 𝕄))
      = bigSep Finset.univ fun e : Fin 15 => atPos ER (sendCell c e) 0 ∅ 0 := bigSep_congr fun e _ => by rw [kcell_send]
  have hr : (bigSep Finset.univ fun e : Fin 15 => (atPos ER (kcell (c, recvIx e)) 0 ∅ 0 : sProp 𝕄))
      = bigSep Finset.univ fun e : Fin 15 => atPos ER (recvCell c e) 0 ∅ 0 := bigSep_congr fun e _ => by rw [kcell_recv]
  unfold positions
  rw [fin32_split, kcell_bar, kcell_copy, hs, hr]

/-- What the pipeline hands the body becomes the start state, at the names the launch allocated. -/
theorem start_intro_body :
    iprop(Φ₀ m c ∗ (dats m ρ 0 c).owesAt () t0_0.castSucc
        ∗ (∃ d f, ⌜f = (dats m ρ 0 c).before (0 : Fin 1) t0_0 d⌝ ∗ ((c : Thread nD τ).loc cc0_stg0_0) ↦{fullShare} f))
      ⊢ (∃ K, StartSt m K c : sProp 𝕄) := by
  unfold Φ₀ start ghost payToks
  iintro ⟨⟨⟨⟨%K, #Hrec, Hpos, HtB, HtR, HtS, HtC⟩, HcB, HcR, #Hlev, HxH⟩, HxV, Hcomm⟩, Ho, ⟨%d, %f, -, Hstg⟩⟩
  ihave Hp := (Entails.of_eq (pos_split c)) $$ Hpos
  icases Hp with ⟨HpB, HpC, HpS, HpR⟩
  unfold Dat.owesAt Pipeline.owesWithin
  icases Ho with ⟨%W, -, HO⟩
  rw [show (dats m ρ 0 c).owed t0_0.castSucc = owe c 30 from rfl]
  iexists K
  unfold StartSt sendToks sendPoss recvWaits outStg
  rw [bigSep_sep', bigSep_sep']
  isplitr; · iexact Hrec
  isplitr; · iexact Hlev
  isplitl [HO]; · iexists W; iexact HO
  isplitl [HtB]; · iexact HtB
  isplitl [HtC]; · iexact HtC
  isplitl [HxH]; · iexact HxH
  isplitl [HxV]; · iexact HxV
  isplitl [Hcomm]; · iexact Hcomm
  isplitl [HpC]; · iexact HpC
  isplitl [HcB]; · iexact HcB
  isplitl [HpB]; · iexact HpB
  isplitl [HtS HtR]
  · isplitl [HtS]; · iexact HtS
    iexact HtR
  isplitl [HpS]; · iexact HpS
  isplitl [HcR HpR]
  · isplitl [HcR]; · iexact HcR
    iexact HpR
  iexists f; iexact Hstg

/-! ## Shifts from a given one on: the least taken out -/

private theorem filter_pick (a : ℕ) (ha : a < 15) (Φ : Fin 15 → sProp 𝕄) :
    bigSep (Finset.univ.filter fun x : Fin 15 => a ≤ x.val) Φ
      ⊢ iprop(Φ ⟨a, ha⟩ ∗ bigSep (Finset.univ.filter fun x : Fin 15 => a + 1 ≤ x.val) Φ) := by
  have h : (Finset.univ.filter fun x : Fin 15 => a + 1 ≤ x.val) = (Finset.univ.filter fun x : Fin 15 => a ≤ x.val).erase ⟨a, ha⟩ := by
    ext x
    rw [Finset.mem_erase, Finset.mem_filter, Finset.mem_filter]
    constructor
    · rintro ⟨-, hx⟩
      refine ⟨fun e => ?_, Finset.mem_univ _, by omega⟩
      have : x.val = a := congrArg Fin.val e
      omega
    · rintro ⟨hne, -, hx⟩
      have : x.val ≠ a := fun e => hne (Fin.ext e)
      exact ⟨Finset.mem_univ _, by omega⟩
  rw [h]
  exact Cert.Lib.bigSep_pick (s := Finset.univ.filter fun x : Fin 15 => a ≤ x.val) (i := ⟨a, ha⟩)
    (Finset.mem_filter.mpr ⟨Finset.mem_univ _, le_refl _⟩) Φ

/-! ## The exchange buffer's rows: the source row, and the fifteen rows handed to the peers, by the shift of the signal -/

/-- The row that the signal of shift `d + 1` hands away. -/
private def rowIx (d : Fin 15) : Fin 16 := ⟨(rev d).val + 1, by have := (rev d).isLt; omega⟩
private theorem rowIx_inj : Function.Injective rowIx := by decide
private theorem univ16 : (Finset.univ : Finset (Fin 16)) = insert 0 ((Finset.univ : Finset (Fin 15)).image rowIx) := by decide

private theorem rows_split (f : Buf (Elt F) ((cM : Memref sig .tc .vmem S16x512 .f32).view.loc (c : Thread nD τ))) :
    (bigSep Finset.univ fun k : Fin 16 => rowPts c k.val k.isLt fullShare f : sProp 𝕄)
      = iprop(rowPts c 0 (by decide) fullShare f
          ∗ bigSep Finset.univ fun d : Fin 15 => rowPts c ((rev d).val + 1) (by have := (rev d).isLt; omega) fullShare f) := by
  rw [univ16, bigSep_insert (by decide), bigSep_image_of_injOn rowIx_inj.injOn]
  rfl

private theorem sigRes_one (f : Buf (Elt F) ((cM : Memref sig .tc .vmem S16x512 .f32).view.loc (c : Thread nD τ))) (d : Fin 15) :
    iprop(dutyTok ER (barCell (peer c d)) 0 d ∗ rowPts c ((rev d).val + 1) (by have := (rev d).isLt; omega) fullShare f)
      ⊢ (sigRes c d : sProp 𝕄) := by
  unfold sigRes
  iintro ⟨Ht, Hr⟩
  isplitl [Ht]; · iexact Ht
  iexists f; iexact Hr

/-- Every signal's token with the row it hands away. -/
private theorem sigRes_intro (f : Buf (Elt F) ((cM : Memref sig .tc .vmem S16x512 .f32).view.loc (c : Thread nD τ))) :
    iprop((bigSep Finset.univ fun d : Fin 15 => dutyTok ER (barCell (peer c d)) 0 d)
        ∗ bigSep Finset.univ fun d : Fin 15 => rowPts c ((rev d).val + 1) (by have := (rev d).isLt; omega) fullShare f)
      ⊢ (bigSep (Finset.univ.filter fun d : Fin 15 => 0 ≤ d.val) (sigRes c) : sProp 𝕄) := by
  rw [Finset.filter_true_of_mem (fun d _ => Nat.zero_le _), ← bigSep_sep']
  exact bigSep_mono fun d _ => sigRes_one c f d

/-- One barrier signal, between the states before and after it. -/
private theorem sig_step {α : Type} {Q : α → sProp 𝕄} (n : Dev nD) (d : Fin 15) (hn : n = peer c d) (a a' : ℕ) (ha : a = d.val) (ha' : a' = d.val + 1)
    {k : PUnit → Prog (TpuEff nD τ sig (Elt F) Λ₀ .tc) α} :
    SigSt m K c a ⊢ iprop((SigSt m K c a' -∗ WP c (k ⟨⟩) Q)
      -∗ WP c (.op (.semSignal ((n, Proc.tc) : Thread nD τ) barS (1#32).toNat) k) Q) := by
  subst ha ha'
  unfold SigSt
  iintro ⟨#Hrec, #Hlev, ⟨%W, HO⟩, Hsig, HcC, HpC, Hrow0, HcB, HpB, HsT, HsP, HrW, Hout⟩ Hk
  ihave Hs := (filter_pick d.val d.isLt (sigRes c)) $$ Hsig
  icases Hs with ⟨Hs0, Hsig⟩
  iapply (wp_sig m K c n d hn W) $$ [HO Hs0]
  · isplitr; · iexact Hrec
    isplitl [HO]; · iexact HO
    iexact Hs0
  iintro HO
  iapply Hk
  rw [show 30 - (d.val + 1) = 29 - d.val from by omega]
  isplitr; · iexact Hrec
  isplitr; · iexact Hlev
  isplitl [HO]; · iexists W; iexact HO
  isplitl [Hsig]; · iexact Hsig
  isplitl [HcC]; · iexact HcC
  isplitl [HpC]; · iexact HpC
  isplitl [Hrow0]; · iexact Hrow0
  isplitl [HcB]; · iexact HcB
  isplitl [HpB]; · iexact HpB
  isplitl [HsT]; · iexact HsT
  isplitl [HsP]; · iexact HsP
  isplitl [HrW]; · iexact HrW
  iexact Hout

theorem part1_spec :
    StartSt m K c ⊢ WP c (part1 (F := F)) (fun r => iprop(⌜r.1 = c ∧ r.2.2.1 = barH⌝ ∗ SigSt m K c 5)) := by
  unfold part1 WP
  simp only [k0_part1_eq_skeleton]; unfold k0_part1_skel
  simp only [semSignalWord, semWaitWord, Prog.lift, Prog.bind_op, Prog.bind_ret, Prog.pure_eq_ret, wp_deviceId]
  unfold StartSt
  iintro ⟨#Hrec, #Hlev, ⟨%W, HO⟩, HtB, HtC, HxH, ⟨%fx, HxV⟩, ⟨%fc, Hcomm⟩, HpC, HcB, HpB, HsT, HsP, HrW, Hout⟩
  -- the local copy of the block of x
  iapply (wp_copyx m K c fx) $$ [HxH HxV HtC]
  · isplitr; · iexact Hrec
    isplitl [HxH]; · iexact HxH
    isplitl [HxV]; · iexact HxV
    iexact HtC
  iintro HcC
  -- the exchange buffer by rows, each row but the first with the token of the signal that hands it away
  ihave Hrows := (comm_rows c fc).1 $$ Hcomm
  ihave Hrows' := (Entails.of_eq (rows_split c fc)) $$ Hrows
  icases Hrows' with ⟨Hrow0, Hrs⟩
  ihave Hsig := (sigRes_intro c fc) $$ [HtB Hrs]
  · isplitl [HtB]; · iexact HtB
    iexact Hrs
  ihave H : SigSt m K c 0 $$ [HO Hsig HcC HpC Hrow0 HcB HpB HsT HsP HrW Hout]
  · unfold SigSt
    isplitr; · iexact Hrec
    isplitr; · iexact Hlev
    isplitl [HO]; · iexists W; iexact HO
    isplitl [Hsig]; · iexact Hsig
    isplitl [HcC]; · iexact HcC
    isplitl [HpC]; · iexact HpC
    isplitl [Hrow0]; · iexists fc; iexact Hrow0
    isplitl [HcB]; · iexact HcB
    isplitl [HpB]; · iexact HpB
    isplitl [HsT]; · iexact HsT
    isplitl [HsP]; · iexact HsP
    isplitl [HrW]; · iexact HrW
    iexact Hout
  -- the signals of shifts 1 to 5
  iapply (sig_step m K c _ ⟨0, by decide⟩ (dev1_eq c) 0 1 rfl rfl) $$ H; iintro H
  iapply (sig_step m K c _ ⟨1, by decide⟩ (dev2_eq c) 1 2 rfl rfl) $$ H; iintro H
  iapply (sig_step m K c _ ⟨2, by decide⟩ (dev3_eq c) 2 3 rfl rfl) $$ H; iintro H
  iapply (sig_step m K c _ ⟨3, by decide⟩ (dev4_eq c) 3 4 rfl rfl) $$ H; iintro H
  iapply (sig_step m K c _ ⟨4, by decide⟩ (dev5_eq c) 4 5 rfl rfl) $$ H; iintro H
  unfold WP; rw [wp_ret]; imodintro
  isplitr; · ipureintro; exact ⟨rfl, rfl⟩
  iexact H

theorem part2_spec (v2 v24 : BitVec 32) :
    SigSt m K c 5 ⊢ WP c (part2 (F := F) c v2 barH v24) (fun _ => SigSt m K c 11) := by
  unfold part2 WP
  simp only [k0_part2_eq_skeleton]; unfold k0_part2_skel
  simp only [semSignalWord, semWaitWord, Prog.lift, Prog.bind_op, Prog.bind_ret, Prog.pure_eq_ret]
  iintro H
  -- the signals of shifts 6 to 11
  iapply (sig_step m K c _ ⟨5, by decide⟩ (dev6_eq c) 5 6 rfl rfl) $$ H; iintro H
  iapply (sig_step m K c _ ⟨6, by decide⟩ (dev7_eq c) 6 7 rfl rfl) $$ H; iintro H
  iapply (sig_step m K c _ ⟨7, by decide⟩ (dev8_eq c) 7 8 rfl rfl) $$ H; iintro H
  iapply (sig_step m K c _ ⟨8, by decide⟩ (dev9_eq c) 8 9 rfl rfl) $$ H; iintro H
  iapply (sig_step m K c _ ⟨9, by decide⟩ (dev10_eq c) 9 10 rfl rfl) $$ H; iintro H
  iapply (sig_step m K c _ ⟨10, by decide⟩ (dev11_eq c) 10 11 rfl rfl) $$ H; iintro H
  unfold WP; rw [wp_ret]; imodintro
  iexact H

/-! ## The block of x read whole; what the barrier wait returns, by the shift of the copy it allows -/

private theorem hz2 : (![0, 0] : Fin 2 → Nat) = fun _ => 0 := funext fun a => by fin_cases a <;> rfl

private theorem read_xV (f : (cc0_scratch0 : Ref sig .tc).ty.Contents (Elt F)) :
    (xV : Memref sig .tc .vmem S1024x512 .f32).view.readAt (Elt F)
      (Rect.unit (s := S1024x512) ![0, 0] S1024x512.size inb_S1024x512_S1024x512_0_0).toLoadRect f = f :=
  Memref.readAt_unit_zero (Elt F) cc0_scratch0 hz2 _ f

private theorem h0lt : 0 < 16 := by decide

/-- The store of the partial sums into row 0, as the store rule leaves it, restated at the final contents. -/
private theorem store_row0' (f : Buf (Elt F) ((cM : Memref sig .tc .vmem S16x512 .f32).view.loc (c : Thread nD τ))) :
    ((((cM : Memref sig .tc .vmem S16x512 .f32).access (Rect.unit (s := S16x512) ![0, 0] S1x512.size inb_S16x512_S1x512_0_0) : View sig .tc _ _ _).loc (c : Thread nD τ))
        ↦[(rowM 0 h0lt).view.set]{fullShare}
        (((cM : Memref sig .tc .vmem S16x512 .f32).access (Rect.unit (s := S16x512) ![0, 0] S1x512.size inb_S16x512_S1x512_0_0) : View sig .tc _ _ _).write (Elt F) f
          (k0_pay2 (xblk m c)) Finset.univ) : sProp 𝕄)
      = rowPts c 0 (by decide) fullShare (commFinal m c) := store_row0 m c f

/-- Counting shifts from the other side is its own inverse. -/
private def revEquiv : Fin 15 ≃ Fin 15 := ⟨rev, rev, rev_rev, rev_rev⟩

private theorem barPay_row (e : Fin 15) :
    (barPay (F := F) c (rev e) : sProp 𝕄) ⊢ iprop(∃ f, rowPts (peer c e) (e.val + 1) (by have := e.isLt; omega) fullShare f) := by
  rw [barPay_rev]
  iintro ⟨H, -⟩
  iexact H

/-- What the fifteen peers handed over: for the copy of every shift, the row of the peer that it fills. -/
private theorem barPay_rows :
    (bigSep Finset.univ fun d : Fin 15 => barPay (F := F) c d : sProp 𝕄)
      ⊢ bigSep Finset.univ fun e : Fin 15 => iprop(∃ f, rowPts (peer c e) (e.val + 1) (by have := e.isLt; omega) fullShare f) := by
  rw [bigSep_univ_equiv revEquiv (fun d : Fin 15 => (barPay (F := F) c d : sProp 𝕄))]
  exact bigSep_mono fun e _ => barPay_row c e

private theorem sendRes_one (e : Fin 15) :
    iprop((dutyTok ER (sendCell c e) 0 (0 : Fin 15) ∗ dutyTok ER (recvCell (peer c e) e) 0 (0 : Fin 15))
        ∗ rowPts c 0 (by decide) (sendSh e.val) (commFinal m c)
        ∗ (∃ f, rowPts (peer c e) (e.val + 1) (by have := e.isLt; omega) fullShare f))
      ⊢ (sendRes m c e : sProp 𝕄) := by
  unfold sendRes
  iintro ⟨⟨Ht1, Ht2⟩, Hs, Hr⟩
  isplitl [Ht1]; · iexact Ht1
  isplitl [Ht2]; · iexact Ht2
  isplitl [Hs]; · iexact Hs
  iexact Hr

/-- Every copy's tokens, the share of the source row lent to it, and the peer's row that it fills. -/
private theorem sendRes_intro :
    iprop(sendToks c
        ∗ (bigSep Finset.univ fun e : Fin 15 => rowPts c 0 (by decide) (sendSh e.val) (commFinal m c))
        ∗ bigSep Finset.univ fun e : Fin 15 => iprop(∃ f, rowPts (peer c e) (e.val + 1) (by have := e.isLt; omega) fullShare f))
      ⊢ (bigSep (Finset.univ.filter fun e : Fin 15 => 0 ≤ e.val) (sendRes m c) : sProp 𝕄) := by
  unfold sendToks
  rw [Finset.filter_true_of_mem (fun e _ => Nat.zero_le _), ← bigSep_sep', ← bigSep_sep']
  exact bigSep_mono fun e _ => sendRes_one m c e

private theorem none_sent :
    (iprop(emp) : sProp 𝕄) ⊢ bigSep (Finset.univ.filter fun e : Fin 15 => e.val < 0) (fun e => cred (tallyAt (sendCell c e) () N)) := by
  rw [Finset.filter_false_of_mem (fun e _ => Nat.not_lt_zero _), bigSep_empty]
  exact .rfl

theorem part3_spec (v2 v48 : BitVec 32) :
    SigSt m K c 11 ⊢ WP c (part3 (F := F) c v2 barH v48) (fun _ => SendSt m K c 0) := by
  unfold part3 WP
  simp only [k0_part3_eq_skeleton]; unfold k0_part3_skel
  simp only [semSignalWord, semWaitWord, Prog.lift, Prog.bind_op, Prog.bind_ret, Prog.pure_eq_ret]
  iintro H
  -- the signals of shifts 12 to 15
  iapply (sig_step m K c _ ⟨11, by decide⟩ (dev12_eq c) 11 12 rfl rfl) $$ H; iintro H
  iapply (sig_step m K c _ ⟨12, by decide⟩ (dev13_eq c) 12 13 rfl rfl) $$ H; iintro H
  iapply (sig_step m K c _ ⟨13, by decide⟩ (dev14_eq c) 13 14 rfl rfl) $$ H; iintro H
  iapply (sig_step m K c _ ⟨14, by decide⟩ (dev15_eq c) 14 15 rfl rfl) $$ H; iintro H
  unfold SigSt WP
  icases H with ⟨#Hrec, #Hlev, ⟨%W, HO⟩, -, HcC, HpC, ⟨%f0, Hrow0⟩, HcB, HpB, HsT, HsP, HrW, Hout⟩
  -- the local copy waited: the block of x landed
  iapply (wp_wait_copy m K c 15 W) $$ [HcC HO HpC]
  · isplitr; · iexact Hrec
    isplitr; · iexact Hlev
    isplitl [HcC]; · iexact HcC
    isplitl [HO]; · iexact HO
    iexact HpC
  iintro ⟨HO, HpC, HxV, HxH⟩
  -- the block read
  unfold xVPts
  iapply (wp_load 𝒱₀ (c : Thread nD τ) none Set.univ (m := xV) (S := (xV : Memref sig .tc .vmem S1024x512 .f32).view.set)
    (View.setOn_subset_set _ _)) $$ HxV; iintro HxV
  rw [read_xV]
  -- row 0 of the exchange buffer read (the value is not used), then the partial sums stored in it
  unfold rowPts
  iapply (wp_load_rect 𝒱₀ (c : Thread nD τ) none Set.univ (m := cM)
    (r := Rect.unit (s := S16x512) ![0, 0] S1x512.size inb_S16x512_S1x512_0_0)
    (S := (rowM 0 h0lt).view.set) (Finset.Subset.refl _)) $$ Hrow0; iintro Hrow0
  iapply (wp_store 𝒱₀ (c : Thread nD τ) none Set.univ (m := cM)
    (r := Rect.unit (s := S16x512) ![0, 0] S1x512.size inb_S16x512_S1x512_0_0) (Mk := Finset.univ)
    (S := (rowM 0 h0lt).view.set) (Finset.Subset.refl _)) $$ Hrow0; iintro Hrow0
  ihave Hrow0' := (Entails.of_eq (store_row0' m c f0)) $$ Hrow0
  ihave Hsh := (row0_shares c (commFinal m c)).1 $$ Hrow0'
  icases Hsh with ⟨Hshares, Hrest⟩
  -- the barrier waited: every peer's row in hand
  iapply (wp_wait_bar m K c (insert (SemLoc.dma copyS, ()) W)) $$ [HcB HO HpB]
  · isplitr; · iexact Hrec
    isplitr; · iexact Hlev
    isplitl [HcB]; · iexact HcB
    isplitl [HO]; · iexact HO
    iexact HpB
  iintro ⟨HO, HpB, Hpay⟩
  unfold WP; rw [wp_ret]; imodintro
  unfold SendSt xVPts
  isplitr; · iexact Hrec
  isplitr; · iexact Hlev
  isplitl [HO]; · iexists _; iexact HO
  isplitl [HsT Hshares Hpay]
  · iapply (sendRes_intro m c)
    isplitl [HsT]; · iexact HsT
    isplitl [Hshares]; · iexact Hshares
    iapply (barPay_rows c); iexact Hpay
  isplitr; · iapply (none_sent c); iempintro
  isplitl [Hrest]; · iexact Hrest
  isplitl [HxV]; · iexact HxV
  isplitl [HxH]; · iexact HxH
  isplitl [HpC]; · iexact HpC
  isplitl [HpB]; · iexact HpB
  isplitl [HsP]; · iexact HsP
  isplitl [HrW]; · iexact HrW
  iexact Hout

/-- info: 'Cert.KernelIdeal.Dist.start_intro_body' depends on axioms: [propext, Classical.choice, Quot.sound] -/
#guard_msgs in #print axioms start_intro_body
/-- info: 'Cert.KernelIdeal.Dist.part1_spec' depends on axioms: [propext, Classical.choice, Quot.sound] -/
#guard_msgs in #print axioms part1_spec
/-- info: 'Cert.KernelIdeal.Dist.part2_spec' depends on axioms: [propext, Classical.choice, Quot.sound] -/
#guard_msgs in #print axioms part2_spec
/-- info: 'Cert.KernelIdeal.Dist.part3_spec' depends on axioms: [propext, Classical.choice, Quot.sound] -/
#guard_msgs in #print axioms part3_spec

end Cert.KernelIdeal.Dist

end
-- ==== Proof.Dist.BodyB.lean ====
/- The second stretch: the fifteen copies of the partial sums into the peers' rows, each paying its send duty here and
   its receive duty on the peer. -/
import proofs.«900934_g7700000000000935_dist_mean_ax0_shard0_i_m1024_n512_v7x_i16_bf16_1_alg».proof.Proof.Dist.BodyDefs

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-! ## The two index sets of a state, one copy further -/

private theorem ge_erase (e : Fin 15) :
    (Finset.univ.filter fun x : Fin 15 => e.val ≤ x.val).erase e = Finset.univ.filter fun x : Fin 15 => e.val + 1 ≤ x.val := by
  ext x
  simp only [Finset.mem_erase, Finset.mem_filter, Finset.mem_univ, true_and]
  constructor
  · rintro ⟨hne, hle⟩
    have hv : x.val ≠ e.val := fun h => hne (Fin.ext h)
    omega
  · intro h
    refine ⟨fun hx => ?_, by omega⟩
    rw [hx] at h
    omega

private theorem lt_insert (e : Fin 15) :
    (Finset.univ.filter fun x : Fin 15 => x.val < e.val + 1) = insert e (Finset.univ.filter fun x : Fin 15 => x.val < e.val) := by
  ext x
  simp only [Finset.mem_insert, Finset.mem_filter, Finset.mem_univ, true_and]
  constructor
  · intro h
    by_cases hx : x = e
    · exact Or.inl hx
    · have hv : x.val ≠ e.val := fun h' => hx (Fin.ext h')
      exact Or.inr (by omega)
  · rintro (hx | h)
    · rw [hx]; omega
    · omega

private theorem not_mem_lt (e : Fin 15) : e ∉ Finset.univ.filter fun x : Fin 15 => x.val < e.val := by
  simp only [Finset.mem_filter, Finset.mem_univ, true_and]
  omega

/-- One summand put into a separating conjunction over a finite set. -/
private theorem bigSep_put {M : Type} [URA M] {I : Type} [DecidableEq I] {s : Finset I} {i : I} (hi : i ∉ s) (Φ : I → sProp M) :
    iprop(Φ i ∗ bigSep s Φ) ⊢ bigSep (insert i s) Φ := Entails.of_eq (bigSep_insert hi).symm

/-- Two separating conjunctions over the same set, joined summand by summand. -/
private theorem bigSep_zip {M : Type} [URA M] {I : Type} (s : Finset I) (Φ Ψ : I → sProp M) :
    iprop(bigSep s Φ ∗ bigSep s Ψ) ⊢ bigSep s fun i => iprop(Φ i ∗ Ψ i) := Entails.of_eq (bigSep_sep s Φ Ψ).symm

/-- A part's end: the state reached is what the part returns with. -/
private theorem ret_step {α : Type} (a : α) (Q : α → sProp 𝕄) : Q a ⊢ WP c (Prog.ret a) Q := by
  show Q a ⊢ wp frame (wpE (defs₀ (F := F)) 𝒱₀ (c : Thread nD τ) none) Set.univ (Prog.ret a) Q
  rw [wp_ret]
  iintro H; imodintro; iexact H

/-! ## One copy: from `b` copies started to `b + 1` -/

private theorem send_step {α : Type} {Q : α → sProp 𝕄} (e : Fin 15) (b b' : ℕ) (hb : b = e.val) (hb' : b' = e.val + 1) (n : Dev nD) (hn : n = peer c e)
    {hsc : (rowM (e.val + 1) (by omega) : Memref sig (Dev.tc n : Thread nD τ).2.kind .vmem S1x512 .f32).view.ref.isScScratch = false}
    {hsrc : (rowM 0 (by decide) : Memref sig .tc .vmem S1x512 .f32).view.WordExact}
    {hdst : (rowM (e.val + 1) (by omega) : Memref sig .tc .vmem S1x512 .f32).view.WordExact}
    {hsem : DmaTarget.Typed .vmem (.dma (recvS e)) (.remote (Dev.tc n : Thread nD τ) (rowM (e.val + 1) (by omega) : Memref sig .tc .vmem S1x512 .f32) (.dma (sendS e)) hsc)}
    {k : PUnit → Prog (TpuEff nD τ sig (Elt F) Λ₀ .tc) α} :
    SendSt m K c b ⊢ iprop((SendSt m K c b' -∗ WP c (k ⟨⟩) Q)
        -∗ WP c (.op (.enqueueDma (rowM 0 (by decide)) (.remote (Dev.tc n : Thread nD τ) (rowM (e.val + 1) (by omega)) (.dma (sendS e)) hsc) (.dma (recvS e)) hsrc hdst hsem) k) Q) := by
  subst hb hb'
  have h1 : 15 - (e.val + 1) = 14 - e.val := by omega
  unfold SendSt
  iintro ⟨#Hrec, #Hlev, ⟨%W, HO⟩, Hres, Hcr, Hrow, HxV, HxH, HaC, HaB, Hsp, Hrw, Hout⟩ Hk
  ihave Hp := (Cert.Lib.bigSep_pick (s := Finset.univ.filter fun x : Fin 15 => e.val ≤ x.val) (i := e) (Finset.mem_filter.mpr ⟨Finset.mem_univ _, Nat.le_refl _⟩) (sendRes m c)) $$ Hres
  icases Hp with ⟨Hre, Hres⟩
  iapply (wp_send m K c n e hn W) $$ [HO Hre]
  · isplitr; · iexact Hrec
    isplitl [HO]; · iexact HO
    iexact Hre
  iintro ⟨Hc, HO⟩
  iapply Hk
  rw [ge_erase e, lt_insert e, h1]
  isplitr; · iexact Hrec
  isplitr; · iexact Hlev
  isplitl [HO]; · iexists W; iexact HO
  isplitl [Hres]; · iexact Hres
  isplitl [Hc Hcr]
  · iapply (bigSep_put (not_mem_lt e) fun x : Fin 15 => (cred (tallyAt (sendCell c x) () N) : sProp 𝕄))
    isplitl [Hc]; · iexact Hc
    iexact Hcr
  isplitl [Hrow]; · iexact Hrow
  isplitl [HxV]; · iexact HxV
  isplitl [HxH]; · iexact HxH
  isplitl [HaC]; · iexact HaC
  isplitl [HaB]; · iexact HaB
  isplitl [Hsp]; · iexact Hsp
  isplitl [Hrw]; · iexact Hrw
  iexact Hout

theorem part4_spec (v2 v71 : BitVec 32) :
    SendSt m K c 0 ⊢ WP c (part4 (F := F) c v2 v71) (fun _ => SendSt m K c 3) := by
  show _ ⊢ wp frame (wpE (defs₀ (F := F)) 𝒱₀ (c : Thread nD τ) none) Set.univ (k0_part4 _ _ _ _ _ _ _ _ _ _ _ c v2 v71) _
  simp only [k0_part4_eq_skeleton]; unfold k0_part4_skel
  simp only [semSignalWord, semWaitWord, Prog.lift, Prog.bind_op, Prog.bind_ret, Prog.pure_eq_ret]
  iintro H
  iapply (send_step m K c ⟨0, by decide⟩ 0 1 rfl rfl _ (dev16_eq c)) $$ H
  iintro H
  iapply (send_step m K c ⟨1, by decide⟩ 1 2 rfl rfl _ (dev17_eq c)) $$ H
  iintro H
  iapply (send_step m K c ⟨2, by decide⟩ 2 3 rfl rfl _ (dev18_eq c)) $$ H
  iintro H
  iapply (ret_step c _ _) $$ H

theorem part5_spec (v2 v100 c16 : BitVec 32) :
    SendSt m K c 3 ⊢ WP c (part5 (F := F) c v2 v100 c16) (fun _ => SendSt m K c 6) := by
  show _ ⊢ wp frame (wpE (defs₀ (F := F)) 𝒱₀ (c : Thread nD τ) none) Set.univ (k0_part5 _ _ _ _ _ _ _ _ _ _ _ c v2 v100 c16) _
  simp only [k0_part5_eq_skeleton]; unfold k0_part5_skel
  simp only [semSignalWord, semWaitWord, Prog.lift, Prog.bind_op, Prog.bind_ret, Prog.pure_eq_ret]
  iintro H
  iapply (send_step m K c ⟨3, by decide⟩ 3 4 rfl rfl _ (dev19_eq c)) $$ H
  iintro H
  iapply (send_step m K c ⟨4, by decide⟩ 4 5 rfl rfl _ (dev20_eq c)) $$ H
  iintro H
  iapply (send_step m K c ⟨5, by decide⟩ 5 6 rfl rfl _ (dev21_eq c)) $$ H
  iintro H
  iapply (ret_step c _ _) $$ H

theorem part6_spec (v2 : BitVec 32) :
    SendSt m K c 6 ⊢ WP c (part6 (F := F) c v2) (fun _ => SendSt m K c 8) := by
  show _ ⊢ wp frame (wpE (defs₀ (F := F)) 𝒱₀ (c : Thread nD τ) none) Set.univ (k0_part6 _ _ _ _ _ _ _ _ _ _ _ c v2) _
  simp only [k0_part6_eq_skeleton]; unfold k0_part6_skel
  simp only [semSignalWord, semWaitWord, Prog.lift, Prog.bind_op, Prog.bind_ret, Prog.pure_eq_ret]
  iintro H
  iapply (send_step m K c ⟨6, by decide⟩ 6 7 rfl rfl _ (dev22_eq c)) $$ H
  iintro H
  iapply (send_step m K c ⟨7, by decide⟩ 7 8 rfl rfl _ (dev23_eq c)) $$ H
  iintro H
  iapply (ret_step c _ _) $$ H

theorem part7_spec (v2 : BitVec 32) :
    SendSt m K c 8 ⊢ WP c (part7 (F := F) c v2) (fun _ => SendSt m K c 11) := by
  show _ ⊢ wp frame (wpE (defs₀ (F := F)) 𝒱₀ (c : Thread nD τ) none) Set.univ (k0_part7 _ _ _ _ _ _ _ _ _ _ _ c v2) _
  simp only [k0_part7_eq_skeleton]; unfold k0_part7_skel
  simp only [semSignalWord, semWaitWord, Prog.lift, Prog.bind_op, Prog.bind_ret, Prog.pure_eq_ret]
  iintro H
  iapply (send_step m K c ⟨8, by decide⟩ 8 9 rfl rfl _ (dev24_eq c)) $$ H
  iintro H
  iapply (send_step m K c ⟨9, by decide⟩ 9 10 rfl rfl _ (dev25_eq c)) $$ H
  iintro H
  iapply (send_step m K c ⟨10, by decide⟩ 10 11 rfl rfl _ (dev26_eq c)) $$ H
  iintro H
  iapply (ret_step c _ _) $$ H

theorem part8_spec (v2 : BitVec 32) :
    SendSt m K c 11 ⊢ WP c (part8 (F := F) c v2) (fun _ => SendSt m K c 14) := by
  show _ ⊢ wp frame (wpE (defs₀ (F := F)) 𝒱₀ (c : Thread nD τ) none) Set.univ (k0_part8 _ _ _ _ _ _ _ _ _ _ _ c v2) _
  simp only [k0_part8_eq_skeleton]; unfold k0_part8_skel
  simp only [semSignalWord, semWaitWord, Prog.lift, Prog.bind_op, Prog.bind_ret, Prog.pure_eq_ret]
  iintro H
  iapply (send_step m K c ⟨11, by decide⟩ 11 12 rfl rfl _ (dev27_eq c)) $$ H
  iintro H
  iapply (send_step m K c ⟨12, by decide⟩ 12 13 rfl rfl _ (dev28_eq c)) $$ H
  iintro H
  iapply (send_step m K c ⟨13, by decide⟩ 13 14 rfl rfl _ (dev29_eq c)) $$ H
  iintro H
  iapply (ret_step c _ _) $$ H

/-! ## The waits: the index sets one wait further, the regrouping after the last copy, and one wait of each kind -/

private theorem filt_erase {p q : Fin 15 → Prop} [DecidablePred p] [DecidablePred q] (e : Fin 15)
    (h : ∀ x : Fin 15, q x ↔ (p x ∧ x.val ≠ e.val)) :
    (Finset.univ.filter p).erase e = Finset.univ.filter q := by
  ext x
  simp only [Finset.mem_erase, Finset.mem_filter, Finset.mem_univ, true_and]
  rw [h x]
  constructor
  · rintro ⟨hne, hp⟩; exact ⟨hp, fun hv => hne (Fin.ext hv)⟩
  · rintro ⟨hp, hne⟩; exact ⟨fun hx => hne (congrArg Fin.val hx), hp⟩

private theorem filt_insert {p q : Fin 15 → Prop} [DecidablePred p] [DecidablePred q] (e : Fin 15)
    (h : ∀ x : Fin 15, q x ↔ (x.val = e.val ∨ p x)) :
    Finset.univ.filter q = insert e (Finset.univ.filter p) := by
  ext x
  simp only [Finset.mem_insert, Finset.mem_filter, Finset.mem_univ, true_and]
  rw [h x]
  constructor
  · rintro (hv | hp)
    · exact Or.inl (Fin.ext hv)
    · exact Or.inr hp
  · rintro (hx | hp)
    · exact Or.inl (congrArg Fin.val hx)
    · exact Or.inr hp

private theorem filt_same {p q : Fin 15 → Prop} [DecidablePred p] [DecidablePred q] (h : ∀ x : Fin 15, p x ↔ q x) :
    Finset.univ.filter p = Finset.univ.filter q := Finset.filter_congr fun x _ => h x

/- Send wait of shift e + 1: from 2e waits done to 2e + 1. -/
private theorem ws1 (e : Fin 15) : (Finset.univ.filter fun x : Fin 15 => 2 * e.val ≤ 2 * x.val).erase e
    = Finset.univ.filter fun x : Fin 15 => 2 * e.val + 1 ≤ 2 * x.val := filt_erase e fun x => by omega
private theorem ws2 (e : Fin 15) : (Finset.univ.filter fun x : Fin 15 => 2 * x.val < 2 * e.val + 1)
    = insert e (Finset.univ.filter fun x : Fin 15 => 2 * x.val < 2 * e.val) := filt_insert e fun x => by omega
private theorem ws2n (e : Fin 15) : e ∉ Finset.univ.filter fun x : Fin 15 => 2 * x.val < 2 * e.val := by
  simp only [Finset.mem_filter, Finset.mem_univ, true_and]; omega
private theorem ws3 (e : Fin 15) : (Finset.univ.filter fun x : Fin 15 => 2 * e.val + 1 ≤ 2 * x.val + 1)
    = Finset.univ.filter fun x : Fin 15 => 2 * e.val ≤ 2 * x.val + 1 := filt_same fun x => by omega
private theorem ws4 (e : Fin 15) : (Finset.univ.filter fun x : Fin 15 => 2 * x.val + 1 < 2 * e.val + 1)
    = Finset.univ.filter fun x : Fin 15 => 2 * x.val + 1 < 2 * e.val := filt_same fun x => by omega
/- Receive wait of shift e + 1: from 2e + 1 waits done to 2e + 2. -/
private theorem wr1 (e : Fin 15) : (Finset.univ.filter fun x : Fin 15 => 2 * e.val + 2 ≤ 2 * x.val)
    = Finset.univ.filter fun x : Fin 15 => 2 * e.val + 1 ≤ 2 * x.val := filt_same fun x => by omega
private theorem wr2 (e : Fin 15) : (Finset.univ.filter fun x : Fin 15 => 2 * x.val < 2 * e.val + 2)
    = Finset.univ.filter fun x : Fin 15 => 2 * x.val < 2 * e.val + 1 := filt_same fun x => by omega
private theorem wr3 (e : Fin 15) : (Finset.univ.filter fun x : Fin 15 => 2 * e.val + 1 ≤ 2 * x.val + 1).erase e
    = Finset.univ.filter fun x : Fin 15 => 2 * e.val + 2 ≤ 2 * x.val + 1 := filt_erase e fun x => by omega
private theorem wr4 (e : Fin 15) : (Finset.univ.filter fun x : Fin 15 => 2 * x.val + 1 < 2 * e.val + 2)
    = insert e (Finset.univ.filter fun x : Fin 15 => 2 * x.val + 1 < 2 * e.val + 1) := filt_insert e fun x => by omega
private theorem wr4n (e : Fin 15) : e ∉ Finset.univ.filter fun x : Fin 15 => 2 * x.val + 1 < 2 * e.val + 1 := by
  simp only [Finset.mem_filter, Finset.mem_univ, true_and]; omega

/-- All fifteen copies started: every send credit paired with its cell's position, nothing waited yet. -/
private theorem send_done : SendSt m K c 15 ⊢ WaitSt m K c 0 := by
  have e1 : (Finset.univ.filter fun e : Fin 15 => 15 ≤ e.val) = ∅ := Finset.filter_false_of_mem fun x _ => by omega
  have e2 : (Finset.univ.filter fun e : Fin 15 => e.val < 15) = Finset.univ := Finset.filter_true_of_mem fun x _ => by omega
  have e3 : (Finset.univ.filter fun e : Fin 15 => 0 ≤ 2 * e.val) = Finset.univ := Finset.filter_true_of_mem fun x _ => by omega
  have e4 : (Finset.univ.filter fun e : Fin 15 => 2 * e.val < 0) = ∅ := Finset.filter_false_of_mem fun x _ => by omega
  have e5 : (Finset.univ.filter fun e : Fin 15 => 0 ≤ 2 * e.val + 1) = Finset.univ := Finset.filter_true_of_mem fun x _ => by omega
  have e6 : (Finset.univ.filter fun e : Fin 15 => 2 * e.val + 1 < 0) = ∅ := Finset.filter_false_of_mem fun x _ => by omega
  have h0 : owe c (15 - 15) = 0 := rfl
  unfold SendSt WaitSt sendPoss recvWaits
  rw [e1, e2, e3, e4, e5, e6, h0, bigSep_empty, bigSep_empty, bigSep_empty]
  iintro ⟨#Hrec, #Hlev, ⟨%W, HO⟩, -, Hcr, Hrow, HxV, HxH, HaC, HaB, Hsp, Hrw, Hout⟩
  isplitr; · iexact Hrec
  isplitr; · iexact Hlev
  isplitl [HO]; · iexists W; iexact HO
  isplitl [Hcr Hsp]
  · iapply (bigSep_zip Finset.univ (fun e : Fin 15 => (cred (tallyAt (sendCell c e) () N) : sProp 𝕄)) fun e : Fin 15 => atPos ER (sendCell c e) 0 ∅ 0)
    isplitl [Hcr]; · iexact Hcr
    iexact Hsp
  isplitr; · iempintro
  isplitl [Hrw]; · iexact Hrw
  isplitr; · iempintro
  isplitl [Hrow]; · iexact Hrow
  isplitl [HxV]; · iexact HxV
  isplitl [HxH]; · iexact HxH
  isplitl [HaC]; · iexact HaC
  isplitl [HaB]; · iexact HaB
  iexact Hout

/-- The send wait of shift `e + 1`, the wait number `2e`. -/
private theorem wait_send_step {α : Type} {Q : α → sProp 𝕄} (e : Fin 15) (w w' : ℕ) (hw : w = 2 * e.val) (hw' : w' = 2 * e.val + 1)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c w' -∗ WP c (k ⟨⟩) Q) -∗ WP c (.op (.waitDma2 (sendS e) s d hsrc hdst) k) Q) := by
  subst hw hw'
  unfold WaitSt
  iintro ⟨#Hrec, #Hlev, ⟨%W, HO⟩, Hsp, Hsd, Hrp, Hrd, Hrow, HxV, HxH, HaC, HaB, Hout⟩ Hk
  ihave Hp := (Cert.Lib.bigSep_pick (s := Finset.univ.filter fun x : Fin 15 => 2 * e.val ≤ 2 * x.val) (i := e)
    (Finset.mem_filter.mpr ⟨Finset.mem_univ _, Nat.le_refl _⟩)
    (fun x : Fin 15 => (iprop(cred (tallyAt (sendCell c x) () N) ∗ atPos ER (sendCell c x) 0 ∅ 0) : sProp 𝕄))) $$ Hsp
  icases Hp with ⟨⟨Hc, Hat⟩, Hsp⟩
  iapply (wp_wait_send m K c e W) $$ [Hc HO Hat]
  · isplitr; · iexact Hrec
    isplitl [Hc]; · iexact Hc
    isplitl [HO]; · iexact HO
    iexact Hat
  iintro ⟨HO, Hat, Hsh⟩
  iapply Hk
  rw [ws1 e, ws2 e, ws3 e, ws4 e]
  isplitr; · iexact Hrec
  isplitr; · iexact Hlev
  isplitl [HO]; · iexists _; iexact HO
  isplitl [Hsp]; · iexact Hsp
  isplitl [Hat Hsh Hsd]
  · iapply (bigSep_put (ws2n e) _)
    isplitl [Hat Hsh]
    · isplitl [Hat]; · iexact Hat
      iexact Hsh
    iexact Hsd
  isplitl [Hrp]; · iexact Hrp
  isplitl [Hrd]; · iexact Hrd
  isplitl [Hrow]; · iexact Hrow
  isplitl [HxV]; · iexact HxV
  isplitl [HxH]; · iexact HxH
  isplitl [HaC]; · iexact HaC
  isplitl [HaB]; · iexact HaB
  iexact Hout

/-- The receive wait of shift `e + 1`, the wait number `2e + 1`. -/
private theorem wait_recv_step {α : Type} {Q : α → sProp 𝕄} (e : Fin 15) (w w' : ℕ) (hw : w = 2 * e.val + 1) (hw' : w' = 2 * e.val + 2)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c w' -∗ WP c (k ⟨⟩) Q) -∗ WP c (.op (.waitDma2 (recvS e) s d hsrc hdst) k) Q) := by
  subst hw hw'
  unfold WaitSt
  iintro ⟨#Hrec, #Hlev, ⟨%W, HO⟩, Hsp, Hsd, Hrp, Hrd, Hrow, HxV, HxH, HaC, HaB, Hout⟩ Hk
  ihave Hp := (Cert.Lib.bigSep_pick (s := Finset.univ.filter fun x : Fin 15 => 2 * e.val + 1 ≤ 2 * x.val + 1) (i := e)
    (Finset.mem_filter.mpr ⟨Finset.mem_univ _, Nat.le_refl _⟩)
    (fun x : Fin 15 => (iprop(cred (tallyAt (recvCell c x) () N) ∗ atPos ER (recvCell c x) 0 ∅ 0) : sProp 𝕄))) $$ Hrp
  icases Hp with ⟨⟨Hc, Hat⟩, Hrp⟩
  iapply (wp_wait_recv m K c e W) $$ [Hc HO Hat]
  · isplitr; · iexact Hrec
    isplitl [Hc]; · iexact Hc
    isplitl [HO]; · iexact HO
    iexact Hat
  iintro ⟨HO, Hat, Hsh⟩
  iapply Hk
  rw [wr1 e, wr2 e, wr3 e, wr4 e]
  isplitr; · iexact Hrec
  isplitr; · iexact Hlev
  isplitl [HO]; · iexists _; iexact HO
  isplitl [Hsp]; · iexact Hsp
  isplitl [Hsd]; · iexact Hsd
  isplitl [Hrp]; · iexact Hrp
  isplitl [Hat Hsh Hrd]
  · iapply (bigSep_put (wr4n e) _)
    isplitl [Hat Hsh]
    · isplitl [Hat]; · iexact Hat
      iexact Hsh
    iexact Hrd
  isplitl [Hrow]; · iexact Hrow
  isplitl [HxV]; · iexact HxV
  isplitl [HxH]; · iexact HxH
  isplitl [HaC]; · iexact HaC
  isplitl [HaB]; · iexact HaB
  iexact Hout

/-- The last copy, then the first three waits. -/
theorem part9_spec (v71 v81 : BitVec 32) :
    SendSt m K c 14 ⊢ WP c (part9 (F := F) c v71 v81) (fun _ => WaitSt m K c 3) := by
  show _ ⊢ wp frame (wpE (defs₀ (F := F)) 𝒱₀ (c : Thread nD τ) none) Set.univ (k0_part9 _ _ _ _ _ _ _ _ _ _ _ c v71 v81) _
  simp only [k0_part9_eq_skeleton]; unfold k0_part9_skel
  simp only [semSignalWord, semWaitWord, Prog.lift, Prog.bind_op, Prog.bind_ret, Prog.pure_eq_ret]
  iintro H
  iapply (send_step m K c ⟨14, by decide⟩ 14 15 rfl rfl _ (dev30_eq c)) $$ H
  iintro H
  ihave H := (send_done m K c) $$ H
  iapply (wait_send_step m K c ⟨0, by decide⟩ 0 1 rfl rfl) $$ H
  iintro H
  iapply (wait_recv_step m K c ⟨0, by decide⟩ 1 2 rfl rfl) $$ H
  iintro H
  iapply (wait_send_step m K c ⟨1, by decide⟩ 2 3 rfl rfl) $$ H
  iintro H
  iapply (ret_step c _ _) $$ H

end Cert.KernelIdeal.Dist

end
-- ==== Proof.Dist.BodyC.lean ====
/- The third stretch: the remaining waits — a send wait returns the share of the source row lent to that copy, a receive
   wait a landed row holding the sender's partial sums —, then the rows and shares rejoined and the whole exchange
   buffer loaded and added up. -/
import proofs.«900934_g7700000000000935_dist_mean_ax0_shard0_i_m1024_n512_v7x_i16_bf16_1_alg».proof.Proof.Dist.BodyDefs

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-! ## Separating conjunctions over filtered sets of shifts: one element out, one in, the same set named twice -/

section Sets
variable {M : Type} [URA M]

/-- The element at which the condition is given up, taken out. -/
private theorem filt_take (p q : Fin 15 → Prop) [DecidablePred p] [DecidablePred q] (e : Fin 15) (Φ : Fin 15 → sProp M)
    (hp : p e) (h : ∀ x, q x ↔ (p x ∧ x ≠ e)) :
    bigSep (Finset.univ.filter p) Φ ⊢ iprop(Φ e ∗ bigSep (Finset.univ.filter q) Φ) := by
  have hs : (Finset.univ.filter p).erase e = Finset.univ.filter q := by
    ext x
    rw [Finset.mem_erase, Finset.mem_filter, Finset.mem_filter, h x]
    constructor
    · rintro ⟨h1, -, h2⟩; exact ⟨Finset.mem_univ _, h2, h1⟩
    · rintro ⟨-, h2, h1⟩; exact ⟨h1, Finset.mem_univ _, h2⟩
  have he : e ∈ Finset.univ.filter p := Finset.mem_filter.mpr ⟨Finset.mem_univ _, hp⟩
  rw [← hs]
  exact Entails.of_eq (bigSep_erase he)

/-- The element at which the condition is newly met, put in. -/
private theorem filt_put (p q : Fin 15 → Prop) [DecidablePred p] [DecidablePred q] (e : Fin 15) (Φ : Fin 15 → sProp M)
    (hp : ¬ p e) (h : ∀ x, q x ↔ (p x ∨ x = e)) :
    iprop(Φ e ∗ bigSep (Finset.univ.filter p) Φ) ⊢ bigSep (Finset.univ.filter q) Φ := by
  have hs : Finset.univ.filter q = insert e (Finset.univ.filter p) := by
    ext x
    rw [Finset.mem_insert, Finset.mem_filter, Finset.mem_filter, h x]
    constructor
    · rintro ⟨-, h1 | h1⟩
      · exact Or.inr ⟨Finset.mem_univ _, h1⟩
      · exact Or.inl h1
    · rintro (h1 | ⟨-, h1⟩)
      · exact ⟨Finset.mem_univ _, Or.inr h1⟩
      · exact ⟨Finset.mem_univ _, Or.inl h1⟩
  have he : e ∉ Finset.univ.filter p := fun hm => hp (Finset.mem_filter.mp hm).2
  rw [hs]
  exact Entails.of_eq (bigSep_insert he).symm

/-- The same set under two conditions. -/
private theorem filt_same (p q : Fin 15 → Prop) [DecidablePred p] [DecidablePred q] (Φ : Fin 15 → sProp M)
    (h : ∀ x, p x ↔ q x) :
    bigSep (Finset.univ.filter p) Φ ⊢ bigSep (Finset.univ.filter q) Φ := by
  have hs : Finset.univ.filter p = Finset.univ.filter q := by
    ext x
    rw [Finset.mem_filter, Finset.mem_filter, h x]
  rw [hs]

end Sets

/-! ## One wait, between two states of the family -/

/-- Wait number 2e, the send wait of shift e + 1: its position moves on and the share of the source row lent to that
    copy is back. -/
private theorem step_send {α : Type} {Q : α → sProp 𝕄} (w : ℕ) (e : Fin 15) (hw : w = 2 * e.val)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c (w + 1) -∗ WP c (k ⟨⟩) Q) -∗ WP c (.op (.waitDma2 (sendS e) s d hsrc hdst) k) Q) := by
  subst hw
  unfold WaitSt
  iintro ⟨#Hrec, #Hlev, ⟨%W, HO⟩, Hsp, Hsd, Hrp, Hrd, Hrest⟩ Hk
  ihave Hpick := (filt_take (fun x : Fin 15 => 2 * e.val ≤ 2 * x.val) (fun x : Fin 15 => 2 * e.val + 1 ≤ 2 * x.val) e _
    (Nat.le_refl _) (by intro x; rw [ne_eq, Fin.ext_iff]; omega)) $$ Hsp
  icases Hpick with ⟨⟨Hc, Hat⟩, Hsp⟩
  iapply (wp_wait_send m K c e W) $$ [Hc HO Hat]
  · isplitr; · iexact Hrec
    isplitl [Hc]; · iexact Hc
    isplitl [HO]; · iexact HO
    iexact Hat
  iintro ⟨HO, Hat, Hrow⟩
  iapply Hk
  isplitr; · iexact Hrec
  isplitr; · iexact Hlev
  isplitl [HO]; · iexists _; iexact HO
  isplitl [Hsp]; · iexact Hsp
  isplitl [Hsd Hat Hrow]
  · iapply (filt_put (fun x : Fin 15 => 2 * x.val < 2 * e.val) (fun x : Fin 15 => 2 * x.val < 2 * e.val + 1) e _
      (Nat.lt_irrefl _) (by intro x; rw [Fin.ext_iff]; omega))
    isplitl [Hat Hrow]
    · isplitl [Hat]; · iexact Hat
      iexact Hrow
    iexact Hsd
  isplitl [Hrp]
  · iapply (filt_same (fun x : Fin 15 => 2 * e.val ≤ 2 * x.val + 1) (fun x : Fin 15 => 2 * e.val + 1 ≤ 2 * x.val + 1) _
      (by intro x; omega)) $$ Hrp
  isplitl [Hrd]
  · iapply (filt_same (fun x : Fin 15 => 2 * x.val + 1 < 2 * e.val) (fun x : Fin 15 => 2 * x.val + 1 < 2 * e.val + 1) _
      (by intro x; omega)) $$ Hrd
  iexact Hrest

/-- Wait number 2e + 1, the receive wait of shift e + 1: its position moves on and row e + 1 has landed. -/
private theorem step_recv {α : Type} {Q : α → sProp 𝕄} (w : ℕ) (e : Fin 15) (hw : w = 2 * e.val + 1)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c (w + 1) -∗ WP c (k ⟨⟩) Q) -∗ WP c (.op (.waitDma2 (recvS e) s d hsrc hdst) k) Q) := by
  subst hw
  unfold WaitSt
  iintro ⟨#Hrec, #Hlev, ⟨%W, HO⟩, Hsp, Hsd, Hrp, Hrd, Hrest⟩ Hk
  ihave Hpick := (filt_take (fun x : Fin 15 => 2 * e.val + 1 ≤ 2 * x.val + 1) (fun x : Fin 15 => 2 * e.val + 1 + 1 ≤ 2 * x.val + 1) e _
    (Nat.le_refl _) (by intro x; rw [ne_eq, Fin.ext_iff]; omega)) $$ Hrp
  icases Hpick with ⟨⟨Hc, Hat⟩, Hrp⟩
  iapply (wp_wait_recv m K c e W) $$ [Hc HO Hat]
  · isplitr; · iexact Hrec
    isplitl [Hc]; · iexact Hc
    isplitl [HO]; · iexact HO
    iexact Hat
  iintro ⟨HO, Hat, Hrow⟩
  iapply Hk
  isplitr; · iexact Hrec
  isplitr; · iexact Hlev
  isplitl [HO]; · iexists _; iexact HO
  isplitl [Hsp]
  · iapply (filt_same (fun x : Fin 15 => 2 * e.val + 1 ≤ 2 * x.val) (fun x : Fin 15 => 2 * e.val + 1 + 1 ≤ 2 * x.val) _
      (by intro x; omega)) $$ Hsp
  isplitl [Hsd]
  · iapply (filt_same (fun x : Fin 15 => 2 * x.val < 2 * e.val + 1) (fun x : Fin 15 => 2 * x.val < 2 * e.val + 1 + 1) _
      (by intro x; omega)) $$ Hsd
  isplitl [Hrp]; · iexact Hrp
  isplitl [Hrd Hat Hrow]
  · iapply (filt_put (fun x : Fin 15 => 2 * x.val + 1 < 2 * e.val + 1) (fun x : Fin 15 => 2 * x.val + 1 < 2 * e.val + 1 + 1) e _
      (Nat.lt_irrefl _) (by intro x; rw [Fin.ext_iff]; omega))
    isplitl [Hat Hrow]
    · isplitl [Hat]; · iexact Hat
      iexact Hrow
    iexact Hrd
  iexact Hrest

theorem part10_spec (v91 v101 : BitVec 32) :
    WaitSt m K c 3 ⊢ WP c (part10 (F := F) v91 v101) (fun _ => WaitSt m K c 8) := by
  show _ ⊢ wp frame (wpE (defs₀ (F := F)) 𝒱₀ (c : Thread nD τ) none) Set.univ (k0_part10 _ _ _ _ _ _ _ _ _ _ _ _ _) _
  simp only [k0_part10_eq_skeleton]; unfold k0_part10_skel
  simp only [Prog.lift, Prog.bind_op, Prog.bind_ret, Prog.pure_eq_ret]
  iintro H
  iapply (step_recv m K c 3 (1 : Fin 15) (by decide)) $$ H; iintro H
  iapply (step_send m K c 4 (2 : Fin 15) (by decide)) $$ H; iintro H
  iapply (step_recv m K c 5 (2 : Fin 15) (by decide)) $$ H; iintro H
  iapply (step_send m K c 6 (3 : Fin 15) (by decide)) $$ H; iintro H
  iapply (step_recv m K c 7 (3 : Fin 15) (by decide)) $$ H; iintro H
  unfold WP; rw [wp_ret]; imodintro
  iexact H

theorem part11_spec (v111 v121 : BitVec 32) :
    WaitSt m K c 8 ⊢ WP c (part11 (F := F) v111 v121) (fun _ => WaitSt m K c 12) := by
  show _ ⊢ wp frame (wpE (defs₀ (F := F)) 𝒱₀ (c : Thread nD τ) none) Set.univ (k0_part11 _ _ _ _ _ _ _ _ _ _ _ _ _) _
  simp only [k0_part11_eq_skeleton]; unfold k0_part11_skel
  simp only [Prog.lift, Prog.bind_op, Prog.bind_ret, Prog.pure_eq_ret]
  iintro H
  iapply (step_send m K c 8 (4 : Fin 15) (by decide)) $$ H; iintro H
  iapply (step_recv m K c 9 (4 : Fin 15) (by decide)) $$ H; iintro H
  iapply (step_send m K c 10 (5 : Fin 15) (by decide)) $$ H; iintro H
  iapply (step_recv m K c 11 (5 : Fin 15) (by decide)) $$ H; iintro H
  unfold WP; rw [wp_ret]; imodintro
  iexact H

theorem part12_spec (v131 v141 : BitVec 32) :
    WaitSt m K c 12 ⊢ WP c (part12 (F := F) v131 v141) (fun _ => WaitSt m K c 17) := by
  show _ ⊢ wp frame (wpE (defs₀ (F := F)) 𝒱₀ (c : Thread nD τ) none) Set.univ (k0_part12 _ _ _ _ _ _ _ _ _ _ _ _ _) _
  simp only [k0_part12_eq_skeleton]; unfold k0_part12_skel
  simp only [Prog.lift, Prog.bind_op, Prog.bind_ret, Prog.pure_eq_ret]
  iintro H
  iapply (step_send m K c 12 (6 : Fin 15) (by decide)) $$ H; iintro H
  iapply (step_recv m K c 13 (6 : Fin 15) (by decide)) $$ H; iintro H
  iapply (step_send m K c 14 (7 : Fin 15) (by decide)) $$ H; iintro H
  iapply (step_recv m K c 15 (7 : Fin 15) (by decide)) $$ H; iintro H
  iapply (step_send m K c 16 (8 : Fin 15) (by decide)) $$ H; iintro H
  unfold WP; rw [wp_ret]; imodintro
  iexact H

theorem part13_spec (v151 v161 v171 c1 : BitVec 32) :
    WaitSt m K c 17 ⊢ WP c (part13 (F := F) v151 v161 v171 c1) (fun _ => WaitSt m K c 21) := by
  show _ ⊢ wp frame (wpE (defs₀ (F := F)) 𝒱₀ (c : Thread nD τ) none) Set.univ (k0_part13 _ _ _ _ _ _ _ _ _ _ _ _ _ _ _) _
  simp only [k0_part13_eq_skeleton]; unfold k0_part13_skel
  simp only [Prog.lift, Prog.bind_op, Prog.bind_ret, Prog.pure_eq_ret]
  iintro H
  iapply (step_recv m K c 17 (8 : Fin 15) (by decide)) $$ H; iintro H
  iapply (step_send m K c 18 (9 : Fin 15) (by decide)) $$ H; iintro H
  iapply (step_recv m K c 19 (9 : Fin 15) (by decide)) $$ H; iintro H
  iapply (step_send m K c 20 (10 : Fin 15) (by decide)) $$ H; iintro H
  unfold WP; rw [wp_ret]; imodintro
  iexact H

theorem part14_spec (v181 v191 : BitVec 32) :
    WaitSt m K c 21 ⊢ WP c (part14 (F := F) v181 v191) (fun _ => WaitSt m K c 26) := by
  show _ ⊢ wp frame (wpE (defs₀ (F := F)) 𝒱₀ (c : Thread nD τ) none) Set.univ (k0_part14 _ _ _ _ _ _ _ _ _ _ _ _ _) _
  simp only [k0_part14_eq_skeleton]; unfold k0_part14_skel
  simp only [Prog.lift, Prog.bind_op, Prog.bind_ret, Prog.pure_eq_ret]
  iintro H
  iapply (step_recv m K c 21 (10 : Fin 15) (by decide)) $$ H; iintro H
  iapply (step_send m K c 22 (11 : Fin 15) (by decide)) $$ H; iintro H
  iapply (step_recv m K c 23 (11 : Fin 15) (by decide)) $$ H; iintro H
  iapply (step_send m K c 24 (12 : Fin 15) (by decide)) $$ H; iintro H
  iapply (step_recv m K c 25 (12 : Fin 15) (by decide)) $$ H; iintro H
  unfold WP; rw [wp_ret]; imodintro
  iexact H

/-! ## Every wait done: the shares of the source row and the sixteen rows rejoined -/

section Join
variable {M : Type} [URA M]

/-- A condition every shift meets filters nothing out. -/
private theorem filt_all (p : Fin 15 → Prop) [DecidablePred p] (Φ : Fin 15 → sProp M) (h : ∀ x, p x) :
    bigSep (Finset.univ.filter p) Φ ⊢ bigSep Finset.univ Φ := by
  rw [Finset.filter_true_of_mem fun x _ => h x]

/-- A conjunction of pairs is the pair of the conjunctions. -/
private theorem pairs_split {I : Type} (s : Finset I) (Φ Ψ : I → sProp M) :
    bigSep s (fun i => iprop(Φ i ∗ Ψ i)) ⊢ iprop(bigSep s Φ ∗ bigSep s Ψ) := Entails.of_eq (bigSep_sep s Φ Ψ)

/-- Shift e names row e + 1. -/
private def rowOf : Fin 15 ↪ Fin 16 :=
  ⟨fun e => ⟨e.val + 1, by omega⟩, fun a b h => Fin.ext (by have := congrArg Fin.val h; simp only at this; omega)⟩

/-- Sixteen rows: row 0 and the rows of the fifteen shifts. -/
private theorem rows_join (Φ : Fin 16 → sProp M) :
    iprop(Φ 0 ∗ bigSep Finset.univ (fun e : Fin 15 => Φ ⟨e.val + 1, by omega⟩)) ⊢ bigSep Finset.univ Φ := by
  have hu : (Finset.univ : Finset (Fin 16)) = insert 0 (Finset.univ.map rowOf) := by decide
  have h0 : (0 : Fin 16) ∉ Finset.univ.map rowOf := by decide
  rw [hu, bigSep_insert h0, bigSep_map]
  exact Entails.refl _

end Join

private theorem hz00 : (![0, 0] : Fin 2 → Nat) = fun _ => 0 := funext fun a => by fin_cases a <;> rfl

/-- The whole exchange buffer read through the whole rectangle is its contents. -/
private theorem read_comm (f : (cc0_scratch1 : Ref sig .tc).ty.Contents (Elt F)) :
    (cM : Memref sig .tc .vmem S16x512 .f32).view.readAt (Elt F)
      (Rect.unit (s := S16x512) ![0, 0] S16x512.size inb_S16x512_S16x512_0_0).toLoadRect f = f :=
  Memref.readAt_unit_zero (Elt F) cc0_scratch1 hz00 _ f

/-- After the thirtieth wait nothing is pending: the fifteen lent shares and the rest make row 0 whole again, row 0 and
    the fifteen landed rows make the exchange buffer whole, at its final contents. -/
private theorem waitSt_final : WaitSt m K c 30 ⊢ FinalSt m K c := by
  unfold WaitSt FinalSt
  iintro ⟨#Hrec, #Hlev, HO, -, Hsd, -, Hrd, Hr0, HxV, HxH, Hac, Hab, Hout⟩
  ihave Hsd1 := (filt_all (fun x : Fin 15 => 2 * x.val < 30) _ (by intro x; omega)) $$ Hsd
  ihave Hrd1 := (filt_all (fun x : Fin 15 => 2 * x.val + 1 < 30) _ (by intro x; omega)) $$ Hrd
  ihave Hsd2 := (pairs_split Finset.univ _ _) $$ Hsd1
  ihave Hrd2 := (pairs_split Finset.univ _ _) $$ Hrd1
  icases Hsd2 with ⟨Hsa, Hsh⟩
  icases Hrd2 with ⟨Hra, Hrows⟩
  ihave Hrow0 := (row0_shares c (commFinal m c)).2 $$ [Hsh Hr0]
  · isplitl [Hsh]; · iexact Hsh
    iexact Hr0
  ihave Hall := (rows_join (fun k : Fin 16 => rowPts c k.val k.isLt fullShare (commFinal m c))) $$ [Hrow0 Hrows]
  · isplitl [Hrow0]; · iexact Hrow0
    iexact Hrows
  ihave Hcomm := (comm_rows c (commFinal m c)).2 $$ Hall
  isplitr; · iexact Hrec
  isplitr; · iexact Hlev
  isplitl [HO]; · iexact HO
  isplitl [Hcomm]; · iexact Hcomm
  isplitl [HxV]; · iexact HxV
  isplitl [HxH]; · iexact HxH
  isplitl [Hac]; · iexact Hac
  isplitl [Hab]; · iexact Hab
  isplitl [Hsa]; · iexact Hsa
  isplitl [Hra]; · iexact Hra
  iexact Hout

/-- The last four waits; the rows and the shares of row 0 rejoined; the whole buffer loaded and its sixteen rows added. -/
theorem part15_spec (v201 v211 : BitVec 32) :
    WaitSt m K c 26 ⊢ WP c (part15 (F := F) v201 v211) (fun v => iprop(⌜v = k0_pay3 (commFinal m c)⌝ ∗ FinalSt m K c)) := by
  show _ ⊢ wp frame (wpE (defs₀ (F := F)) 𝒱₀ (c : Thread nD τ) none) Set.univ (k0_part15 _ _ _ _ _ _ _ _ _ _ _ _ _) _
  simp only [k0_part15_eq_skeleton]; unfold k0_part15_skel
  simp only [Prog.lift, Prog.bind_op, Prog.bind_ret, Prog.pure_eq_ret]
  iintro H
  iapply (step_send m K c 26 (13 : Fin 15) (by decide)) $$ H; iintro H
  iapply (step_recv m K c 27 (13 : Fin 15) (by decide)) $$ H; iintro H
  iapply (step_send m K c 28 (14 : Fin 15) (by decide)) $$ H; iintro H
  iapply (step_recv m K c 29 (14 : Fin 15) (by decide)) $$ H; iintro H
  ihave HF := (waitSt_final m K c) $$ H
  unfold FinalSt
  icases HF with ⟨#Hrec, #Hlev, HO, Hcomm, Hrest⟩
  unfold commPts
  iapply (wp_load 𝒱₀ (c : Thread nD τ) none Set.univ (m := cM) (S := (cM : Memref sig .tc .vmem S16x512 .f32).view.set)
    (by rw [View.set_whole]; exact Finset.subset_univ _)) $$ Hcomm
  iintro Hcomm
  rw [read_comm, wp_ret]; imodintro
  isplitr; · ipureintro; rfl
  isplitr; · iexact Hrec
  isplitr; · iexact Hlev
  isplitl [HO]; · iexact HO
  isplitl [Hcomm]; · iexact Hcomm
  iexact Hrest

end Cert.KernelIdeal.Dist

end
-- ==== Proof.Dist.BodyT.lean ====
/- The end of the body: the sum of the sixteen rows scaled and stored in the output's staging buffer, and the kernel's own
   thirty-one cells — the local copy's, the fifteen send cells, the fifteen receive cells — closed, their counters at zero
   handed back. -/
import proofs.«900934_g7700000000000935_dist_mean_ax0_shard0_i_m1024_n512_v7x_i16_bf16_1_alg».proof.Proof.Dist.BodyDefs

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-- What the body hands back. -/
def bodyPost : sProp 𝕄 :=
  iprop(Φ₁ m c ∗ (dats m ρ 0 c).owesAt () t0_0.succ
    ∗ ∃ f : Buf (Elt F) ((c : Thread nD τ).loc cc0_stg0_0), ⌜f = (dats m ρ 0 c).after (0 : Fin 1) t0_0⌝ ∗ ((c : Thread nD τ).loc cc0_stg0_0) ↦{fullShare} f)

/-! ## The thirty-one own cells, by what they are for -/

/-- The own semaphore of the copy of shift `e + 1`'s send cell, and of its receive cell, as the launch numbers them. -/
private def sIdx (e : Fin 15) : Fin 31 := ⟨e.val + 1, by omega⟩
private def rIdx (e : Fin 15) : Fin 31 := ⟨e.val + 16, by omega⟩

private theorem osem_copy : osem 0 = .dma copyS := by decide
private theorem osem_send (e : Fin 15) : osem (sIdx e) = .dma (sendS e) := by revert e; decide
private theorem osem_recv (e : Fin 15) : osem (rIdx e) = .dma (recvS e) := by revert e; decide

/-- The thirty-one own semaphores are the local copy's, the fifteen send ones and the fifteen receive ones. -/
private def ownEquiv : Fin 1 ⊕ (Fin 15 ⊕ Fin 15) ≃ Fin 31 where
  toFun x := match x with
    | .inl _ => 0
    | .inr (.inl e) => sIdx e
    | .inr (.inr e) => rIdx e
  invFun j := if h : j.val = 0 then .inl 0
    else if h2 : j.val < 16 then .inr (.inl ⟨j.val - 1, by omega⟩)
    else .inr (.inr ⟨j.val - 16, by omega⟩)
  left_inv := by decide
  right_inv := by decide

omit [FloatOps F] in
private theorem bigSep_own (Φ : Fin 31 → sProp 𝕄) :
    bigSep Finset.univ Φ = iprop(Φ 0 ∗ (bigSep Finset.univ fun e : Fin 15 => Φ (sIdx e)) ∗ bigSep Finset.univ fun e : Fin 15 => Φ (rIdx e)) := by
  rw [bigSep_univ_equiv ownEquiv Φ, bigSep_univ_sum, bigSep_univ_sum, bigSep_univ_of_subsingleton (0 : Fin 1)]
  rfl

omit [FloatOps F] in
/-- A persistent fact in hand serves every summand. -/
private theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The kernel's thirty-one own cells, each with its one round consumed, closed at once: their counters, at zero, back. -/
private theorem close_all :
    iprop(records m K ∗ atPos ER (copyCell c) 1 ∅ 0
        ∗ (bigSep Finset.univ fun e : Fin 15 => atPos ER (sendCell c e) 1 ∅ 0)
        ∗ (bigSep Finset.univ fun e : Fin 15 => atPos ER (recvCell c e) 1 ∅ 0))
      ⊢ iprop(|={Set.univ}=> bigSep Finset.univ fun j : Fin 31 => semVal ((c : Thread nD τ), osem j) 0) := by
  have hcells : iprop(atPos ER (copyCell c) 1 ∅ 0
        ∗ (bigSep Finset.univ fun e : Fin 15 => atPos ER (sendCell c e) 1 ∅ 0)
        ∗ (bigSep Finset.univ fun e : Fin 15 => atPos ER (recvCell c e) 1 ∅ 0))
      ⊢ (bigSep Finset.univ fun j : Fin 31 => atPos ER ((c : Thread nD τ), osem j) 1 ∅ 0 : sProp 𝕄) := by
    rw [bigSep_own (fun j : Fin 31 => (atPos ER ((c : Thread nD τ), osem j) 1 ∅ 0 : sProp 𝕄))]
    simp only [osem_copy, osem_send, osem_recv]
    exact .rfl
  exact (sep_mono_right hcells).trans ((bigSep_pers (R := records m K) fun j _ => close_own m K c j).trans (bigSep_fupd _ _))

omit [FloatOps F] in
private theorem hz : (![0, 0] : Fin 2 → Nat) = fun _ => 0 := funext fun a => by fin_cases a <;> rfl

omit [FloatOps F] in
/-- A store over the whole staging buffer leaves what is stored. -/
private theorem write_out (f w : (cc0_stg0_0 : Ref sig .tc).ty.Contents (Elt F)) :
    (((Memref.whole cc0_stg0_0 : Memref sig .tc .vmem S1x512 .f32).access
        (Rect.unit (s := S1x512) ![0, 0] S1x512.size inb_S1x512_S1x512_0_0) : View sig .tc _ _ _)).write (Elt F) f w Finset.univ = w :=
  Memref.write_access_unit_zero_univ (Elt F) cc0_stg0_0 hz _ f w

/-- After the last part: the sum scaled and stored in the output's staging buffer, the own cells closed. -/
theorem tail_spec (v : FVec F S1x512 .f32) (hv : v = k0_pay3 (commFinal m c)) :
    FinalSt m K c ⊢ WP c
      (Prog.op (TpuEff.load (Memref.whole cc0_stg0_0) (Rect.unit (s := S1x512) ![0, 0] S1x512.size inb_S1x512_S1x512_0_0).toLoadRect (View.loadsAt_vmem h_S1x512))
        fun _ => Prog.op (TpuEff.store (Memref.whole cc0_stg0_0) (Rect.unit (s := S1x512) ![0, 0] S1x512.size inb_S1x512_S1x512_0_0) (k0_pay1 v) Finset.univ (View.stores_vmem_bits_univ h_S1x512 rfl) (.inl rfl))
          fun _ => Prog.ret PUnit.unit)
      (fun _ => bodyPost m ρ c) := by
  subst hv
  unfold FinalSt outStg
  iintro ⟨#Hrec, Hlev, ⟨%W, HO⟩, Hcomm, HxV, HxH, HatC, HatB, HatS, HatR, ⟨%f0, Hout⟩⟩
  -- the load (its value is not used) and the store
  iapply (wp_load 𝒱₀ (c : Thread nD τ) none Set.univ (m := (Memref.whole cc0_stg0_0 : Memref sig .tc .vmem S1x512 .f32)) (Finset.subset_univ _)) $$ Hout
  iintro Hout
  iapply (wp_store 𝒱₀ (c : Thread nD τ) none Set.univ (m := (Memref.whole cc0_stg0_0 : Memref sig .tc .vmem S1x512 .f32))
    (r := Rect.unit (s := S1x512) ![0, 0] S1x512.size inb_S1x512_S1x512_0_0) (Mk := Finset.univ) (Finset.subset_univ _)) $$ Hout
  iintro Hout
  rw [write_out, wp_ret]
  -- the own cells close
  imod (close_all m K c) $$ [HatC HatS HatR] with Hz
  · isplitr; · iexact Hrec
    isplitl [HatC]; · iexact HatC
    isplitl [HatS]; · iexact HatS
    iexact HatR
  imodintro
  unfold bodyPost Φ₁ Dat.owesAt Pipeline.owesWithin
  rw [show (dats m ρ 0 c).owed t0_0.succ = 0 from rfl]
  isplitl [HxH HxV Hcomm Hz]
  · isplitl [HxH]; · iexact HxH
    isplitl [HxV]; · iexists _; iexact HxV
    isplitl [Hcomm]; · iexact Hcomm
    iexact Hz
  isplitl [HO]
  · iexists W
    isplitr; · ipureintro; exact fun _ _ => Or.inl trivial
    iexact HO
  iexists _
  isplitr; · ipureintro; rfl
  iexact Hout

end Cert.KernelIdeal.Dist

end
-- ==== Proof.Dist.Body.lean ====
/- One device's body, from the invariant before the point to the invariant after it: the fifteen printed parts chained
   through the states between them, then the scaled sum stored in the output's staging buffer and the kernel's own
   thirty-one cells closed. -/
import proofs.«900934_g7700000000000935_dist_mean_ax0_shard0_i_m1024_n512_v7x_i16_bf16_1_alg».proof.Proof.Dist.BodyA
import proofs.«900934_g7700000000000935_dist_mean_ax0_shard0_i_m1024_n512_v7x_i16_bf16_1_alg».proof.Proof.Dist.BodyB
import proofs.«900934_g7700000000000935_dist_mean_ax0_shard0_i_m1024_n512_v7x_i16_bf16_1_alg».proof.Proof.Dist.BodyC
import proofs.«900934_g7700000000000935_dist_mean_ax0_shard0_i_m1024_n512_v7x_i16_bf16_1_alg».proof.Proof.Dist.BodyT

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-- A specification of a program followed by one of its continuation. -/
theorem wp_then {α β : Type} {p : Prog (TpuEff nD τ sig (Elt F) Λ₀ .tc) α} {k : α → Prog (TpuEff nD τ sig (Elt F) Λ₀ .tc) β}
    {P : sProp 𝕄} {R : α → sProp 𝕄} {Q : β → sProp 𝕄}
    (hp : P ⊢ WP c p R) (hk : ∀ a, R a ⊢ WP c (k a) Q) : P ⊢ WP c (p >>= k) Q := by
  show P ⊢ wp frame (wpE (defs₀ (F := F)) 𝒱₀ (c : Thread nD τ) none) Set.univ (p >>= k) Q
  rw [wp_bind]
  exact hp.trans (wp_mono _ _ _ hk)

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A pure fact beside a premise. -/
theorem pure_sep_elim {φ : Prop} {P Q : sProp 𝕄} (h : φ → (P ⊢ Q)) : iprop(⌜φ⌝ ∗ P) ⊢ Q := by
  iintro ⟨%hφ, H⟩; iapply (h hφ); iexact H

set_option maxHeartbeats 1600000 in
/-- The body from the start state: the parts in sequence, each taken from the state the one before left. -/
theorem body_chain :
    StartSt m K c ⊢ WP c (cc0_body (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4) (fun _ => bodyPost m ρ c) := by
  rw [cc0_body_eq_skeleton]; unfold cc0_body_skel
  refine wp_then c (part1_spec m K c) fun r => ?_
  obtain ⟨d0, v2, v3, v24⟩ := r
  refine pure_sep_elim fun h => ?_
  obtain ⟨h1, h2⟩ := h
  dsimp only at h1 h2
  subst h1; subst h2
  dsimp only
  refine wp_then _ (part2_spec m K _ v2 v24) fun v48 => ?_
  refine wp_then _ (part3_spec m K _ v2 v48) fun v71 => ?_
  refine wp_then _ (part4_spec m K _ v2 v71) fun r => ?_
  obtain ⟨v81, v91, v100, c16⟩ := r
  dsimp only
  refine wp_then _ (part5_spec m K _ v2 v100 c16) fun r => ?_
  obtain ⟨v101, v111, v121⟩ := r
  dsimp only
  refine wp_then _ (part6_spec m K _ v2) fun r => ?_
  obtain ⟨v131, v141, v151⟩ := r
  dsimp only
  refine wp_then _ (part7_spec m K _ v2) fun r => ?_
  obtain ⟨v161, v171, v181⟩ := r
  dsimp only
  refine wp_then _ (part8_spec m K _ v2) fun r => ?_
  obtain ⟨v191, v201, v211⟩ := r
  dsimp only
  refine wp_then _ (part9_spec m K _ v71 v81) fun _ => ?_
  refine wp_then _ (part10_spec m K _ v91 v101) fun _ => ?_
  refine wp_then _ (part11_spec m K _ v111 v121) fun _ => ?_
  refine wp_then _ (part12_spec m K _ v131 v141) fun c1 => ?_
  refine wp_then _ (part13_spec m K _ v151 v161 v171 c1) fun _ => ?_
  refine wp_then _ (part14_spec m K _ v181 v191) fun _ => ?_
  refine wp_then _ (part15_spec m K _ v201 v211) fun v372 => ?_
  refine pure_sep_elim fun hv => ?_
  simp only [Prog.lift, Prog.bind_op, Prog.bind_ret, Prog.pure_eq_ret]
  exact tail_spec m ρ K _ v372 hv

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc
        ∗ (∃ d f, ⌜f = (dats m ρ 0 c).before (0 : Fin 1) t0_0 d⌝ ∗ ((c : Thread nD τ).loc cc0_stg0_0) ↦{fullShare} f))
      ⊢ WP c (cc0_body (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4) (fun _ => bodyPost m ρ c)
  refine (start_intro_body m ρ c).trans ?_
  iintro ⟨%K, H⟩
  iapply (body_chain m ρ K c)
  iexact H

end Cert.KernelIdeal.Dist

end
-- ==== Proof.Dist.Launch.lean ====
/- The launch: the exchange's ghost state funded and dealt to the sixteen devices, each device's start made from what the
   launch hands it, and the run of @main: every weakly fair execution terminates with each device's result array at the
   computed contents and its block of x unchanged. -/
import proofs.«900934_g7700000000000935_dist_mean_ax0_shard0_i_m1024_n512_v7x_i16_bf16_1_alg».proof.Proof.Dist.Body
import proofs.«900934_g7700000000000935_dist_mean_ax0_shard0_i_m1024_n512_v7x_i16_bf16_1_alg».proof.Proof.Gen.KernelIdeal.Points

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The cells and the tokens the launch element holds -/

theorem ownSemFacts : Pipeline.OwnSemFacts cfg0.spec osem := by decide

theorem kcell_injective : Function.Injective (kcell : Dev nD × Fin 32 → GSem nD τ sig) := by
  rintro ⟨c, k⟩ ⟨c', k'⟩ h
  have h1 : c = c' := by have := congrArg (fun g : GSem nD τ sig => g.1.1) h; exact this
  subst h1
  have h2 : csem k = csem k' := congrArg Prod.snd h
  have := csem_injective h2
  subst this; rfl
/-- All sixteen devices' thirty-two cells. -/
def exCells : Finset (GSem nD τ sig) := Finset.univ.map ⟨kcell, kcell_injective⟩

/-- The duties of one device's own cells: the barrier's fifteen, the copy's one, each send's and each receive's one. -/
abbrev TI : Type := Fin 15 ⊕ (Unit ⊕ (Fin 15 ⊕ Fin 15))

/-- A duty as (cell number, duty name). -/
def tokIdx : TI → Fin 32 × Fin 15
  | .inl d => (0, d)
  | .inr (.inl _) => (1, 0)
  | .inr (.inr (.inl e)) => (⟨e.val + 2, by omega⟩, 0)
  | .inr (.inr (.inr e)) => (⟨e.val + 17, by omega⟩, 0)
theorem tokIdx_injective : Function.Injective tokIdx := by decide

/-- The duty tokens as minted: (device, which duty of its own cells). -/
def tokOf (cj : Dev nD × TI) : GSem nD τ sig × ℕ × Fin 15 := match cj.2 with
  | .inl d => (barCell cj.1, 0, d)
  | .inr (.inl _) => (copyCell cj.1, 0, 0)
  | .inr (.inr (.inl e)) => (sendCell cj.1 e, 0, 0)
  | .inr (.inr (.inr e)) => (recvCell cj.1 e, 0, 0)
theorem tokOf_eq (c : Dev nD) (j : TI) : tokOf (c, j) = (kcell (c, (tokIdx j).1), 0, (tokIdx j).2) := by
  rcases j with d | _ | e | e
  · rfl
  · exact congrArg (fun s : SemLoc sig => ((((c : Thread nD τ), s) : GSem nD τ sig), (0 : ℕ), (0 : Fin 15))) csem_copy.symm
  · exact congrArg (fun s : SemLoc sig => ((((c : Thread nD τ), s) : GSem nD τ sig), (0 : ℕ), (0 : Fin 15))) (csem_send e).symm
  · exact congrArg (fun s : SemLoc sig => ((((c : Thread nD τ), s) : GSem nD τ sig), (0 : ℕ), (0 : Fin 15))) (csem_recv e).symm
theorem tokOf_injective : Function.Injective (tokOf : Dev nD × TI → GSem nD τ sig × ℕ × Fin 15) := by
  rintro ⟨c, j⟩ ⟨c', j'⟩ h
  rw [tokOf_eq, tokOf_eq] at h
  have h1 : (c, (tokIdx j).1) = (c', (tokIdx j').1) := kcell_injective (congrArg (fun x : GSem nD τ sig × ℕ × Fin 15 => x.1) h)
  have h2 : (tokIdx j).2 = (tokIdx j').2 := congrArg (fun x : GSem nD τ sig × ℕ × Fin 15 => x.2.2) h
  have hc : c = c' := congrArg Prod.fst h1
  have hj : j = j' := tokIdx_injective (Prod.ext (congrArg Prod.snd h1) h2)
  subst hc; subst hj; rfl
def exToks : Finset (GSem nD τ sig × ℕ × Fin 15) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d : Fin 15 => dutyTok ER (barCell c) 0 d)
    ∗ dutyTok ER (copyCell c) 0 (0 : Fin 15)
    ∗ (bigSep Finset.univ fun e : Fin 15 => dutyTok ER (sendCell c e) 0 (0 : Fin 15))
    ∗ (bigSep Finset.univ fun e : Fin 15 => dutyTok ER (recvCell c e) 0 (0 : Fin 15)))

/-- What the launch element deals device `c`. -/
def G (c : Dev nD) : sProp 𝕄 :=
  iprop((bigSep Finset.univ fun k : Fin 32 => roundState ER (sched m) (kcell (c, k)) 0)
    ∗ (bigSep Finset.univ fun k : Fin 32 => iprop(atPos ER (kcell (c, k)) 0 ∅ 0 ∗ reached ER (kcell (c, k)) 0)) ∗ toks c)

/-- What the global step makes of it. -/
def G' (c : Dev nD) : sProp 𝕄 := iprop(∃ K, ghost m K c)

/-! ## Funding: the launch element as the sixteen devices' shares -/

/-- A device's minted tokens, by cell. -/
theorem toks_eq (c : Dev nD) :
    (bigSep Finset.univ fun j : TI => (dutyTok ER (tokOf (c, j)).1 (tokOf (c, j)).2.1 (tokOf (c, j)).2.2 : sProp 𝕄)) = toks c := by
  rw [bigSep_univ_sum, bigSep_univ_sum, bigSep_univ_sum, bigSep_univ_of_subsingleton ()]
  rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 32 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => toks_eq c
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
theorem bigSep_fin32 (Φ : Fin 32 → sProp 𝕄) : bigSep Finset.univ Φ = iprop(Φ 0 ∗ bigSep Finset.univ fun j : Fin 31 => Φ j.succ) := by
  rw [bigSep_univ_at Φ 0, show (Finset.univ.erase (0 : Fin 32)) = Finset.univ.map (Fin.succEmb 31) from by decide, bigSep_map]; rfl

theorem csem_succ (j : Fin 31) : csem j.succ = osem j := by revert j; decide

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own thirty-one semaphores and the barrier semaphore are the device's thirty-two cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 32 => semVal (kcell (c, k)) 0 : sProp 𝕄) := by
  rw [unscopedSems0_eq, bigSep_fin32]
  unfold Pipeline.ownSems0
  rw [bigSep_congr (s := Finset.univ) (fun (j : Fin 31) _ => show (semVal (kcell (c, j.succ)) 0 : sProp 𝕄) = semVal ((c.tc : Thread nD τ), osem j) 0 from by
    rw [show kcell (c, j.succ) = ((c.tc : Thread nD τ), osem j) from congrArg (Prod.mk _) (csem_succ j)])]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 32 => semVal (kcell (c, k)) 0) ∗ bigSep Finset.univ fun k : Fin 32 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 32 → ℕ) (c : Dev nD) :
    iprop(records m K ∗ (bigSep Finset.univ fun k : Fin 32 => atPos ER (kcell (c, k)) 0 ∅ 0) ∗ payToks c) ⊢ G' m c := by
  unfold G' ghost positions
  iintro ⟨HR, Hp, Ht⟩
  iexists K
  isplitl [HR]; · iexact HR
  isplitl [Hp]; · iexact Hp
  iexact Ht

omit [FloatOps F] in
/-- A family over (device, shift) summed over all devices and shifts, each device's entry moved to the device it
    addresses at that shift. -/
theorem deal (B : Dev nD → Fin 15 → sProp 𝕄) :
    (bigSep Finset.univ fun c : Dev nD => bigSep Finset.univ fun d : Fin 15 => B c d)
      = bigSep Finset.univ fun c : Dev nD => bigSep Finset.univ fun d : Fin 15 => B (peer c d) d := by
  rw [bigSep_univ_comm, bigSep_congr (s := Finset.univ) (fun (d : Fin 15) _ => bigSep_univ_equiv (shift d) (fun c : Dev nD => B c d)),
    bigSep_univ_comm (fun (d : Fin 15) (a : Dev nD) => B ((shift d) a) d)]
  rfl

omit [FloatOps F] in
/-- The tokens dealt around the mesh: duty `d` of a device's barrier cell to the device `d + 1` steps behind it, the duty
    of its receive cell of shift `e + 1` to the device `e + 1` steps behind it; the send and copy tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal (fun c d => (dutyTok ER (barCell c) 0 d : sProp 𝕄)),
    deal (fun c e => (dutyTok ER (recvCell c e) 0 (0 : Fin 15) : sProp 𝕄))]
  iintro ⟨H1, H2, H3, H4⟩
  isplitl [H1]; · iexact H1
  isplitl [H4]; · iexact H4
  isplitl [H3]; · iexact H3
  iexact H2

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 32 => iprop(∃ κ : ℕ, cellInv ER (sched m) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok⟩
  ihave HK := (BI.bigSep_exists_pi Finset.univ (fun (ck : Dev nD × Fin 32) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 32 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- The buffers as the launch hands them: whole, at the full share. -/
theorem xHPts_eq (c : Dev nD) : xHPts m c = (((c : Thread nD τ).loc main_arg0) ↦{fullShare} m ((c : Thread nD τ).loc main_arg0) : sProp 𝕄) := by
  unfold xHPts xblk; rw [View.set_whole]
omit [FloatOps F] in
theorem xVPts_eq (c : Dev nD) (f : Buf (Elt F) ((c : Thread nD τ).loc cc0_scratch0)) :
    xVPts c f = (((c : Thread nD τ).loc cc0_scratch0) ↦{fullShare} f : sProp 𝕄) := by unfold xVPts; rw [View.set_whole]
omit [FloatOps F] in
theorem commPts_eq (c : Dev nD) (f : Buf (Elt F) ((c : Thread nD τ).loc cc0_scratch1)) :
    commPts c f = (((c : Thread nD τ).loc cc0_scratch1) ↦{fullShare} f : sProp 𝕄) := by unfold commPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    rw [xHPts_eq]; iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hv⟩, ⟨%g, Hc⟩⟩
  isplitl [Hs]; · iexact Hs
  isplitl [Hv]
  · iexists f; rw [xVPts_eq]; iexact Hv
  · iexists g; rw [commPts_eq]; iexact Hc

theorem phi1_exit (c : Dev nD) :
    (dats m ρ 0 c).Φ (Fin.last cfg0.N) ⊢ iprop(xHPts m c ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hx, ⟨%f, Hv⟩, Hc, Hs⟩
  isplitl [Hx]; · iexact Hx
  isplitl [Hs]; · iexact Hs
  isplitl [Hv]
  · iexists f; rw [← xVPts_eq]; iexact Hv
  · iexists (commFinal m c); rw [← commPts_eq]; iexact Hc

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), SemLoc.dma (((cfgs 0).win w).sem s)) () = 0 := by
      fin_cases w; fin_cases s
      show (match kind (.dma cc0_sem0_0) with | .bar => 1 | .recv _ => 2 | _ => 0) = 0
      rw [kind_stage]
    rcases t with ⟨_ | _, ht⟩
    · exact mayWait_low c _ hlv 30
    · exact mayWait_low c _ hlv 0

/-- The block of `x` read against the memory. -/
theorem read_x (c : Dev nD) (s' : Phys nD τ sig (Elt F)) :
    iprop(xHPts m c ∗ emp ∗ SI s') ⊢ |={Set.univ}=> iprop(⌜s'.mem.mem ((c.tc : Thread nD τ).loc main_arg0) = m ((c.tc : Thread nD τ).loc main_arg0)⌝ ∗ (SI s' : sProp 𝕄)) := by
  rw [xHPts_eq]
  iintro ⟨Hx, -, HSI⟩
  icombine HSI Hx gives %hx
  imodintro
  isplitr; · ipureintro; exact Buf.eq_of_forall_mem_univ hx
  iexact HSI

/-- The result array after the one point: the body's result, written back whole. -/
theorem arrAt_final (c : Dev nD) : (dats m ρ 0 c).arrAt (0 : Fin 1) cfg0.N = outAt m c := by
  have h := (dats m ρ 0 c).arrAt_succ (0 : Fin 1) t0_0
  rw [flush0_0 t0_0, if_pos rfl] at h
  refine (show (dats m ρ 0 c).arrAt (0 : Fin 1) cfg0.N = (dats m ρ 0 c).arrAt (0 : Fin 1) (t0_0.val + 1) from rfl).trans (h.trans ?_)
  exact Memref.write_access_unit_zero_univ (Elt F) main_v1 (funext fun a => Nat.zero_mul _) _ _ (outAt m c)

/-! ## The run -/

set_option maxRecDepth 8000 in
/-- At the compiled mesh of sixteen devices, for any float values, from any memory with zero counters: every weakly fair
    execution of @main terminates, and every final state has each device's result array at the scaled sum of the sixteen
    partial sums and its block of `x` as launched. -/
theorem run_main : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := xHPts m) (Z := fun _ => iprop(emp))
    (hX := start_intro m ρ) (hin := phi0_intro m ρ) (hout := phi1_exit m ρ)
    (QY := fun c s => s.mem ((c.tc : Thread nD τ).loc main_arg0) = m ((c.tc : Thread nD τ).loc main_arg0))
    (hY := read_x m)
    (hQ := fun s h c => ⟨((h c).1 0).trans (arrAt_final m ρ c), (h c).2.2⟩)

end Cert.KernelIdeal.Dist

end
-- ==== Proof.DistK.Mesh.lean ====
/- The mesh of sixteen devices as a cycle: the device a given device addresses at shift d+1, and the device that
   addresses it at that shift. -/
import proofs.«900934_g7700000000000935_dist_mean_ax0_shard0_i_m1024_n512_v7x_i16_bf16_1_alg».proof.Proof.Gen.Kernel

namespace Cert.Kernel.Dist

open Cert.Kernel Cert.Kernel.Gen
open Idealize.ShloMosaic

/-- The device `c` signals, and copies its partial sum to, at shift `d + 1`. -/
def peer (c : Dev nD) (d : Fin 15) : Dev nD := ⟨(c.val + d.val + 1) % 16, Nat.mod_lt _ (by decide)⟩

/-- The shift, counted from the other side: `d + 1` and `rev d + 1` add up to sixteen. -/
def rev (d : Fin 15) : Fin 15 := ⟨14 - d.val, by omega⟩

/-- The device whose shift-`(d+1)` peer is `c`: sixteen minus `d + 1` steps ahead, that is `d + 1` steps behind. -/
def src (c : Dev nD) (d : Fin 15) : Dev nD := peer c (rev d)

theorem rev_rev (d : Fin 15) : rev (rev d) = d := by revert d; decide
theorem src_peer (c : Dev nD) (d : Fin 15) : src (peer c d) d = c := by revert c d; decide
theorem peer_src (c : Dev nD) (d : Fin 15) : peer (src c d) d = c := by revert c d; decide
theorem peer_ne (c : Dev nD) (d : Fin 15) : peer c d ≠ c := by revert c d; decide
theorem peer_inj (c : Dev nD) : Function.Injective (peer c) := by revert c; decide
theorem peer_left_inj (d : Fin 15) : Function.Injective (fun c => peer c d) := by revert d; decide
theorem exists_peer (c c' : Dev nD) (h : c' ≠ c) : ∃ d, peer c d = c' := by revert c c'; decide

/-- Shifting by `d + 1` is a bijection of the mesh. -/
def shift (d : Fin 15) : Dev nD ≃ Dev nD := ⟨fun c => peer c d, fun c => src c d, fun c => src_peer c d, fun c => peer_src c d⟩

/-- The printed device chains: the fifteen signals and the fifteen copies address `peer c 0 … peer c 14` in order. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 10 := by revert c; decide +kernel
theorem dev12_eq (c : Dev nD) : (⟨k0_dev12 c, k0_dev12_lt c⟩ : Dev nD) = peer c 11 := by revert c; decide +kernel
theorem dev13_eq (c : Dev nD) : (⟨k0_dev13 c, k0_dev13_lt c⟩ : Dev nD) = peer c 12 := by revert c; decide +kernel
theorem dev14_eq (c : Dev nD) : (⟨k0_dev14 c, k0_dev14_lt c⟩ : Dev nD) = peer c 13 := by revert c; decide +kernel
theorem dev15_eq (c : Dev nD) : (⟨k0_dev15 c, k0_dev15_lt c⟩ : Dev nD) = peer c 14 := by revert c; decide +kernel
theorem dev16_eq (c : Dev nD) : (⟨k0_dev16 c, k0_dev16_lt c⟩ : Dev nD) = peer c 0 := by revert c; decide +kernel
theorem dev17_eq (c : Dev nD) : (⟨k0_dev17 c, k0_dev17_lt c⟩ : Dev nD) = peer c 1 := by revert c; decide +kernel
theorem dev18_eq (c : Dev nD) : (⟨k0_dev18 c, k0_dev18_lt c⟩ : Dev nD) = peer c 2 := by revert c; decide +kernel
theorem dev19_eq (c : Dev nD) : (⟨k0_dev19 c, k0_dev19_lt c⟩ : Dev nD) = peer c 3 := by revert c; decide +kernel
theorem dev20_eq (c : Dev nD) : (⟨k0_dev20 c, k0_dev20_lt c⟩ : Dev nD) = peer c 4 := by revert c; decide +kernel
theorem dev21_eq (c : Dev nD) : (⟨k0_dev21 c, k0_dev21_lt c⟩ : Dev nD) = peer c 5 := by revert c; decide +kernel
theorem dev22_eq (c : Dev nD) : (⟨k0_dev22 c, k0_dev22_lt c⟩ : Dev nD) = peer c 6 := by revert c; decide +kernel
theorem dev23_eq (c : Dev nD) : (⟨k0_dev23 c, k0_dev23_lt c⟩ : Dev nD) = peer c 7 := by revert c; decide +kernel
theorem dev24_eq (c : Dev nD) : (⟨k0_dev24 c, k0_dev24_lt c⟩ : Dev nD) = peer c 8 := by revert c; decide +kernel
theorem dev25_eq (c : Dev nD) : (⟨k0_dev25 c, k0_dev25_lt c⟩ : Dev nD) = peer c 9 := by revert c; decide +kernel
theorem dev26_eq (c : Dev nD) : (⟨k0_dev26 c, k0_dev26_lt c⟩ : Dev nD) = peer c 10 := by revert c; decide +kernel
theorem dev27_eq (c : Dev nD) : (⟨k0_dev27 c, k0_dev27_lt c⟩ : Dev nD) = peer c 11 := by revert c; decide +kernel
theorem dev28_eq (c : Dev nD) : (⟨k0_dev28 c, k0_dev28_lt c⟩ : Dev nD) = peer c 12 := by revert c; decide +kernel
theorem dev29_eq (c : Dev nD) : (⟨k0_dev29 c, k0_dev29_lt c⟩ : Dev nD) = peer c 13 := by revert c; decide +kernel
theorem dev30_eq (c : Dev nD) : (⟨k0_dev30 c, k0_dev30_lt c⟩ : Dev nD) = peer c 14 := by revert c; decide +kernel

end Cert.Kernel.Dist
-- ==== Proof.DistK.Cells.lean ====
/- The buffers, the rows of the exchange buffer, the semaphores and cells of the all-to-all exchange, and what each
   buffer holds: a device's partial column sums, and the exchange buffer's final contents (row k: the partial sums of the
   device k steps behind). -/
import proofs.«900934_g7700000000000935_dist_mean_ax0_shard0_i_m1024_n512_v7x_i16_bf16_1_alg».proof.Proof.DistK.Mesh
import proofs.«900934_g7700000000000935_dist_mean_ax0_shard0_i_m1024_n512_v7x_i16_bf16_1_alg».proof.Proof.Gen.Kernel.Skeleton
import proofs.«900934_g7700000000000935_dist_mean_ax0_shard0_i_m1024_n512_v7x_i16_bf16_1_alg».proof.Proof.Gen.Kernel.Launch
import Idealize.ShloMosaic.Lib.Pipeline.Launch
import Idealize.ShloMosaic.Lib.Pipeline.Kit
import Idealize.ShloMosaic.Lib.ValueIdx
import Idealize.ShloMosaic.Lib.Tactic

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by the shift) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers -/

abbrev xH : Memref sig .tc .hbm S1024x512 .f32 := Memref.whole main_arg0
abbrev oM : Memref sig .tc .vmem S1x512 .f32 := Memref.whole cc0_stg0_0
abbrev xV : Memref sig .tc .vmem S1024x512 .f32 := Memref.whole cc0_scratch0
abbrev cM : Memref sig .tc .vmem S16x512 .f32 := Memref.whole cc0_scratch1

theorem row_inb (k : ℕ) (hk : k < 16) : ∀ a, (![k, 0] : Fin 2 → Nat) a + S1x512.size a ≤ S16x512.size a := by
  intro a; fin_cases a
  · show k + 1 ≤ 16; omega
  · show 0 + 512 ≤ 512; omega

/-- Row `k` of the exchange buffer, as the kernel slices it. -/
abbrev rowM (k : ℕ) (hk : k < 16) : Memref sig .tc .vmem S1x512 .f32 :=
  (cM : Memref sig .tc .vmem S16x512 .f32).slice (Rect.unit (s := S16x512) ![k, 0] S1x512.size (row_inb k hk)) (fun _ => rfl)

/-! ## The semaphores and cells -/

abbrev barS : Sem sig := (SemArray.scalar (sig.barrier 0 rfl) : Sems sig S_).sem
abbrev copyS : DmaSem sig := (cc0_scratch2 : DmaSems sig S_).sem

theorem sem_inb (d : Fin 15) : ∀ a, (![d.val] : Fin 1 → Nat) a + S1.size a ≤ S15.size a := by
  intro a; fin_cases a; show d.val + 1 ≤ 15; omega

/-- The send and the receive semaphore of shift `d + 1`. -/
def sendS (d : Fin 15) : DmaSem sig :=
  (((cc0_scratch3 : DmaSems sig S15).slice (Rect.unit (s := S15) ![d.val] S1.size (sem_inb d))).squeeze S_ squeezes_S1_S_).sem
def recvS (d : Fin 15) : DmaSem sig :=
  (((cc0_scratch4 : DmaSems sig S15).slice (Rect.unit (s := S15) ![d.val] S1.size (sem_inb d))).squeeze S_ squeezes_S1_S_).sem

abbrev barCell (c : Dev nD) : GSem nD τ sig := ((c : Thread nD τ), .reg barS)
abbrev copyCell (c : Dev nD) : GSem nD τ sig := ((c : Thread nD τ), .dma copyS)
abbrev sendCell (c : Dev nD) (d : Fin 15) : GSem nD τ sig := ((c : Thread nD τ), .dma (sendS d))
abbrev recvCell (c : Dev nD) (d : Fin 15) : GSem nD τ sig := ((c : Thread nD τ), .dma (recvS d))

/-- What a cell is for. -/
inductive CK | bar | copy | send (e : Fin 15) | recv (e : Fin 15) | other
  deriving DecidableEq

def sendIdx (sm : SemLoc sig) : Option (Fin 15) := (List.finRange 15).find? (fun e => sm = .dma (sendS e))
def recvIdx (sm : SemLoc sig) : Option (Fin 15) := (List.finRange 15).find? (fun e => sm = .dma (recvS e))

def kind (sm : SemLoc sig) : CK :=
  if sm = .reg barS then .bar else if sm = .dma copyS then .copy
  else match sendIdx sm with
    | some e => .send e
    | none => match recvIdx sm with
      | some e => .recv e
      | none => .other

theorem kind_bar : kind (.reg barS) = .bar := by decide
theorem kind_copy : kind (.dma copyS) = .copy := by decide
theorem kind_send (e : Fin 15) : kind (.dma (sendS e)) = .send e := by revert e; decide
theorem kind_recv (e : Fin 15) : kind (.dma (recvS e)) = .recv e := by revert e; decide
theorem kind_stage : kind (.dma cc0_sem0_0) = .other := by decide

/-- The exchange's semaphores of one core, indexed by the DMA semaphore's number, the barrier at 0
    (DMA semaphore 0 is the output window's staging semaphore, the pipeline's own). -/
def csem (k : Fin 32) : SemLoc sig := if k = 0 then .reg barS else .dma k
abbrev kcell (ck : Dev nD × Fin 32) : GSem nD τ sig := ((ck.1 : Thread nD τ), csem ck.2)
/-- The kernel's own (scoped) semaphores as the launch indexes them: DMA semaphores 1 to 31. -/
def osem (j : Fin 31) : SemLoc sig := .dma (⟨j.val + 1, by omega⟩ : Fin 32)

theorem csem_copy : csem 1 = .dma copyS := by decide
theorem csem_send (e : Fin 15) : csem ⟨e.val + 2, by omega⟩ = .dma (sendS e) := by revert e; decide
theorem csem_recv (e : Fin 15) : csem ⟨e.val + 17, by omega⟩ = .dma (recvS e) := by revert e; decide
theorem csem_injective : Function.Injective csem := by decide

/-- The credit of a landed row, and of the landed block of `x`. -/
abbrev N : ℕ := (rowM 0 (by decide)).view.dmaCredit
abbrev NX : ℕ := (xV : Memref sig .tc .vmem S1024x512 .f32).view.dmaCredit
theorem N_pos : 0 < N := View.dmaCredit_pos _ (by decide)
theorem NX_pos : 0 < NX := View.dmaCredit_pos _ (by decide)

/-! ## Contents -/

/-- Device `c`'s block of `x`, as launched. -/
def xblk (c : Dev nD) : Vec F S1024x512 .f32 := m ((c : Thread nD τ).loc main_arg0)
/-- Its column sums over the block's 1024 rows, as the kernel's first reduction computes them. -/
def psum (c : Dev nD) : FVec F S1x512 .f32 := k0_pay2 (xblk m c)
/-- The device whose partial sums row `k` of `c`'s exchange buffer ends holding: `k` steps behind `c`. -/
def donor (c : Dev nD) (k : Fin 16) : Dev nD := ⟨(c.val + 16 - k.val) % 16, Nat.mod_lt _ (by decide)⟩
theorem donor_zero (c : Dev nD) : donor c 0 = c := by revert c; decide
theorem donor_succ (c : Dev nD) (d : Fin 15) : donor c ⟨d.val + 1, by omega⟩ = src c d := by revert c d; decide
/-- The exchange buffer's final contents on device `c`. -/
def commFinal (c : Dev nD) : Vec F S16x512 .f32 := fun i => psum m (donor c (i 0)) (ValueIdx.ix2 (0 : Fin 1) (i 1))
/-- The kernel's result on device `c`: the sixteen partial sums added and scaled. -/
def outAt (c : Dev nD) : FVec F S1x512 .f32 := k0_pay1 (k0_pay3 (commFinal m c))

/-! ## Shares of the source row: fifteen transfers read it at once -/

def restSh : ℕ → PosShare TreeShare
  | 0 => fullShare
  | n + 1 => (restSh n).right
def sendSh (n : ℕ) : PosShare TreeShare := (restSh n).left
open PCS in
theorem restSh_split (n : ℕ) : restSh n ∈ sendSh n ·? restSh (n + 1) := PosShare.mem_left_op_right _

/-! ## Points-to, by buffer and by row -/

/-- Row `k` of device `c`'s exchange buffer at share `q`, holding (on that row) what `f` holds there. -/
def rowPts (c : Dev nD) (k : ℕ) (hk : k < 16) (q : PosShare TreeShare)
    (f : Buf (Elt F) ((cM : Memref sig .tc .vmem S16x512 .f32).view.loc (c : Thread nD τ))) : sProp 𝕄 :=
  (rowM k hk).view.loc (c : Thread nD τ) ↦[(rowM k hk).view.set]{q} f
def commPts (c : Dev nD) (f : Buf (Elt F) ((cM : Memref sig .tc .vmem S16x512 .f32).view.loc (c : Thread nD τ))) : sProp 𝕄 :=
  (cM : Memref sig .tc .vmem S16x512 .f32).view.loc (c : Thread nD τ) ↦[(cM : Memref sig .tc .vmem S16x512 .f32).view.set]{fullShare} f
def xVPts (c : Dev nD) (f : Buf (Elt F) ((xV : Memref sig .tc .vmem S1024x512 .f32).view.loc (c : Thread nD τ))) : sProp 𝕄 :=
  (xV : Memref sig .tc .vmem S1024x512 .f32).view.loc (c : Thread nD τ) ↦[(xV : Memref sig .tc .vmem S1024x512 .f32).view.set]{fullShare} f
def xHPts (c : Dev nD) : sProp 𝕄 :=
  (xH : Memref sig .tc .hbm S1024x512 .f32).view.loc (c : Thread nD τ) ↦[(xH : Memref sig .tc .hbm S1024x512 .f32).view.set]{fullShare} xblk m c

end Cert.Kernel.Dist

end
-- ==== Proof.DistK.Sched.lean ====
/- The exchange's schedule. Every cell has one round. A device's barrier cell has fifteen duties of one unit, duty d paid by
   the device d+1 steps behind, handing over the row of ITS exchange buffer that this device's copy will fill, and
   that its receive cell for that copy stands at round 0. The copy cell, each send cell and each receive cell have one
   duty: the landed block of x with the source back; the share of the source row lent to that transfer back; the
   landed row, holding the sender's partial sums. -/
import proofs.«900934_g7700000000000935_dist_mean_ax0_shard0_i_m1024_n512_v7x_i16_bf16_1_alg».proof.Proof.DistK.Cells

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The payloads -/

/-- Duty `d` of `c`'s barrier cell, paid by `src c d`: that device's row `rev d + 1`, where `c`'s copy of shift
    `rev d + 1` lands, and that its receive cell of that shift stands at round 0. -/
def barPay (c : Dev nD) (d : Fin 15) : sProp 𝕄 :=
  iprop((∃ f, rowPts (src c d) ((rev d).val + 1) (by omega) fullShare f) ∗ reached ER (recvCell (src c d) (rev d)) 0)
/-- The local copy of the block of `x` landed, the source back. -/
def copyPay (c : Dev nD) : sProp 𝕄 := iprop(xVPts c (xblk m c) ∗ xHPts m c)
/-- The share of the source row lent to the transfer of shift `e + 1`, back. -/
def sendPay (c : Dev nD) (e : Fin 15) : sProp 𝕄 := rowPts c 0 (by decide) (sendSh e.val) (commFinal m c)
/-- Row `e + 1` landed: the partial sums of the device `e + 1` steps behind. -/
def recvPay (c : Dev nD) (e : Fin 15) : sProp 𝕄 := rowPts c (e.val + 1) (by omega) fullShare (commFinal m c)

def payOf (c : Dev nD) (d : Fin 15) : CK → sProp 𝕄
  | .bar => barPay c d
  | .copy => copyPay m c
  | .send e => sendPay m c e
  | .recv e => recvPay m c e
  | .other => iprop(emp)

/-- One round, round 0. -/
def sched : Rounds.Schedule (GSem nD τ sig) (Fin 15) 𝕄 where
  duties g r := if r = 0 ∧ g.1.2 = .tc then (match kind g.2 with | .bar => Finset.univ | .other => ∅ | _ => {0}) else ∅
  unitless _ := False
  amount g _ _ := match kind g.2 with | .bar => 1 | .copy => NX | _ => N
  payload g _ d := payOf m g.1.1 d (kind g.2)
  amount_pos g _ _ _ := by
    cases kind g.2 <;> first | exact Nat.one_pos | exact NX_pos | exact N_pos

instance payOf_storable (c : Dev nD) (d : Fin 15) (k : CK) : BI.Storable (upEmb : UEmb _ 𝕄) (payOf (F := F) m c d k) := by
  cases k <;> (unfold payOf barPay copyPay sendPay recvPay rowPts xVPts xHPts) <;> infer_instance

instance sched_payload_storable (g : GSem nD τ sig) (r : ℕ) (d : Fin 15) :
    BI.Storable (upEmb : UEmb _ 𝕄) ((sched (F := F) m).payload g r d) := by
  show BI.Storable upEmb (payOf m g.1.1 d (kind g.2)); infer_instance

/-! ## The table -/

section Table
variable (c : Dev nD) (e : Fin 15)

theorem duties_bar : (sched (F := F) m).duties (barCell c) 0 = Finset.univ := by
  dsimp only [sched]; rw [if_pos ⟨rfl, rfl⟩, kind_bar]
theorem duties_copy : (sched (F := F) m).duties (copyCell c) 0 = {0} := by
  dsimp only [sched]; rw [if_pos ⟨rfl, rfl⟩, kind_copy]
theorem duties_send : (sched (F := F) m).duties (sendCell c e) 0 = {0} := by
  dsimp only [sched]; rw [if_pos ⟨rfl, rfl⟩, kind_send]
theorem duties_recv : (sched (F := F) m).duties (recvCell c e) 0 = {0} := by
  dsimp only [sched]; rw [if_pos ⟨rfl, rfl⟩, kind_recv]
theorem duties_later (g : GSem nD τ sig) : ∀ r, 1 ≤ r → (sched (F := F) m).duties g r = ∅ :=
  fun r hr => by dsimp only [sched]; rw [if_neg fun h => by omega]

theorem amount_bar (d : Fin 15) : (sched (F := F) m).amount (barCell c) 0 d = 1 := by dsimp only [sched]; rw [kind_bar]
theorem amount_copy (d : Fin 15) : (sched (F := F) m).amount (copyCell c) 0 d = NX := by dsimp only [sched]; rw [kind_copy]
theorem amount_send (d : Fin 15) : (sched (F := F) m).amount (sendCell c e) 0 d = N := by dsimp only [sched]; rw [kind_send]
theorem amount_recv (d : Fin 15) : (sched (F := F) m).amount (recvCell c e) 0 d = N := by dsimp only [sched]; rw [kind_recv]

/-- The units a round expects: its duties' amounts added. -/
theorem expect_eq (g : GSem nD τ sig) (r : ℕ) :
    (sched (F := F) m).expect g r = ∑ d ∈ (sched (F := F) m).duties g r, (sched (F := F) m).amount g r d := rfl

theorem expect_bar : (sched (F := F) m).expect (barCell c) 0 = 15 := by
  rw [expect_eq, duties_bar, Finset.sum_congr rfl fun d _ => amount_bar m c d, Finset.sum_const, Finset.card_univ, Fintype.card_fin, smul_eq_mul]
theorem expect_copy : (sched (F := F) m).expect (copyCell c) 0 = NX := by
  rw [expect_eq, duties_copy, Finset.sum_singleton, amount_copy]
theorem expect_send : (sched (F := F) m).expect (sendCell c e) 0 = N := by
  rw [expect_eq, duties_send, Finset.sum_singleton, amount_send]
theorem expect_recv : (sched (F := F) m).expect (recvCell c e) 0 = N := by
  rw [expect_eq, duties_recv, Finset.sum_singleton, amount_recv]

theorem payload_bar (d : Fin 15) : (sched (F := F) m).payload (barCell c) 0 d = barPay c d := by
  dsimp only [sched]; rw [kind_bar]; rfl
theorem payload_copy (d : Fin 15) : (sched (F := F) m).payload (copyCell c) 0 d = copyPay m c := by
  dsimp only [sched]; rw [kind_copy]; rfl
theorem payload_send (d : Fin 15) : (sched (F := F) m).payload (sendCell c e) 0 d = sendPay m c e := by
  dsimp only [sched]; rw [kind_send]; rfl
theorem payload_recv (d : Fin 15) : (sched (F := F) m).payload (recvCell c e) 0 d = recvPay m c e := by
  dsimp only [sched]; rw [kind_recv]; rfl

/-- The whole of a one-duty round, nothing taken yet, is that duty's payload; the barrier's the fifteen payloads. -/
theorem rest_copy : bigSep ((sched (F := F) m).duties (copyCell c) 0 \ ∅) (fun d => (sched (F := F) m).payload (copyCell c) 0 d) = copyPay m c := by
  rw [Finset.sdiff_empty, duties_copy, bigSep_singleton, payload_copy]
theorem rest_send : bigSep ((sched (F := F) m).duties (sendCell c e) 0 \ ∅) (fun d => (sched (F := F) m).payload (sendCell c e) 0 d) = sendPay m c e := by
  rw [Finset.sdiff_empty, duties_send, bigSep_singleton, payload_send]
theorem rest_recv : bigSep ((sched (F := F) m).duties (recvCell c e) 0 \ ∅) (fun d => (sched (F := F) m).payload (recvCell c e) 0 d) = recvPay m c e := by
  rw [Finset.sdiff_empty, duties_recv, bigSep_singleton, payload_recv]
theorem rest_bar : bigSep ((sched (F := F) m).duties (barCell c) 0 \ ∅) (fun d => (sched (F := F) m).payload (barCell c) 0 d)
    = bigSep Finset.univ (fun d : Fin 15 => barPay (F := F) c d) := by
  rw [Finset.sdiff_empty, duties_bar]; exact bigSep_congr fun d _ => payload_bar m c d

end Table

end Cert.Kernel.Dist

end
-- ==== Proof.DistK.Owes.lean ====
/- What a device owes at launch — one unit to each other device's barrier cell and a row's credit to the receive cell
   of each of its fifteen copies — written as a chain that the body's payments peel in program order; the levels
   (barrier cells below receive cells, everything else lowest) and the evidence each wait needs; the credit tokens the
   launch deals a device for its own barrier and receive cells. -/
import proofs.«900934_g7700000000000935_dist_mean_ax0_shard0_i_m1024_n512_v7x_i16_bf16_1_alg».proof.Proof.DistK.Sched

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The shift as a number. -/
def dN (j : ℕ) : Fin 15 := ⟨j % 15, Nat.mod_lt _ (by decide)⟩

/-- The payments of device `c`, numbered from the LAST one back: 0 to 14 the copies of shift 15 down to 1 (to the
    target's receive cell), 15 to 29 the barrier signals of shift 15 down to 1. -/
def evCell (c : Dev nD) (k : ℕ) : GSem nD τ sig :=
  if k < 15 then recvCell (peer c (dN (14 - k))) (dN (14 - k)) else barCell (peer c (dN (29 - k)))
def evAmt (k : ℕ) : ℕ := if k < 15 then N else 1

/-- What is still owed when the last `k` payments are outstanding. -/
def owe (c : Dev nD) : ℕ → CellTallies nD τ sig Unit
  | 0 => 0
  | k + 1 => owe c k + tallyAt (evCell c k) () (evAmt k)

def O₀ (c : Dev nD) : CellTallies nD τ sig Unit := owe c 30

theorem owe_succ (c : Dev nD) (k : ℕ) : owe c (k + 1) = owe c k + tallyAt (evCell c k) () (evAmt k) := rfl

/-- The peeling equations the body uses, at the literal positions. -/
theorem evCell_lt {c : Dev nD} {j : ℕ} (h : j < 15) : evCell c j = recvCell (peer c (dN (14 - j))) (dN (14 - j)) := if_pos h
theorem evCell_ge {c : Dev nD} {j : ℕ} (h : ¬ j < 15) : evCell c j = barCell (peer c (dN (29 - j))) := if_neg h
theorem evAmt_lt {j : ℕ} (h : j < 15) : evAmt j = N := if_pos h
theorem evAmt_ge {j : ℕ} (h : ¬ j < 15) : evAmt j = 1 := if_neg h

theorem owe_sig (c : Dev nD) (d : Fin 15) : owe c (30 - d.val) = owe c (29 - d.val) + tallyAt (barCell (peer c d)) () 1 := by
  have hd := d.isLt
  have h : 30 - d.val = (29 - d.val) + 1 := by omega
  have h1 : ¬ (29 - d.val < 15) := by omega
  have h2 : dN (29 - (29 - d.val)) = d := Fin.ext (by show (29 - (29 - d.val)) % 15 = d.val; omega)
  rw [h, owe_succ, evCell_ge h1, evAmt_ge h1, h2]
theorem owe_send (c : Dev nD) (e : Fin 15) : owe c (15 - e.val) = owe c (14 - e.val) + tallyAt (recvCell (peer c e) e) () N := by
  have he := e.isLt
  have h : 15 - e.val = (14 - e.val) + 1 := by omega
  have h1 : 14 - e.val < 15 := by omega
  have h2 : dN (14 - (14 - e.val)) = e := Fin.ext (by show (14 - (14 - e.val)) % 15 = e.val; omega)
  rw [h, owe_succ, evCell_lt h1, evAmt_lt h1, h2]

def L (g : GSem nD τ sig) : Finset Unit := if g.1.2 = .tc then {()} else ∅
/-- Barrier cells at 1, receive cells at 2, everything else (staging, copy, send) at 0. -/
def lv (g : GSem nD τ sig) (_ : Unit) : ℕ := match kind g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Whatever is owed is owed to a barrier cell or a receive cell of a TensorCore. -/
theorem owe_pos {c : Dev nD} {k : ℕ} {g : GSem nD τ sig} {u : Unit} (h : 0 < owe c k g u) : ∃ j, j < k ∧ g = evCell c j := by
  induction k with
  | zero =>
    rw [show owe c 0 = 0 from rfl, Pi.zero_apply, Finsupp.zero_apply] at h
    exact absurd h (Nat.lt_irrefl 0)
  | succ k ih =>
    rw [owe_succ] at h
    rcases Pipeline.add_pos_cases h with h1 | h2
    · obtain ⟨j, hj, e⟩ := ih h1
      exact ⟨j, Nat.lt_succ_of_lt hj, e⟩
    · rw [tallyAt_apply] at h2
      by_cases hh : g = evCell c k ∧ u = ()
      · exact ⟨k, Nat.lt_succ_self k, hh.1⟩
      · rw [if_neg hh] at h2; exact absurd h2 (Nat.lt_irrefl 0)

/-- The cells owed to are TensorCore cells, -/
theorem L_evCell (c : Dev nD) (j : ℕ) : L (evCell c j) = {()} := by
  by_cases h : j < 15
  · rw [evCell_lt h]; exact L_tc _ _
  · rw [evCell_ge h]; exact L_tc _ _
/-- a receive cell (level 2) for the last fifteen payments, a barrier cell (level 1) for the first fifteen. -/
theorem lv_recv (c : Dev nD) (e : Fin 15) (u : Unit) : lv (recvCell c e) u = 2 := by
  dsimp only [lv]; rw [kind_recv]
theorem lv_bar (c : Dev nD) (u : Unit) : lv (barCell c) u = 1 := by
  dsimp only [lv]; rw [kind_bar]
theorem lv_evCell_lt (c : Dev nD) {j : ℕ} (h : j < 15) (u : Unit) : lv (evCell c j) u = 2 := by
  rw [evCell_lt h]; exact lv_recv _ _ _
theorem lv_evCell_pos (c : Dev nD) (j : ℕ) (u : Unit) : 0 < lv (evCell c j) u := by
  by_cases h : j < 15
  · rw [evCell_lt h, lv_recv]; decide
  · rw [evCell_ge h, lv_bar]; decide

/-- A wait on a cell at level 0 (staging, copy, send) while owing any part of the launch's tallies. -/
theorem mayWait_low (c : Dev nD) (sm : SemLoc sig) (hsm : lv ((c : Thread nD τ), sm) () = 0) (k : ℕ) :
    (levAts L lv : sProp 𝕄) ⊢ MayWait (c : Thread nD τ) sm () (owe c k) :=
  MayOwe.of_cut (L := L) (lev := lv) 0
    (fun p hp => by rw [Finset.mem_singleton.mp hp, L_tc]; exact Finset.mem_singleton_self _)
    (fun g u hg => by obtain ⟨j, -, rfl⟩ := owe_pos hg; rw [L_evCell]; exact Finset.mem_singleton_self _)
    (fun p hp => by rw [Finset.mem_singleton.mp hp]; exact le_of_eq hsm)
    (fun g u hg => by obtain ⟨j, -, rfl⟩ := owe_pos hg; exact lv_evCell_pos c j u)

/-- At its barrier wait a device owes only the fifteen receive credits: receive cells sit above barrier cells. -/
theorem mayWait_bar (c : Dev nD) :
    (levAts L lv : sProp 𝕄) ⊢ MayWait (c : Thread nD τ) (.reg barS) () (owe c 15) :=
  MayOwe.of_cut (L := L) (lev := lv) 1
    (fun p hp => by rw [Finset.mem_singleton.mp hp, L_tc]; exact Finset.mem_singleton_self _)
    (fun g u hg => by obtain ⟨j, -, rfl⟩ := owe_pos hg; rw [L_evCell]; exact Finset.mem_singleton_self _)
    (fun p hp => by rw [Finset.mem_singleton.mp hp]; exact le_of_eq (lv_bar c ()))
    (fun g u hg => by obtain ⟨j, hj, rfl⟩ := owe_pos hg; rw [lv_evCell_lt c hj]; decide)

/-! ## The launch credit -/

/-- Payment `j` of every device, as a family over the devices. -/
def evTally (j : ℕ) (d : Dev nD) : CellTallies nD τ sig Unit := tallyAt (evCell d j) () (evAmt j)

theorem owe_eq_sum (c : Dev nD) (k : ℕ) : owe c k = ∑ j ∈ Finset.range k, evTally j c := by
  induction k with
  | zero => rfl
  | succ k ih => rw [owe_succ, Finset.sum_range_succ, ih]; rfl

theorem O₀_eq_sum : (O₀ : Dev nD → CellTallies nD τ sig Unit) = fun d => ∑ j ∈ Finset.range 30, evTally j d :=
  funext fun d => owe_eq_sum d 30

/-- Payment `j < 15` is each device's copy of one shift: a bijection of the mesh onto the receive cells of that shift, -/
theorem launch_recv (c : Dev nD) {j : ℕ} (h : j < 15) :
    (Pipeline.launchCred (evTally j) c : sProp 𝕄) ⊢ cred (tallyAt (recvCell c (dN (14 - j))) () N) := by
  have hT : (evTally j : Dev nD → CellTallies nD τ sig Unit)
      = fun d => tallyAt (((peer d (dN (14 - j))).tc : Thread nD τ), SemLoc.dma (recvS (dN (14 - j)))) () N := by
    funext d; unfold evTally; rw [evCell_lt h, evAmt_lt h]
  rw [hT]
  exact Pipeline.launchCred_tallyAt (.dma (recvS (dN (14 - j)))) (fun d => peer d (dN (14 - j))) (fun d => src d (dN (14 - j)))
    (fun x => peer_src x _) (fun x => src_peer x _) () N c
/-- payment `j ≥ 15` each device's signal of one shift: a bijection of the mesh onto the barrier cells. -/
theorem launch_bar (c : Dev nD) {j : ℕ} (h : ¬ j < 15) :
    (Pipeline.launchCred (evTally j) c : sProp 𝕄) ⊢ cred (tallyAt (barCell c) () 1) := by
  have hT : (evTally j : Dev nD → CellTallies nD τ sig Unit)
      = fun d => tallyAt (((peer d (dN (29 - j))).tc : Thread nD τ), SemLoc.reg barS) () 1 := by
    funext d; unfold evTally; rw [evCell_ge h, evAmt_ge h]
  rw [hT]
  exact Pipeline.launchCred_tallyAt (.reg barS) (fun d => peer d (dN (29 - j))) (fun d => src d (dN (29 - j)))
    (fun x => peer_src x _) (fun x => src_peer x _) () 1 c

/-- Unit tokens on one cell add up. -/
theorem cred_units (g : GSem nD τ sig) (s : Finset ℕ) :
    (bigSep s fun _ => cred (tallyAt g () 1) : sProp 𝕄) ⊢ cred (tallyAt g () s.card) := by
  induction s using Finset.induction_on with
  | empty => rw [bigSep_empty, Finset.card_empty, tallyAt_zero, cred_zero]; exact BI.Entails.refl _
  | insert a s ha ih =>
    rw [bigSep_insert ha, Finset.card_insert_of_notMem ha, Nat.add_comm, ← tallyAt_add]
    exact (sep_mono_right ih).trans (cred_add _ _).2

theorem dN_injOn : Set.InjOn (fun j : ℕ => dN (14 - j)) (Finset.range 15 : Finset ℕ) := by
  intro a ha b hb hab
  have ha' := Finset.mem_range.mp (Finset.mem_coe.mp ha)
  have hb' := Finset.mem_range.mp (Finset.mem_coe.mp hb)
  have h := congrArg Fin.val hab
  change (14 - a) % 15 = (14 - b) % 15 at h
  omega
theorem dN_image : (Finset.range 15).image (fun j : ℕ => dN (14 - j)) = (Finset.univ : Finset (Fin 15)) := by decide

/-- The credit tokens the launch deals device `c`: its barrier's fifteen units and each receive cell's row credit. -/
theorem creds (c : Dev nD) :
    (Pipeline.launchCred O₀ c : sProp 𝕄)
      ⊢ iprop(cred (tallyAt (barCell c) () 15) ∗ bigSep Finset.univ fun e : Fin 15 => cred (tallyAt (recvCell c e) () N)) := by
  have hrecv : (bigSep (Finset.range 15) fun j => (Pipeline.launchCred (evTally j) c : sProp 𝕄))
      ⊢ bigSep Finset.univ fun e : Fin 15 => cred (tallyAt (recvCell c e) () N) := by
    rw [← dN_image, bigSep_image_of_injOn dN_injOn]
    exact bigSep_mono fun j hj => launch_recv c (Finset.mem_range.mp hj)
  have hbar : (bigSep (Finset.range 30 \ Finset.range 15) fun j => (Pipeline.launchCred (evTally j) c : sProp 𝕄))
      ⊢ cred (tallyAt (barCell c) () 15) :=
    (bigSep_mono fun j hj => launch_bar c (fun h => (Finset.mem_sdiff.mp hj).2 (Finset.mem_range.mpr h))).trans
      ((cred_units (barCell c) _).trans (Entails.of_eq (by rw [show (Finset.range 30 \ Finset.range 15).card = 15 from by decide])))
  have hsplit : (bigSep (Finset.range 30) fun j => (Pipeline.launchCred (evTally j) c : sProp 𝕄))
      = iprop((bigSep (Finset.range 15) fun j => (Pipeline.launchCred (evTally j) c : sProp 𝕄))
          ∗ bigSep (Finset.range 30 \ Finset.range 15) fun j => (Pipeline.launchCred (evTally j) c : sProp 𝕄)) :=
    bigSep_sdiff_split (t := Finset.range 15) (by decide)
  rw [O₀_eq_sum, Pipeline.launchCred_sum, hsplit]
  iintro ⟨H1, H2⟩
  isplitl [H2]
  · iapply hbar; iexact H2
  · iapply hrecv; iexact H1

end Cert.Kernel.Dist

end
-- ==== Proof.DistK.Ghost.lean ====
/- The ghost state a device's body starts from, the body's invariant before and after the one grid point, and the
   pipeline's proof data. Every device holds every cell's invariant and that every cell stands at round 0 (persistent
   facts); its own cells' positions; and the tokens of the duties IT pays: its signal's duty in each other device's
   barrier cell, the receive duty of each of its copies, its own send duties and its local copy's. -/
import proofs.«900934_g7700000000000935_dist_mean_ax0_shard0_i_m1024_n512_v7x_i16_bf16_1_alg».proof.Proof.DistK.Owes

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- Every cell's invariant under the names the launch allocated them at, and every cell at round 0. -/
def records (K : Dev nD × Fin 32 → ℕ) : sProp 𝕄 :=
  iprop((bigSep Finset.univ fun ck : Dev nD × Fin 32 => cellInv ER (sched m) (K ck) (kcell ck))
    ∗ bigSep Finset.univ fun ck : Dev nD × Fin 32 => reached ER (kcell ck) 0)

instance records_persistent (K : Dev nD × Fin 32 → ℕ) : BI.Persistent (records (F := F) m K) := by unfold records; infer_instance

/-- Device `c`'s positions in its own thirty-two cells. -/
def positions (c : Dev nD) : sProp 𝕄 := bigSep Finset.univ fun k : Fin 32 => atPos ER (kcell (c, k)) 0 ∅ 0

/-- The tokens of the duties device `c` pays. -/
def payToks (c : Dev nD) : sProp 𝕄 :=
  iprop((bigSep Finset.univ fun d : Fin 15 => dutyTok ER (barCell (peer c d)) 0 d)
    ∗ (bigSep Finset.univ fun e : Fin 15 => dutyTok ER (recvCell (peer c e) e) 0 (0 : Fin 15))
    ∗ (bigSep Finset.univ fun e : Fin 15 => dutyTok ER (sendCell c e) 0 (0 : Fin 15))
    ∗ dutyTok ER (copyCell c) 0 (0 : Fin 15))

def ghost (K : Dev nD × Fin 32 → ℕ) (c : Dev nD) : sProp 𝕄 := iprop(records m K ∗ positions c ∗ payToks c)

/-- What device `c`'s body starts from beside its scoped buffers: the ghost state at some names, the credit tokens of its
    barrier cell and of its fifteen receive cells, the level facts, and its block of `x`. -/
def start (c : Dev nD) : sProp 𝕄 :=
  iprop((∃ K, ghost m K c) ∗ cred (tallyAt (barCell c) () 15) ∗ (bigSep Finset.univ fun e : Fin 15 => cred (tallyAt (recvCell c e) () N))
    ∗ levAts L lv ∗ xHPts m c)

/-- Before the point: that, and the two scratch buffers at some contents. -/
def Φ₀ (c : Dev nD) : sProp 𝕄 := iprop(start m c ∗ (∃ f, xVPts c f) ∗ (∃ f, commPts c f))
/-- After it: the block of `x` untouched, the scratch buffers (the exchange buffer at its final contents), and the kernel's
    thirty-one own semaphores at zero, their cells closed. -/
def Φ₁ (c : Dev nD) : sProp 𝕄 :=
  iprop(xHPts m c ∗ (∃ f, xVPts c f) ∗ commPts c (commFinal m c) ∗ bigSep Finset.univ fun j : Fin 31 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

end Cert.Kernel.Dist

end
-- ==== Proof.DistK.Rows.lean ====
/- The exchange buffer cut into its sixteen rows and the source row into the shares lent to the fifteen copies; a row's
   points-to depends on that row's contents only; the final contents read row by row; the store of the partial sums and a
   landed row restated at the final contents. -/
import proofs.«900934_g7700000000000935_dist_mean_ax0_shard0_i_m1024_n512_v7x_i16_bf16_1_alg».proof.Proof.DistK.Ghost
import proofs.«900934_g7700000000000935_dist_mean_ax0_shard0_i_m1024_n512_v7x_i16_bf16_1_alg».proof.Proof.LibLandingRestated

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The exchange buffer by rows, the source row by shares -/

/-- Every element of the exchange buffer is under the whole buffer's view. -/
private theorem mem_comm_set (i : (cM : Memref sig .tc .vmem S16x512 .f32).view.ty.Idx) :
    i ∈ (cM : Memref sig .tc .vmem S16x512 .f32).view.set ↔ True := by
  have h : (cM : Memref sig .tc .vmem S16x512 .f32).view.set = Finset.univ := View.set_whole cc0_scratch1
  rw [h]; exact iff_of_true (Finset.mem_univ i) trivial

/-- An element of the exchange buffer is in row `k` exactly when its first coordinate is `k`. -/
private theorem mem_row_set (k : ℕ) (hk : k < 16) (i : (cM : Memref sig .tc .vmem S16x512 .f32).view.ty.Idx) :
    i ∈ (rowM k hk).view.set ↔ (i 0).val = k := by
  have h : (rowM k hk).view.set = (Rect.unit (s := S16x512) ![k, 0] S1x512.size (row_inb k hk)).set :=
    View.set_slice_whole cc0_scratch1 _
  rw [h, Rect.mem_set_unit]
  constructor
  · intro h
    have h0 := h 0
    have h1 : k ≤ (i 0).val ∧ (i 0).val < k + 1 := h0
    omega
  · intro h a
    fin_cases a
    · show k ≤ (i 0).val ∧ (i 0).val < k + 1
      omega
    · show 0 ≤ (i 1).val ∧ (i 1).val < 0 + 512
      have := (i 1).isLt
      have h512 : (i 1).val < 512 := this
      omega

theorem comm_rows (c : Dev nD) (f : Buf (Elt F) ((cM : Memref sig .tc .vmem S16x512 .f32).view.loc (c : Thread nD τ))) :
    (commPts c f : sProp 𝕄) ⊣⊢ bigSep Finset.univ fun k : Fin 16 => rowPts c k.val k.isLt fullShare f := by
  have hset : (cM : Memref sig .tc .vmem S16x512 .f32).view.set
      = Finset.univ.biUnion fun k : Fin 16 => (rowM k.val k.isLt).view.set := by
    ext i
    rw [mem_comm_set, Finset.mem_biUnion]
    refine iff_of_true trivial ⟨⟨(i 0).val, (i 0).isLt⟩, Finset.mem_univ _, ?_⟩
    rw [mem_row_set]
  have hdisj : ∀ t ∈ (Finset.univ : Finset (Fin 16)), ∀ t' ∈ (Finset.univ : Finset (Fin 16)), t ≠ t' →
      Disjoint (rowM t.val t.isLt).view.set (rowM t'.val t'.isLt).view.set := by
    intro t _ t' _ hne
    rw [Finset.disjoint_left]
    intro i hi hi'
    rw [mem_row_set] at hi hi'
    exact hne (Fin.ext (hi.symm.trans hi'))
  have key : (commPts c f : sProp 𝕄) = bigSep Finset.univ fun k : Fin 16 => rowPts c k.val k.isLt fullShare f := by
    unfold commPts
    rw [hset]
    exact pointsTo_biUnion Finset.univ _ hdisj
  exact ⟨Entails.of_eq key, Entails.of_eq key.symm⟩

/-- Moving the middle conjunct of three to the front. -/
private theorem sep_rot {M : Type} [URA M] {P Q R : sProp M} : iprop(P ∗ Q ∗ R) ⊣⊢ iprop((Q ∗ P) ∗ R) := by
  constructor
  · iintro ⟨HP, HQ, HR⟩
    isplitr [HR]
    · isplitl [HQ]
      · iexact HQ
      · iexact HP
    · iexact HR
  · iintro ⟨⟨HQ, HP⟩, HR⟩
    isplitl [HP]
    · iexact HP
    · isplitl [HQ]
      · iexact HQ
      · iexact HR

/-- The source row at the full share is the first `n` lent shares and the rest after them. -/
private theorem row0_shares_range (c : Dev nD) (f : Buf (Elt F) ((cM : Memref sig .tc .vmem S16x512 .f32).view.loc (c : Thread nD τ))) (n : ℕ) :
    (rowPts c 0 (by decide) fullShare f : sProp 𝕄)
      = iprop((bigSep (Finset.range n) fun e : ℕ => rowPts c 0 (by decide) (sendSh e) f) ∗ rowPts c 0 (by decide) (restSh n) f) := by
  induction n with
  | zero =>
    rw [Finset.range_zero, bigSep_empty]
    exact (BI.equiv_iff.mp BI.emp_sep).symm
  | succ n ih =>
    have hs : (rowPts c 0 (by decide) (restSh n) f : sProp 𝕄)
        ⊣⊢ iprop(rowPts c 0 (by decide) (sendSh n) f ∗ rowPts c 0 (by decide) (restSh (n + 1)) f) := by
      unfold rowPts
      exact pointsTo_share (restSh_split n)
    rw [ih, BI.equiv_iff.mp ⟨hs.1, hs.2⟩, Finset.range_add_one, bigSep_insert Finset.notMem_range_self]
    exact BI.equiv_iff.mp ⟨sep_rot.1, sep_rot.2⟩

theorem row0_shares (c : Dev nD) (f : Buf (Elt F) ((cM : Memref sig .tc .vmem S16x512 .f32).view.loc (c : Thread nD τ))) :
    (rowPts c 0 (by decide) fullShare f : sProp 𝕄)
      ⊣⊢ iprop((bigSep Finset.univ fun e : Fin 15 => rowPts c 0 (by decide) (sendSh e.val) f) ∗ rowPts c 0 (by decide) (restSh 15) f) := by
  have hr : (Finset.univ : Finset (Fin 15)).map Fin.valEmbedding = Finset.range 15 := by
    ext x
    rw [Finset.mem_map, Finset.mem_range]
    constructor
    · rintro ⟨y, -, rfl⟩; exact y.isLt
    · intro hx; exact ⟨⟨x, hx⟩, Finset.mem_univ _, rfl⟩
  have h := row0_shares_range (F := F) c f 15
  rw [← hr, bigSep_map] at h
  exact ⟨Entails.of_eq h, Entails.of_eq h.symm⟩

/-- A row's points-to depends on the contents on that row only. -/
theorem rowPts_congr (c : Dev nD) (k : ℕ) (hk : k < 16) (q : PosShare TreeShare)
    (f g : Buf (Elt F) ((cM : Memref sig .tc .vmem S16x512 .f32).view.loc (c : Thread nD τ)))
    (h : ∀ y, (rowM k hk).view.read (Elt F) f y = (rowM k hk).view.read (Elt F) g y) :
    (rowPts c k hk q f : sProp 𝕄) = rowPts c k hk q g := by
  unfold rowPts
  refine pointsTo_congr fun i hi => ?_
  obtain ⟨y, rfl⟩ := (rowM k hk).view.exists_emb_of_mem_set hi
  have hy := h y
  rw [View.read_apply, View.read_apply] at hy
  exact (cast_inj _).mp hy

/-- Row `k` of the final contents, read through the row's view: the partial sums of the device `k` steps behind. -/
theorem read_commFinal (c : Dev nD) (k : ℕ) (hk : k < 16) :
    (rowM k hk).view.read (Elt F) (commFinal m c) = psum m (donor c ⟨k, hk⟩) := by
  funext y
  have hy0 : (y 0).val = 0 := by
    have h1 : (y 0).val < 1 := (y 0).isLt
    omega
  have hrow : ((rowM k hk).view.emb y) 0 = (⟨k, hk⟩ : Fin 16) := by
    apply Fin.ext
    show k + 1 * (y 0).val = k
    omega
  have hcol : ((rowM k hk).view.emb y) 1 = y 1 := by
    apply Fin.ext
    show 0 + 1 * (y 1).val = (y 1).val
    omega
  have hy : y = ValueIdx.ix2 (0 : Fin 1) (y 1) := by
    rw [ValueIdx.eq_ix2 y]
    congr 1
    exact Fin.ext hy0
  show commFinal m c ((rowM k hk).view.emb y) = psum m (donor c ⟨k, hk⟩) y
  unfold commFinal
  show psum m (donor c (((rowM k hk).view.emb y) 0)) (ValueIdx.ix2 (0 : Fin 1) (((rowM k hk).view.emb y) 1)) = _
  rw [hrow, hcol]
  exact congrArg _ hy.symm

/-- The store of the partial sums into row 0, restated at the final contents. -/
theorem store_row0 (c : Dev nD) (f : Buf (Elt F) ((cM : Memref sig .tc .vmem S16x512 .f32).view.loc (c : Thread nD τ))) :
    (rowPts c 0 (by decide) fullShare
      (((cM : Memref sig .tc .vmem S16x512 .f32).access (Rect.unit (s := S16x512) ![0, 0] S1x512.size inb_S16x512_S1x512_0_0) : View sig .tc _ _ _).write (Elt F) f (psum m c) Finset.univ) : sProp 𝕄)
      = rowPts c 0 (by decide) fullShare (commFinal m c) := by
  refine rowPts_congr c 0 (by decide) fullShare _ _ fun y => ?_
  rw [read_commFinal]
  refine (View.read_write_of_mem (v := ((cM : Memref sig .tc .vmem S16x512 .f32).access (Rect.unit (s := S16x512) ![0, 0] S1x512.size inb_S16x512_S1x512_0_0) : View sig .tc _ _ _)) f (psum m c) (Finset.mem_univ y)).trans ?_
  have hd : donor c ⟨0, by decide⟩ = c := donor_zero c
  rw [hd]

/-- What the peer `e + 1` steps ahead handed over with its signal (duty `rev e` of the barrier cell), restated at `e`. -/
theorem barPay_rev (c : Dev nD) (e : Fin 15) :
    (barPay (F := F) c (rev e) : sProp 𝕄)
      = iprop((∃ f, rowPts (peer c e) (e.val + 1) (by omega) fullShare f) ∗ reached ER (recvCell (peer c e) e) 0) := by
  have key : ∀ x : Fin 15, x = e →
      (iprop((∃ f, rowPts (peer c x) (x.val + 1) (by omega) fullShare f) ∗ reached ER (recvCell (peer c x) x) 0) : sProp 𝕄)
        = iprop((∃ f, rowPts (peer c e) (e.val + 1) (by omega) fullShare f) ∗ reached ER (recvCell (peer c e) e) 0) := by
    intro x hx; subst hx; rfl
  exact key (rev (rev e)) (rev_rev e)

/-- A copy's landing in row `e + 1` of the peer, restated at the peer's final contents: the source row holds the sender's
    partial sums, which is what that row of the peer's final contents holds. -/
theorem landed_row (c : Dev nD) (e : Fin 15) (hk : e.val + 1 < 16) (h0 : 0 < 16)
    (fd : Buf (Elt F) ((rowM (e.val + 1) hk).view.loc ((peer c e : Dev nD) : Thread nD τ))) :
    ((rowM (e.val + 1) hk).view.loc ((peer c e : Dev nD) : Thread nD τ) ↦[(rowM (e.val + 1) hk).view.set]{fullShare}
        ((rowM (e.val + 1) hk).view.write (Elt F) fd ((rowM 0 h0).view.read (Elt F) (commFinal m c)) Finset.univ) : sProp 𝕄)
      = rowPts (peer c e) (e.val + 1) hk fullShare (commFinal m (peer c e)) := by
  unfold rowPts
  refine pointsTo_congr ?_
  refine Cert.Lib.write_univ_eq_on (rowM (e.val + 1) hk).view fd (commFinal m (peer c e)) _ fun y => ?_
  rw [read_commFinal, read_commFinal]
  have h1 : donor (peer c e) ⟨e.val + 1, hk⟩ = c := (donor_succ (peer c e) e).trans (src_peer c e)
  have h2 : donor c ⟨0, h0⟩ = c := donor_zero c
  rw [h1, h2]

end Cert.Kernel.Dist

end
-- ==== Proof.DistK.Steps.lean ====
/- The exchange's steps, one lemma per kind of statement of the body, each at a symbolic shift: a barrier signal hands
   the peer the row its copy will fill; the local copy of x and its wait; the barrier wait returns the fifteen peers'
   rows; a copy of the partial sums into a peer's row, its send wait (the lent share of the source row back) and its
   receive wait (a row landed, holding the sender's partial sums); a cell closed. And the exchange buffer cut into its
   sixteen rows, and the source row into the shares lent to the fifteen copies. -/
import proofs.«900934_g7700000000000935_dist_mean_ax0_shard0_i_m1024_n512_v7x_i16_bf16_1_alg».proof.Proof.DistK.Rows

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records read -/

theorem inv_at' (ck : Dev nD × Fin 32) :
    (bigSep Finset.univ fun ck : Dev nD × Fin 32 => (cellInv ER (sched m) (K ck) (kcell ck) : sProp 𝕄)) ⊢ cellInv ER (sched m) (K ck) (kcell ck) :=
  bigSep_elim (Finset.mem_univ ck)
theorem reached_at' (ck : Dev nD × Fin 32) :
    (bigSep Finset.univ fun ck : Dev nD × Fin 32 => (reached ER (kcell ck) 0 : sProp 𝕄)) ⊢ reached ER (kcell ck) 0 :=
  bigSep_elim (Finset.mem_univ ck)
theorem inv_at (ck : Dev nD × Fin 32) : records (F := F) m K ⊢ cellInv ER (sched m) (K ck) (kcell ck) := by
  unfold records; iintro ⟨HI, -⟩; iapply (inv_at' m K ck); iexact HI
theorem reached_at (ck : Dev nD × Fin 32) : records (F := F) m K ⊢ reached ER (kcell ck) 0 := by
  unfold records; iintro ⟨-, HR⟩; iapply (reached_at' (F := F) ck); iexact HR

/-! ## The cells under the launch's indexing, and the facts read off the records at each -/

private theorem csem_bar : csem 0 = (.reg barS : SemLoc sig) := if_pos rfl
private theorem csem_osem (j : Fin 31) : csem ⟨j.val + 1, by omega⟩ = osem j := by revert j; decide

private theorem kcell_bar (c : Dev nD) : kcell (c, (0 : Fin 32)) = barCell c := congrArg (Prod.mk (c : Thread nD τ)) csem_bar
private theorem kcell_copy (c : Dev nD) : kcell (c, (1 : Fin 32)) = copyCell c := congrArg (Prod.mk (c : Thread nD τ)) csem_copy
private theorem kcell_send (c : Dev nD) (e : Fin 15) : kcell (c, (⟨e.val + 2, by omega⟩ : Fin 32)) = sendCell c e :=
  congrArg (Prod.mk (c : Thread nD τ)) (csem_send e)
private theorem kcell_recv (c : Dev nD) (e : Fin 15) : kcell (c, (⟨e.val + 17, by omega⟩ : Fin 32)) = recvCell c e :=
  congrArg (Prod.mk (c : Thread nD τ)) (csem_recv e)
private theorem kcell_own (c : Dev nD) (j : Fin 31) : kcell (c, (⟨j.val + 1, by omega⟩ : Fin 32)) = ((c : Thread nD τ), osem j) :=
  congrArg (Prod.mk (c : Thread nD τ)) (csem_osem j)

private theorem inv_bar (c : Dev nD) : records (F := F) m K ⊢ cellInv ER (sched m) (K (c, 0)) (barCell c) := by
  have h := inv_at m K (c, (0 : Fin 32)); rw [kcell_bar] at h; exact h
private theorem inv_copy (c : Dev nD) : records (F := F) m K ⊢ cellInv ER (sched m) (K (c, 1)) (copyCell c) := by
  have h := inv_at m K (c, (1 : Fin 32)); rw [kcell_copy] at h; exact h
private theorem inv_send (c : Dev nD) (e : Fin 15) : records (F := F) m K ⊢ cellInv ER (sched m) (K (c, ⟨e.val + 2, by omega⟩)) (sendCell c e) := by
  have h := inv_at m K (c, (⟨e.val + 2, by omega⟩ : Fin 32)); rw [kcell_send] at h; exact h
private theorem inv_recv (c : Dev nD) (e : Fin 15) : records (F := F) m K ⊢ cellInv ER (sched m) (K (c, ⟨e.val + 17, by omega⟩)) (recvCell c e) := by
  have h := inv_at m K (c, (⟨e.val + 17, by omega⟩ : Fin 32)); rw [kcell_recv] at h; exact h
private theorem inv_own (c : Dev nD) (j : Fin 31) :
    records (F := F) m K ⊢ cellInv ER (sched m) (K (c, ⟨j.val + 1, by omega⟩)) ((c : Thread nD τ), osem j) := by
  have h := inv_at m K (c, (⟨j.val + 1, by omega⟩ : Fin 32)); rw [kcell_own] at h; exact h

private theorem reached_bar (c : Dev nD) : records (F := F) m K ⊢ reached ER (barCell c) 0 := by
  have h := reached_at m K (c, (0 : Fin 32)); rw [kcell_bar] at h; exact h
private theorem reached_copy (c : Dev nD) : records (F := F) m K ⊢ reached ER (copyCell c) 0 := by
  have h := reached_at m K (c, (1 : Fin 32)); rw [kcell_copy] at h; exact h
private theorem reached_send (c : Dev nD) (e : Fin 15) : records (F := F) m K ⊢ reached ER (sendCell c e) 0 := by
  have h := reached_at m K (c, (⟨e.val + 2, by omega⟩ : Fin 32)); rw [kcell_send] at h; exact h
private theorem reached_recv (c : Dev nD) (e : Fin 15) : records (F := F) m K ⊢ reached ER (recvCell c e) 0 := by
  have h := reached_at m K (c, (⟨e.val + 17, by omega⟩ : Fin 32)); rw [kcell_recv] at h; exact h

/-- The copy cell sits at the lowest level. -/
private theorem lv_copy (c : Dev nD) : lv ((c : Thread nD τ), SemLoc.dma copyS) () = 0 := by simp only [lv, kind_copy]

/-- Every view of a row's shape in vector memory credits what row 0 of the exchange buffer does. -/
private theorem credit_row (d : Memref sig .tc .vmem S1x512 .f32) : d.view.dmaCredit = N := rfl

/-- The whole block copied over the whole scratch buffer leaves the block. -/
private theorem landed_x (c : Dev nD) (fd : Buf (Elt F) ((xV : Memref sig .tc .vmem S1024x512 .f32).view.loc (c : Thread nD τ))) (fs : Vec F S1024x512 .f32) :
    (xV : Memref sig .tc .vmem S1024x512 .f32).view.write (Elt F) fd ((xH : Memref sig .tc .hbm S1024x512 .f32).view.read (Elt F) fs) Finset.univ = fs := by
  show (View.whole cc0_scratch0).write (Elt F) fd ((View.whole main_arg0).read (Elt F) fs) Finset.univ = fs
  rw [View.read_whole]
  exact View.write_whole_univ _ _ _

/-! ## The resources a step consumes -/

/-- For the signal of shift `d + 1`: its duty's token in the peer's barrier cell, and the row the peer's copy will fill. -/
def sigRes (c : Dev nD) (d : Fin 15) : sProp 𝕄 :=
  iprop(dutyTok ER (barCell (peer c d)) 0 d ∗ ∃ f, rowPts c ((rev d).val + 1) (by omega) fullShare f)

/-- For the copy of shift `e + 1`: its send and receive duties' tokens, the share of the source row lent to it, and what
    the peer's signal handed over: the destination row and that the peer's receive cell stands at round 0. -/
def sendRes (c : Dev nD) (e : Fin 15) : sProp 𝕄 :=
  iprop(dutyTok ER (sendCell c e) 0 (0 : Fin 15) ∗ dutyTok ER (recvCell (peer c e) e) 0 (0 : Fin 15)
    ∗ rowPts c 0 (by decide) (sendSh e.val) (commFinal m c)
    ∗ (∃ f, rowPts (peer c e) (e.val + 1) (by omega) fullShare f))

/-! ## The steps -/

section Step
variable (c : Dev nD)

/-- A barrier signal. -/
theorem wp_sig {α : Type} {Q : α → sProp 𝕄} (n : Dev nD) (d : Fin 15) (hn : n = peer c d) (W : Waits sig Unit)
    {k : PUnit → Prog (TpuEff nD τ sig (Elt F) Λ₀ .tc) α} :
    iprop(records m K ∗ owes (c : Thread nD τ) (owe c (30 - d.val)) W ∗ sigRes c d)
      ⊢ iprop((owes (c : Thread nD τ) (owe c (29 - d.val)) W -∗ WP c (k ⟨⟩) Q)
          -∗ WP c (.op (.semSignal ((n, Proc.tc) : Thread nD τ) barS (1#32).toNat) k) Q) := by
  subst hn
  unfold sigRes
  iintro ⟨#Hrec, HO, Htok, %f, Hrow⟩ Hk
  iapply (Rounds.wp_signal 𝒱₀ ER (sched m) (c : Thread nD τ) none (dst := (peer c d : Thread nD τ)) (sem := barS)
    (r := 0) (d := d) (κ := K (peer c d, 0)) (by rw [duties_bar]; exact Finset.mem_univ _)
    ((amount_bar m (peer c d) d).trans (by decide)) () (owe c (29 - d.val)) (owe_sig c d) (W := W)) $$ [HO Htok Hrow]
  · isplitr; · iapply (inv_bar m K (peer c d)); iexact Hrec
    isplitl [HO]; · iexact HO
    isplitl [Htok]; · iexact Htok
    isplitl [Hrow]
    · rw [payload_bar]; unfold barPay; rw [src_peer]
      isplitl [Hrow]; · iexists f; iexact Hrow
      iapply (reached_recv m K c (rev d)); iexact Hrec
    · iapply (reached_bar m K (peer c d)); iexact Hrec
  iexact Hk

/-- The local copy of the block of `x` into its scratch buffer. -/
theorem wp_copyx {α : Type} {Q : α → sProp 𝕄} (fd : Buf (Elt F) ((xV : Memref sig .tc .vmem S1024x512 .f32).view.loc (c : Thread nD τ)))
    {hsrc : (xH : Memref sig .tc .hbm S1024x512 .f32).view.WordExact} {hdst : (xV : Memref sig .tc .vmem S1024x512 .f32).view.WordExact}
    {hsem : DmaTarget.Typed (nD := nD) (τ := τ) .hbm (.dma copyS) (DmaTarget.here (p := (Proc.tc : Proc τ)) (xV : Memref sig .tc .vmem S1024x512 .f32))}
    {k : PUnit → Prog (TpuEff nD τ sig (Elt F) Λ₀ .tc) α} :
    iprop(records m K ∗ xHPts m c ∗ xVPts c fd ∗ dutyTok ER (copyCell c) 0 (0 : Fin 15))
      ⊢ iprop((cred (tallyAt (copyCell c) () NX) -∗ WP c (k ⟨⟩) Q)
          -∗ WP c (.op (.enqueueDma xH (DmaTarget.here (p := (Proc.tc : Proc τ)) xV) (.dma copyS) hsrc hdst hsem) k) Q) := by
  unfold xHPts xVPts
  iintro ⟨#Hrec, HxH, HxV, Htok⟩ Hk
  iapply (Rounds.wp_copy_pointsTo 𝒱₀ ER (sched m) (c : Thread nD τ) none
    (src := (xH : Memref sig .tc .hbm S1024x512 .f32)) (dst := (xV : Memref sig .tc .vmem S1024x512 .f32)) (sem := .dma copyS)
    (q := fullShare) (fs := xblk m c) (fd := fd) (r := 0) (d := (0 : Fin 15)) (κ := K (c, 1))
    (by rw [duties_copy]; exact Finset.mem_singleton_self _) () NX rfl (amount_copy m c 0)
    (by rw [payload_copy]; unfold copyPay xVPts xHPts; rw [landed_x])) $$ [HxH HxV Htok]
  · isplitr; · iapply (inv_copy m K c); iexact Hrec
    isplitl [HxH]; · iexact HxH
    isplitl [HxV]; · iexact HxV
    isplitl [Htok]; · iexact Htok
    iapply (reached_copy m K c); iexact Hrec
  iexact Hk

/-- Its wait, while the last `j` payments are outstanding: the block landed, the source back. -/
theorem wp_wait_copy {α : Type} {Q : α → sProp 𝕄} (j : ℕ) (W : Waits sig Unit)
    {hsrc : (xH : Memref sig .tc .hbm S1024x512 .f32).view.WordExact} {hdst : (xV : Memref sig .tc .vmem S1024x512 .f32).view.WordExact}
    {k : PUnit → Prog (TpuEff nD τ sig (Elt F) Λ₀ .tc) α} :
    iprop(records m K ∗ levAts L lv ∗ cred (tallyAt (copyCell c) () NX) ∗ owes (c : Thread nD τ) (owe c j) W ∗ atPos ER (copyCell c) 0 ∅ 0)
      ⊢ iprop(((owes (c : Thread nD τ) (owe c j) (insert (SemLoc.dma copyS, ()) W) ∗ atPos ER (copyCell c) 1 ∅ 0 ∗ xVPts c (xblk m c) ∗ xHPts m c)
            -∗ WP c (k ⟨⟩) Q)
          -∗ WP c (.op (.waitDma2 copyS xH xV hsrc hdst) k) Q) := by
  iintro ⟨#Hrec, #Hlev, Hc, HO, Hat⟩ Hk
  iapply (Rounds.wp_wait_rest_token 𝒱₀ ER (sched m) (c : Thread nD τ) none (κ := K (c, 1))
      (wpE_waitDma2_eq 𝒱₀ (c : Thread nD τ) none Set.univ) (Set.mem_univ _) () (O := owe c j) (W := W) (R := 0) (m := 0) (T := ∅)
      (by rw [Nat.zero_add, expect_copy])) $$ [Hc HO Hat]
  · isplitr; · iapply (inv_copy m K c); iexact Hrec
    isplitl [Hc]; · iexact Hc
    isplitl [HO]; · iexact HO
    isplitr; · iapply (mayWait_low c (.dma copyS) (lv_copy c) j); iexact Hlev
    iexact Hat
  iintro ⟨HO, Hat, -, Hpay⟩
  ihave Hp := (Entails.of_eq (rest_copy m c)) $$ Hpay
  unfold copyPay
  icases Hp with ⟨HxV, HxH⟩
  iapply Hk
  isplitl [HO]; · iexact HO
  isplitl [Hat]; · iexact Hat
  isplitl [HxV]; · iexact HxV
  iexact HxH

/-- The barrier wait for fifteen, owing the fifteen receive credits: every peer's payload comes with it. -/
theorem wp_wait_bar {α : Type} {Q : α → sProp 𝕄} (W : Waits sig Unit) {k : PUnit → Prog (TpuEff nD τ sig (Elt F) Λ₀ .tc) α} :
    iprop(records m K ∗ levAts L lv ∗ cred (tallyAt (barCell c) () 15) ∗ owes (c : Thread nD τ) (owe c 15) W ∗ atPos ER (barCell c) 0 ∅ 0)
      ⊢ iprop(((owes (c : Thread nD τ) (owe c 15) (insert (SemLoc.reg barS, ()) W) ∗ atPos ER (barCell c) 1 ∅ 0
              ∗ bigSep Finset.univ (fun d : Fin 15 => barPay (F := F) c d))
            -∗ WP c (k ⟨⟩) Q)
          -∗ WP c (.op (.semWait barS (15#32).toNat) k) Q) := by
  iintro ⟨#Hrec, #Hlev, Hc, HO, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owe c 15) (W := W) (R := 0) (m := 0) (T := ∅)
      (by rw [expect_bar]; decide)) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The copy of the partial sums into row `e + 1` of the peer `e + 1` steps ahead. -/
theorem wp_send {α : Type} {Q : α → sProp 𝕄} (n : Dev nD) (e : Fin 15) (hn : n = peer c e) (W : Waits sig Unit)
    {hsc : (rowM (e.val + 1) (by omega) : Memref sig (Dev.tc n : Thread nD τ).2.kind .vmem S1x512 .f32).view.ref.isScScratch = false}
    {hsrc : (rowM 0 (by decide) : Memref sig .tc .vmem S1x512 .f32).view.WordExact}
    {hdst : (rowM (e.val + 1) (by omega) : Memref sig .tc .vmem S1x512 .f32).view.WordExact}
    {hsem : DmaTarget.Typed .vmem (.dma (recvS e)) (.remote (Dev.tc n : Thread nD τ) (rowM (e.val + 1) (by omega) : Memref sig .tc .vmem S1x512 .f32) (.dma (sendS e)) hsc)}
    {k : PUnit → Prog (TpuEff nD τ sig (Elt F) Λ₀ .tc) α} :
    iprop(records m K ∗ owes (c : Thread nD τ) (owe c (15 - e.val)) W ∗ sendRes m c e)
      ⊢ iprop(((cred (tallyAt (sendCell c e) () N) ∗ owes (c : Thread nD τ) (owe c (14 - e.val)) W) -∗ WP c (k ⟨⟩) Q)
          -∗ WP c (.op (.enqueueDma (rowM 0 (by decide)) (.remote (Dev.tc n : Thread nD τ) (rowM (e.val + 1) (by omega)) (.dma (sendS e)) hsc) (.dma (recvS e)) hsrc hdst hsem) k) Q) := by
  subst hn
  have h0 : 0 < 16 := by decide
  have hk : e.val + 1 < 16 := by omega
  unfold sendRes
  iintro ⟨#Hrec, HO, HtS, HtR, Hsrc, %fd, Hdst⟩ Hk
  unfold rowPts
  iapply (Rounds.wp_send_pointsTo 𝒱₀ ER (sched m) (c : Thread nD τ) none
      (c' := (peer c e : Thread nD τ)) (src := (rowM 0 h0 : Memref sig .tc .vmem S1x512 .f32))
      (dst := (rowM (e.val + 1) hk : Memref sig .tc .vmem S1x512 .f32))
      (sS := .dma (sendS e)) (sem := .dma (recvS e)) (q := sendSh e.val) (fs := commFinal m c) (fd := fd)
      (κ₁ := K (c, ⟨e.val + 2, by omega⟩)) (κ₂ := K (peer c e, ⟨e.val + 17, by omega⟩))
      (r₁ := 0) (r₂ := 0) (d₁ := (0 : Fin 15)) (d₂ := (0 : Fin 15))
      (by rw [duties_send]; exact Finset.mem_singleton_self _) (by rw [duties_recv]; exact Finset.mem_singleton_self _)
      () () N rfl (amount_send m c e 0) (amount_recv m (peer c e) e 0) (owe c (14 - e.val)) (owe_send c e) (W := W)
      (by rw [payload_send]; unfold sendPay rowPts; exact BI.Entails.refl _)
      (by rw [payload_recv]; unfold recvPay; exact Entails.of_eq (landed_row m c e hk h0 fd))) $$ [HO HtS HtR Hsrc Hdst]
  · isplitr; · iapply (inv_send m K c e); iexact Hrec
    isplitr; · iapply (inv_recv m K (peer c e) e); iexact Hrec
    isplitl [Hsrc]; · iexact Hsrc
    isplitl [Hdst]; · iexact Hdst
    isplitl [HO]; · iexact HO
    isplitl [HtS]; · iexact HtS
    isplitr; · iapply (reached_send m K c e); iexact Hrec
    isplitl [HtR]; · iexact HtR
    iapply (reached_recv m K (peer c e) e); iexact Hrec
  iexact Hk

/-- The wait on the send cell of shift `e + 1`, nothing owed: the lent share of the source row back. -/
theorem wp_wait_send {α : Type} {Q : α → sProp 𝕄} (e : Fin 15) (W : Waits sig Unit)
    {s d : Memref sig .tc .vmem S1x512 .f32} {hsrc : s.view.WordExact} {hdst : d.view.WordExact}
    {k : PUnit → Prog (TpuEff nD τ sig (Elt F) Λ₀ .tc) α} :
    iprop(records m K ∗ cred (tallyAt (sendCell c e) () N) ∗ owes (c : Thread nD τ) 0 W ∗ atPos ER (sendCell c e) 0 ∅ 0)
      ⊢ iprop(((owes (c : Thread nD τ) 0 (insert (SemLoc.dma (sendS e), ()) W) ∗ atPos ER (sendCell c e) 1 ∅ 0
              ∗ rowPts c 0 (by decide) (sendSh e.val) (commFinal m c))
            -∗ WP c (k ⟨⟩) Q)
          -∗ WP c (.op (.waitDma2 (sendS e) s d hsrc hdst) k) Q) := by
  iintro ⟨#Hrec, Hc, HO, Hat⟩ Hk
  have hw : ∀ K' : PUnit → sProp 𝕄, wpE (defs₀ (F := F)) 𝒱₀ (c : Thread nD τ) none Set.univ (.waitDma2 (sendS e) s d hsrc hdst) K'
      = waitSpec (c : Thread nD τ) Set.univ (.dma (sendS e)) N K' :=
    fun K' => (wpE_waitDma2_eq 𝒱₀ (c : Thread nD τ) none Set.univ K').trans (by rw [credit_row])
  iapply (Rounds.wp_wait_rest_token 𝒱₀ ER (sched m) (c : Thread nD τ) none (κ := K (c, ⟨e.val + 2, by omega⟩))
      hw (Set.mem_univ _) () (O := 0) (W := W) (R := 0) (m := 0) (T := ∅)
      (by rw [Nat.zero_add, expect_send])) $$ [Hc HO Hat]
  · isplitr; · iapply (inv_send m K c e); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m c e)) $$ Hpay
  unfold sendPay
  iapply Hk
  isplitl [HO]; · iexact HO
  isplitl [Hat]; · iexact Hat
  iexact Hp

/-- The wait on the receive cell of shift `e + 1`, nothing owed: row `e + 1` landed. -/
theorem wp_wait_recv {α : Type} {Q : α → sProp 𝕄} (e : Fin 15) (W : Waits sig Unit)
    {s d : Memref sig .tc .vmem S1x512 .f32} {hsrc : s.view.WordExact} {hdst : d.view.WordExact}
    {k : PUnit → Prog (TpuEff nD τ sig (Elt F) Λ₀ .tc) α} :
    iprop(records m K ∗ cred (tallyAt (recvCell c e) () N) ∗ owes (c : Thread nD τ) 0 W ∗ atPos ER (recvCell c e) 0 ∅ 0)
      ⊢ iprop(((owes (c : Thread nD τ) 0 (insert (SemLoc.dma (recvS e), ()) W) ∗ atPos ER (recvCell c e) 1 ∅ 0
              ∗ rowPts c (e.val + 1) (by omega) fullShare (commFinal m c))
            -∗ WP c (k ⟨⟩) Q)
          -∗ WP c (.op (.waitDma2 (recvS e) s d hsrc hdst) k) Q) := by
  iintro ⟨#Hrec, Hc, HO, Hat⟩ Hk
  have hw : ∀ K' : PUnit → sProp 𝕄, wpE (defs₀ (F := F)) 𝒱₀ (c : Thread nD τ) none Set.univ (.waitDma2 (recvS e) s d hsrc hdst) K'
      = waitSpec (c : Thread nD τ) Set.univ (.dma (recvS e)) N K' :=
    fun K' => (wpE_waitDma2_eq 𝒱₀ (c : Thread nD τ) none Set.univ K').trans (by rw [credit_row])
  iapply (Rounds.wp_wait_rest_token 𝒱₀ ER (sched m) (c : Thread nD τ) none (κ := K (c, ⟨e.val + 17, by omega⟩))
      hw (Set.mem_univ _) () (O := 0) (W := W) (R := 0) (m := 0) (T := ∅)
      (by rw [Nat.zero_add, expect_recv])) $$ [Hc HO Hat]
  · isplitr; · iapply (inv_recv m K c e); iexact Hrec
    isplitl [Hc]; · iexact Hc
    isplitl [HO]; · iexact HO
    isplitr; · rw [MayWait_zero]; iempintro
    iexact Hat
  iintro ⟨HO, Hat, -, Hpay⟩
  ihave Hp := (Entails.of_eq (rest_recv m c e)) $$ Hpay
  unfold recvPay
  iapply Hk
  isplitl [HO]; · iexact HO
  isplitl [Hat]; · iexact Hat
  iexact Hp

/-- One of the kernel's own cells, its one round consumed, closed: its counter, at zero, back. -/
theorem close_own (j : Fin 31) :
    iprop(records m K ∗ atPos ER ((c : Thread nD τ), osem j) 1 ∅ 0) ⊢ iprop(|={Set.univ}=> semVal ((c : Thread nD τ), osem j) 0) := by
  iintro ⟨#Hrec, Hat⟩
  iapply (Rounds.cell_close ER (sched m) (g := ((c : Thread nD τ), osem j)) (κ := K (c, ⟨j.val + 1, by omega⟩))
    (Set.mem_univ _) (fun h => h) (R := 1) (duties_later m _))
  isplitr; · iapply (inv_own m K c j); iexact Hrec
  iexact Hat

end Step

end Cert.Kernel.Dist

end
-- ==== Proof.DistK.BodyDefs.lean ====
/- The states between which the printed parts of the body move. Three families, each indexed by a count: after the local
   copy is started and `a` barrier signals are sent; after the barrier wait and `b` copies are started; after all copies
   are started and `w` of the thirty DMA waits are done (wait 2e is the send wait of shift e+1, wait 2e+1 its receive
   wait). Every state holds the persistent records and level facts, and what is owed with the waits recorded so far. -/
import proofs.«900934_g7700000000000935_dist_mean_ax0_shard0_i_m1024_n512_v7x_i16_bf16_1_alg».proof.Proof.DistK.Steps

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-- The barrier semaphore as the body names it. -/
abbrev barH : Sems sig S_ := SemArray.scalar (sig.barrier 0 rfl)

/-- The output window's staging buffer, at some contents. -/
def outStg : sProp 𝕄 :=
  iprop(∃ f : Buf (Elt F) ((c : Thread nD τ).loc cc0_stg0_0), ((c : Thread nD τ).loc cc0_stg0_0) ↦{fullShare} f)
/-- The tokens of the duties the fifteen copies pay: each one's send duty here and its receive duty on the peer. -/
def sendToks : sProp 𝕄 :=
  bigSep Finset.univ fun e : Fin 15 => iprop(dutyTok ER (sendCell c e) 0 (0 : Fin 15) ∗ dutyTok ER (recvCell (peer c e) e) 0 (0 : Fin 15))
def sendPoss : sProp 𝕄 := bigSep Finset.univ fun e : Fin 15 => atPos ER (sendCell c e) 0 ∅ 0
/-- What each receive wait needs: the launch's credit token and the position. -/
def recvWaits : sProp 𝕄 :=
  bigSep Finset.univ fun e : Fin 15 => iprop(cred (tallyAt (recvCell c e) () N) ∗ atPos ER (recvCell c e) 0 ∅ 0)

/-- Before the first statement. -/
def StartSt : sProp 𝕄 := iprop(records m K ∗ levAts L lv
  ∗ (∃ W, owes (c : Thread nD τ) (owe c 30) W)
  ∗ (bigSep Finset.univ fun d : Fin 15 => dutyTok ER (barCell (peer c d)) 0 d)
  ∗ dutyTok ER (copyCell c) 0 (0 : Fin 15) ∗ xHPts m c ∗ (∃ f, xVPts c f) ∗ (∃ f, commPts c f)
  ∗ atPos ER (copyCell c) 0 ∅ 0
  ∗ cred (tallyAt (barCell c) () 15) ∗ atPos ER (barCell c) 0 ∅ 0
  ∗ sendToks c ∗ sendPoss c ∗ recvWaits c ∗ outStg c)

/-- The local copy started, the exchange buffer cut into rows, `a` signals sent: signal d has handed row 15 - d away. -/
def SigSt (a : ℕ) : sProp 𝕄 := iprop(records m K ∗ levAts L lv
  ∗ (∃ W, owes (c : Thread nD τ) (owe c (30 - a)) W)
  ∗ bigSep (Finset.univ.filter fun d : Fin 15 => a ≤ d.val) (sigRes c)
  ∗ cred (tallyAt (copyCell c) () NX) ∗ atPos ER (copyCell c) 0 ∅ 0
  ∗ (∃ f, rowPts c 0 (by decide) fullShare f)
  ∗ cred (tallyAt (barCell c) () 15) ∗ atPos ER (barCell c) 0 ∅ 0
  ∗ sendToks c ∗ sendPoss c ∗ recvWaits c ∗ outStg c)

/-- The block of `x` landed, the partial sums stored in row 0 (cut into the shares lent to the copies), the barrier
    waited (every peer's row in hand), `b` copies started. -/
def SendSt (b : ℕ) : sProp 𝕄 := iprop(records m K ∗ levAts L lv
  ∗ (∃ W, owes (c : Thread nD τ) (owe c (15 - b)) W)
  ∗ bigSep (Finset.univ.filter fun e : Fin 15 => b ≤ e.val) (sendRes m c)
  ∗ bigSep (Finset.univ.filter fun e : Fin 15 => e.val < b) (fun e => cred (tallyAt (sendCell c e) () N))
  ∗ rowPts c 0 (by decide) (restSh 15) (commFinal m c)
  ∗ xVPts c (xblk m c) ∗ xHPts m c ∗ atPos ER (copyCell c) 1 ∅ 0 ∗ atPos ER (barCell c) 1 ∅ 0
  ∗ sendPoss c ∗ recvWaits c ∗ outStg c)

/-- All copies started, `w` of the thirty waits done. -/
def WaitSt (w : ℕ) : sProp 𝕄 := iprop(records m K ∗ levAts L lv
  ∗ (∃ W, owes (c : Thread nD τ) 0 W)
  ∗ bigSep (Finset.univ.filter fun e : Fin 15 => w ≤ 2 * e.val)
      (fun e => iprop(cred (tallyAt (sendCell c e) () N) ∗ atPos ER (sendCell c e) 0 ∅ 0))
  ∗ bigSep (Finset.univ.filter fun e : Fin 15 => 2 * e.val < w)
      (fun e => iprop(atPos ER (sendCell c e) 1 ∅ 0 ∗ rowPts c 0 (by decide) (sendSh e.val) (commFinal m c)))
  ∗ bigSep (Finset.univ.filter fun e : Fin 15 => w ≤ 2 * e.val + 1)
      (fun e => iprop(cred (tallyAt (recvCell c e) () N) ∗ atPos ER (recvCell c e) 0 ∅ 0))
  ∗ bigSep (Finset.univ.filter fun e : Fin 15 => 2 * e.val + 1 < w)
      (fun e => iprop(atPos ER (recvCell c e) 1 ∅ 0 ∗ rowPts c (e.val + 1) (by omega) fullShare (commFinal m c)))
  ∗ rowPts c 0 (by decide) (restSh 15) (commFinal m c)
  ∗ xVPts c (xblk m c) ∗ xHPts m c ∗ atPos ER (copyCell c) 1 ∅ 0 ∗ atPos ER (barCell c) 1 ∅ 0 ∗ outStg c)

/-- Every wait done, the rows and shares rejoined: the exchange buffer whole at its final contents, every own cell's one
    round consumed. -/
def FinalSt : sProp 𝕄 := iprop(records m K ∗ levAts L lv
  ∗ (∃ W, owes (c : Thread nD τ) 0 W)
  ∗ commPts c (commFinal m c) ∗ xVPts c (xblk m c) ∗ xHPts m c
  ∗ atPos ER (copyCell c) 1 ∅ 0 ∗ atPos ER (barCell c) 1 ∅ 0
  ∗ (bigSep Finset.univ fun e : Fin 15 => atPos ER (sendCell c e) 1 ∅ 0)
  ∗ (bigSep Finset.univ fun e : Fin 15 => atPos ER (recvCell c e) 1 ∅ 0)
  ∗ outStg c)

/-! ## The printed parts at this kernel's buffers -/

abbrev part1 := k0_part1 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part2 := k0_part2 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part3 := k0_part3 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part4 := k0_part4 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part5 := k0_part5 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part6 := k0_part6 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part7 := k0_part7 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part8 := k0_part8 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part9 := k0_part9 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part10 := k0_part10 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part11 := k0_part11 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part12 := k0_part12 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part13 := k0_part13 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part14 := k0_part14 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4
abbrev part15 := k0_part15 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4

end Cert.Kernel.Dist

end
-- ==== Proof.DistK.BodyA.lean ====
/- The first stretch of the body: the device id read, the local copy of x started, the exchange buffer cut into rows, the
   fifteen barrier signals (each hands the peer the row its copy will fill), the local copy waited, the partial sums
   stored in row 0 and that row cut into the shares lent to the copies, the barrier waited. -/
import proofs.«900934_g7700000000000935_dist_mean_ax0_shard0_i_m1024_n512_v7x_i16_bf16_1_alg».proof.Proof.DistK.BodyDefs

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-! ## A device's thirty-two positions, by the kind of cell -/

/-- The index of the send cell, and of the receive cell, of shift `e + 1` among a device's thirty-two cells. -/
private def sendIx (e : Fin 15) : Fin 32 := ⟨e.val + 2, by omega⟩
private def recvIx (e : Fin 15) : Fin 32 := ⟨e.val + 17, by omega⟩

private theorem sendIx_inj : Set.InjOn sendIx (↑(Finset.univ : Finset (Fin 15))) := by
  intro a _ b _ h
  have h' : a.val + 2 = b.val + 2 := congrArg Fin.val h
  exact Fin.ext (by omega)
private theorem recvIx_inj : Set.InjOn recvIx (↑(Finset.univ : Finset (Fin 15))) := by
  intro a _ b _ h
  have h' : a.val + 17 = b.val + 17 := congrArg Fin.val h
  exact Fin.ext (by omega)

/-- Thirty-two summands: the first, the second, fifteen from the third on, fifteen from the eighteenth on. -/
private theorem fin32_split (Φ : Fin 32 → sProp 𝕄) :
    bigSep Finset.univ Φ
      = iprop(Φ 0 ∗ Φ 1 ∗ (bigSep Finset.univ fun e : Fin 15 => Φ (sendIx e)) ∗ bigSep Finset.univ fun e : Fin 15 => Φ (recvIx e)) := by
  have hu : (Finset.univ : Finset (Fin 32))
      = insert 0 (insert 1 ((Finset.univ : Finset (Fin 15)).image sendIx ∪ (Finset.univ : Finset (Fin 15)).image recvIx)) := by decide
  rw [hu, bigSep_insert (by decide), bigSep_insert (by decide), bigSep_union (by decide),
    bigSep_image_of_injOn sendIx_inj, bigSep_image_of_injOn recvIx_inj]
  rfl

private theorem kcell_bar : kcell (c, (0 : Fin 32)) = barCell c :=
  congrArg (Prod.mk (c : Thread nD τ)) (show csem 0 = .reg barS from by decide)
private theorem kcell_copy : kcell (c, (1 : Fin 32)) = copyCell c :=
  congrArg (Prod.mk (c : Thread nD τ)) csem_copy
private theorem kcell_send (e : Fin 15) : kcell (c, sendIx e) = sendCell c e :=
  congrArg (Prod.mk (c : Thread nD τ)) (csem_send e)
private theorem kcell_recv (e : Fin 15) : kcell (c, recvIx e) = recvCell c e :=
  congrArg (Prod.mk (c : Thread nD τ)) (csem_recv e)

/-- A device's positions: its barrier cell's, its copy cell's, its fifteen send cells', its fifteen receive cells'. -/
private theorem pos_split :
    (positions c : sProp 𝕄)
      = iprop(atPos ER (barCell c) 0 ∅ 0 ∗ atPos ER (copyCell c) 0 ∅ 0
          ∗ (bigSep Finset.univ fun e : Fin 15 => atPos ER (sendCell c e) 0 ∅ 0)
          ∗ bigSep Finset.univ fun e : Fin 15 => atPos ER (recvCell c e) 0 ∅ 0) := by
  have hs : (bigSep Finset.univ fun e : Fin 15 => (atPos ER (kcell (c, sendIx e)) 0 ∅ 0 : sProp 𝕄))
      = bigSep Finset.univ fun e : Fin 15 => atPos ER (sendCell c e) 0 ∅ 0 := bigSep_congr fun e _ => by rw [kcell_send]
  have hr : (bigSep Finset.univ fun e : Fin 15 => (atPos ER (kcell (c, recvIx e)) 0 ∅ 0 : sProp 𝕄))
      = bigSep Finset.univ fun e : Fin 15 => atPos ER (recvCell c e) 0 ∅ 0 := bigSep_congr fun e _ => by rw [kcell_recv]
  unfold positions
  rw [fin32_split, kcell_bar, kcell_copy, hs, hr]

/-- What the pipeline hands the body becomes the start state, at the names the launch allocated. -/
theorem start_intro_body :
    iprop(Φ₀ m c ∗ (dats m ρ 0 c).owesAt () t0_0.castSucc
        ∗ (∃ d f, ⌜f = (dats m ρ 0 c).before (0 : Fin 1) t0_0 d⌝ ∗ ((c : Thread nD τ).loc cc0_stg0_0) ↦{fullShare} f))
      ⊢ (∃ K, StartSt m K c : sProp 𝕄) := by
  unfold Φ₀ start ghost payToks
  iintro ⟨⟨⟨⟨%K, #Hrec, Hpos, HtB, HtR, HtS, HtC⟩, HcB, HcR, #Hlev, HxH⟩, HxV, Hcomm⟩, Ho, ⟨%d, %f, -, Hstg⟩⟩
  ihave Hp := (Entails.of_eq (pos_split c)) $$ Hpos
  icases Hp with ⟨HpB, HpC, HpS, HpR⟩
  unfold Dat.owesAt Pipeline.owesWithin
  icases Ho with ⟨%W, -, HO⟩
  rw [show (dats m ρ 0 c).owed t0_0.castSucc = owe c 30 from rfl]
  iexists K
  unfold StartSt sendToks sendPoss recvWaits outStg
  rw [bigSep_sep', bigSep_sep']
  isplitr; · iexact Hrec
  isplitr; · iexact Hlev
  isplitl [HO]; · iexists W; iexact HO
  isplitl [HtB]; · iexact HtB
  isplitl [HtC]; · iexact HtC
  isplitl [HxH]; · iexact HxH
  isplitl [HxV]; · iexact HxV
  isplitl [Hcomm]; · iexact Hcomm
  isplitl [HpC]; · iexact HpC
  isplitl [HcB]; · iexact HcB
  isplitl [HpB]; · iexact HpB
  isplitl [HtS HtR]
  · isplitl [HtS]; · iexact HtS
    iexact HtR
  isplitl [HpS]; · iexact HpS
  isplitl [HcR HpR]
  · isplitl [HcR]; · iexact HcR
    iexact HpR
  iexists f; iexact Hstg

/-! ## Shifts from a given one on: the least taken out -/

private theorem filter_pick (a : ℕ) (ha : a < 15) (Φ : Fin 15 → sProp 𝕄) :
    bigSep (Finset.univ.filter fun x : Fin 15 => a ≤ x.val) Φ
      ⊢ iprop(Φ ⟨a, ha⟩ ∗ bigSep (Finset.univ.filter fun x : Fin 15 => a + 1 ≤ x.val) Φ) := by
  have h : (Finset.univ.filter fun x : Fin 15 => a + 1 ≤ x.val) = (Finset.univ.filter fun x : Fin 15 => a ≤ x.val).erase ⟨a, ha⟩ := by
    ext x
    rw [Finset.mem_erase, Finset.mem_filter, Finset.mem_filter]
    constructor
    · rintro ⟨-, hx⟩
      refine ⟨fun e => ?_, Finset.mem_univ _, by omega⟩
      have : x.val = a := congrArg Fin.val e
      omega
    · rintro ⟨hne, -, hx⟩
      have : x.val ≠ a := fun e => hne (Fin.ext e)
      exact ⟨Finset.mem_univ _, by omega⟩
  rw [h]
  exact Cert.Lib.bigSep_pick (s := Finset.univ.filter fun x : Fin 15 => a ≤ x.val) (i := ⟨a, ha⟩)
    (Finset.mem_filter.mpr ⟨Finset.mem_univ _, le_refl _⟩) Φ

/-! ## The exchange buffer's rows: the source row, and the fifteen rows handed to the peers, by the shift of the signal -/

/-- The row that the signal of shift `d + 1` hands away. -/
private def rowIx (d : Fin 15) : Fin 16 := ⟨(rev d).val + 1, by have := (rev d).isLt; omega⟩
private theorem rowIx_inj : Function.Injective rowIx := by decide
private theorem univ16 : (Finset.univ : Finset (Fin 16)) = insert 0 ((Finset.univ : Finset (Fin 15)).image rowIx) := by decide

private theorem rows_split (f : Buf (Elt F) ((cM : Memref sig .tc .vmem S16x512 .f32).view.loc (c : Thread nD τ))) :
    (bigSep Finset.univ fun k : Fin 16 => rowPts c k.val k.isLt fullShare f : sProp 𝕄)
      = iprop(rowPts c 0 (by decide) fullShare f
          ∗ bigSep Finset.univ fun d : Fin 15 => rowPts c ((rev d).val + 1) (by have := (rev d).isLt; omega) fullShare f) := by
  rw [univ16, bigSep_insert (by decide), bigSep_image_of_injOn rowIx_inj.injOn]
  rfl

private theorem sigRes_one (f : Buf (Elt F) ((cM : Memref sig .tc .vmem S16x512 .f32).view.loc (c : Thread nD τ))) (d : Fin 15) :
    iprop(dutyTok ER (barCell (peer c d)) 0 d ∗ rowPts c ((rev d).val + 1) (by have := (rev d).isLt; omega) fullShare f)
      ⊢ (sigRes c d : sProp 𝕄) := by
  unfold sigRes
  iintro ⟨Ht, Hr⟩
  isplitl [Ht]; · iexact Ht
  iexists f; iexact Hr

/-- Every signal's token with the row it hands away. -/
private theorem sigRes_intro (f : Buf (Elt F) ((cM : Memref sig .tc .vmem S16x512 .f32).view.loc (c : Thread nD τ))) :
    iprop((bigSep Finset.univ fun d : Fin 15 => dutyTok ER (barCell (peer c d)) 0 d)
        ∗ bigSep Finset.univ fun d : Fin 15 => rowPts c ((rev d).val + 1) (by have := (rev d).isLt; omega) fullShare f)
      ⊢ (bigSep (Finset.univ.filter fun d : Fin 15 => 0 ≤ d.val) (sigRes c) : sProp 𝕄) := by
  rw [Finset.filter_true_of_mem (fun d _ => Nat.zero_le _), ← bigSep_sep']
  exact bigSep_mono fun d _ => sigRes_one c f d

/-- One barrier signal, between the states before and after it. -/
private theorem sig_step {α : Type} {Q : α → sProp 𝕄} (n : Dev nD) (d : Fin 15) (hn : n = peer c d) (a a' : ℕ) (ha : a = d.val) (ha' : a' = d.val + 1)
    {k : PUnit → Prog (TpuEff nD τ sig (Elt F) Λ₀ .tc) α} :
    SigSt m K c a ⊢ iprop((SigSt m K c a' -∗ WP c (k ⟨⟩) Q)
      -∗ WP c (.op (.semSignal ((n, Proc.tc) : Thread nD τ) barS (1#32).toNat) k) Q) := by
  subst ha ha'
  unfold SigSt
  iintro ⟨#Hrec, #Hlev, ⟨%W, HO⟩, Hsig, HcC, HpC, Hrow0, HcB, HpB, HsT, HsP, HrW, Hout⟩ Hk
  ihave Hs := (filter_pick d.val d.isLt (sigRes c)) $$ Hsig
  icases Hs with ⟨Hs0, Hsig⟩
  iapply (wp_sig m K c n d hn W) $$ [HO Hs0]
  · isplitr; · iexact Hrec
    isplitl [HO]; · iexact HO
    iexact Hs0
  iintro HO
  iapply Hk
  rw [show 30 - (d.val + 1) = 29 - d.val from by omega]
  isplitr; · iexact Hrec
  isplitr; · iexact Hlev
  isplitl [HO]; · iexists W; iexact HO
  isplitl [Hsig]; · iexact Hsig
  isplitl [HcC]; · iexact HcC
  isplitl [HpC]; · iexact HpC
  isplitl [Hrow0]; · iexact Hrow0
  isplitl [HcB]; · iexact HcB
  isplitl [HpB]; · iexact HpB
  isplitl [HsT]; · iexact HsT
  isplitl [HsP]; · iexact HsP
  isplitl [HrW]; · iexact HrW
  iexact Hout

theorem part1_spec :
    StartSt m K c ⊢ WP c (part1 (F := F)) (fun r => iprop(⌜r.1 = c ∧ r.2.2.1 = barH⌝ ∗ SigSt m K c 5)) := by
  unfold part1 WP
  simp only [k0_part1_eq_skeleton]; unfold k0_part1_skel
  simp only [semSignalWord, semWaitWord, Prog.lift, Prog.bind_op, Prog.bind_ret, Prog.pure_eq_ret, wp_deviceId]
  unfold StartSt
  iintro ⟨#Hrec, #Hlev, ⟨%W, HO⟩, HtB, HtC, HxH, ⟨%fx, HxV⟩, ⟨%fc, Hcomm⟩, HpC, HcB, HpB, HsT, HsP, HrW, Hout⟩
  -- the local copy of the block of x
  iapply (wp_copyx m K c fx) $$ [HxH HxV HtC]
  · isplitr; · iexact Hrec
    isplitl [HxH]; · iexact HxH
    isplitl [HxV]; · iexact HxV
    iexact HtC
  iintro HcC
  -- the exchange buffer by rows, each row but the first with the token of the signal that hands it away
  ihave Hrows := (comm_rows c fc).1 $$ Hcomm
  ihave Hrows' := (Entails.of_eq (rows_split c fc)) $$ Hrows
  icases Hrows' with ⟨Hrow0, Hrs⟩
  ihave Hsig := (sigRes_intro c fc) $$ [HtB Hrs]
  · isplitl [HtB]; · iexact HtB
    iexact Hrs
  ihave H : SigSt m K c 0 $$ [HO Hsig HcC HpC Hrow0 HcB HpB HsT HsP HrW Hout]
  · unfold SigSt
    isplitr; · iexact Hrec
    isplitr; · iexact Hlev
    isplitl [HO]; · iexists W; iexact HO
    isplitl [Hsig]; · iexact Hsig
    isplitl [HcC]; · iexact HcC
    isplitl [HpC]; · iexact HpC
    isplitl [Hrow0]; · iexists fc; iexact Hrow0
    isplitl [HcB]; · iexact HcB
    isplitl [HpB]; · iexact HpB
    isplitl [HsT]; · iexact HsT
    isplitl [HsP]; · iexact HsP
    isplitl [HrW]; · iexact HrW
    iexact Hout
  -- the signals of shifts 1 to 5
  iapply (sig_step m K c _ ⟨0, by decide⟩ (dev1_eq c) 0 1 rfl rfl) $$ H; iintro H
  iapply (sig_step m K c _ ⟨1, by decide⟩ (dev2_eq c) 1 2 rfl rfl) $$ H; iintro H
  iapply (sig_step m K c _ ⟨2, by decide⟩ (dev3_eq c) 2 3 rfl rfl) $$ H; iintro H
  iapply (sig_step m K c _ ⟨3, by decide⟩ (dev4_eq c) 3 4 rfl rfl) $$ H; iintro H
  iapply (sig_step m K c _ ⟨4, by decide⟩ (dev5_eq c) 4 5 rfl rfl) $$ H; iintro H
  unfold WP; rw [wp_ret]; imodintro
  isplitr; · ipureintro; exact ⟨rfl, rfl⟩
  iexact H

theorem part2_spec (v2 v24 : BitVec 32) :
    SigSt m K c 5 ⊢ WP c (part2 (F := F) c v2 barH v24) (fun _ => SigSt m K c 11) := by
  unfold part2 WP
  simp only [k0_part2_eq_skeleton]; unfold k0_part2_skel
  simp only [semSignalWord, semWaitWord, Prog.lift, Prog.bind_op, Prog.bind_ret, Prog.pure_eq_ret]
  iintro H
  -- the signals of shifts 6 to 11
  iapply (sig_step m K c _ ⟨5, by decide⟩ (dev6_eq c) 5 6 rfl rfl) $$ H; iintro H
  iapply (sig_step m K c _ ⟨6, by decide⟩ (dev7_eq c) 6 7 rfl rfl) $$ H; iintro H
  iapply (sig_step m K c _ ⟨7, by decide⟩ (dev8_eq c) 7 8 rfl rfl) $$ H; iintro H
  iapply (sig_step m K c _ ⟨8, by decide⟩ (dev9_eq c) 8 9 rfl rfl) $$ H; iintro H
  iapply (sig_step m K c _ ⟨9, by decide⟩ (dev10_eq c) 9 10 rfl rfl) $$ H; iintro H
  iapply (sig_step m K c _ ⟨10, by decide⟩ (dev11_eq c) 10 11 rfl rfl) $$ H; iintro H
  unfold WP; rw [wp_ret]; imodintro
  iexact H

/-! ## The block of x read whole; what the barrier wait returns, by the shift of the copy it allows -/

private theorem hz2 : (![0, 0] : Fin 2 → Nat) = fun _ => 0 := funext fun a => by fin_cases a <;> rfl

private theorem read_xV (f : (cc0_scratch0 : Ref sig .tc).ty.Contents (Elt F)) :
    (xV : Memref sig .tc .vmem S1024x512 .f32).view.readAt (Elt F)
      (Rect.unit (s := S1024x512) ![0, 0] S1024x512.size inb_S1024x512_S1024x512_0_0).toLoadRect f = f :=
  Memref.readAt_unit_zero (Elt F) cc0_scratch0 hz2 _ f

private theorem h0lt : 0 < 16 := by decide

/-- The store of the partial sums into row 0, as the store rule leaves it, restated at the final contents. -/
private theorem store_row0' (f : Buf (Elt F) ((cM : Memref sig .tc .vmem S16x512 .f32).view.loc (c : Thread nD τ))) :
    ((((cM : Memref sig .tc .vmem S16x512 .f32).access (Rect.unit (s := S16x512) ![0, 0] S1x512.size inb_S16x512_S1x512_0_0) : View sig .tc _ _ _).loc (c : Thread nD τ))
        ↦[(rowM 0 h0lt).view.set]{fullShare}
        (((cM : Memref sig .tc .vmem S16x512 .f32).access (Rect.unit (s := S16x512) ![0, 0] S1x512.size inb_S16x512_S1x512_0_0) : View sig .tc _ _ _).write (Elt F) f
          (k0_pay2 (xblk m c)) Finset.univ) : sProp 𝕄)
      = rowPts c 0 (by decide) fullShare (commFinal m c) := store_row0 m c f

/-- Counting shifts from the other side is its own inverse. -/
private def revEquiv : Fin 15 ≃ Fin 15 := ⟨rev, rev, rev_rev, rev_rev⟩

private theorem barPay_row (e : Fin 15) :
    (barPay (F := F) c (rev e) : sProp 𝕄) ⊢ iprop(∃ f, rowPts (peer c e) (e.val + 1) (by have := e.isLt; omega) fullShare f) := by
  rw [barPay_rev]
  iintro ⟨H, -⟩
  iexact H

/-- What the fifteen peers handed over: for the copy of every shift, the row of the peer that it fills. -/
private theorem barPay_rows :
    (bigSep Finset.univ fun d : Fin 15 => barPay (F := F) c d : sProp 𝕄)
      ⊢ bigSep Finset.univ fun e : Fin 15 => iprop(∃ f, rowPts (peer c e) (e.val + 1) (by have := e.isLt; omega) fullShare f) := by
  rw [bigSep_univ_equiv revEquiv (fun d : Fin 15 => (barPay (F := F) c d : sProp 𝕄))]
  exact bigSep_mono fun e _ => barPay_row c e

private theorem sendRes_one (e : Fin 15) :
    iprop((dutyTok ER (sendCell c e) 0 (0 : Fin 15) ∗ dutyTok ER (recvCell (peer c e) e) 0 (0 : Fin 15))
        ∗ rowPts c 0 (by decide) (sendSh e.val) (commFinal m c)
        ∗ (∃ f, rowPts (peer c e) (e.val + 1) (by have := e.isLt; omega) fullShare f))
      ⊢ (sendRes m c e : sProp 𝕄) := by
  unfold sendRes
  iintro ⟨⟨Ht1, Ht2⟩, Hs, Hr⟩
  isplitl [Ht1]; · iexact Ht1
  isplitl [Ht2]; · iexact Ht2
  isplitl [Hs]; · iexact Hs
  iexact Hr

/-- Every copy's tokens, the share of the source row lent to it, and the peer's row that it fills. -/
private theorem sendRes_intro :
    iprop(sendToks c
        ∗ (bigSep Finset.univ fun e : Fin 15 => rowPts c 0 (by decide) (sendSh e.val) (commFinal m c))
        ∗ bigSep Finset.univ fun e : Fin 15 => iprop(∃ f, rowPts (peer c e) (e.val + 1) (by have := e.isLt; omega) fullShare f))
      ⊢ (bigSep (Finset.univ.filter fun e : Fin 15 => 0 ≤ e.val) (sendRes m c) : sProp 𝕄) := by
  unfold sendToks
  rw [Finset.filter_true_of_mem (fun e _ => Nat.zero_le _), ← bigSep_sep', ← bigSep_sep']
  exact bigSep_mono fun e _ => sendRes_one m c e

private theorem none_sent :
    (iprop(emp) : sProp 𝕄) ⊢ bigSep (Finset.univ.filter fun e : Fin 15 => e.val < 0) (fun e => cred (tallyAt (sendCell c e) () N)) := by
  rw [Finset.filter_false_of_mem (fun e _ => Nat.not_lt_zero _), bigSep_empty]
  exact .rfl

theorem part3_spec (v2 v48 : BitVec 32) :
    SigSt m K c 11 ⊢ WP c (part3 (F := F) c v2 barH v48) (fun _ => SendSt m K c 0) := by
  unfold part3 WP
  simp only [k0_part3_eq_skeleton]; unfold k0_part3_skel
  simp only [semSignalWord, semWaitWord, Prog.lift, Prog.bind_op, Prog.bind_ret, Prog.pure_eq_ret]
  iintro H
  -- the signals of shifts 12 to 15
  iapply (sig_step m K c _ ⟨11, by decide⟩ (dev12_eq c) 11 12 rfl rfl) $$ H; iintro H
  iapply (sig_step m K c _ ⟨12, by decide⟩ (dev13_eq c) 12 13 rfl rfl) $$ H; iintro H
  iapply (sig_step m K c _ ⟨13, by decide⟩ (dev14_eq c) 13 14 rfl rfl) $$ H; iintro H
  iapply (sig_step m K c _ ⟨14, by decide⟩ (dev15_eq c) 14 15 rfl rfl) $$ H; iintro H
  unfold SigSt WP
  icases H with ⟨#Hrec, #Hlev, ⟨%W, HO⟩, -, HcC, HpC, ⟨%f0, Hrow0⟩, HcB, HpB, HsT, HsP, HrW, Hout⟩
  -- the local copy waited: the block of x landed
  iapply (wp_wait_copy m K c 15 W) $$ [HcC HO HpC]
  · isplitr; · iexact Hrec
    isplitr; · iexact Hlev
    isplitl [HcC]; · iexact HcC
    isplitl [HO]; · iexact HO
    iexact HpC
  iintro ⟨HO, HpC, HxV, HxH⟩
  -- the block read
  unfold xVPts
  iapply (wp_load 𝒱₀ (c : Thread nD τ) none Set.univ (m := xV) (S := (xV : Memref sig .tc .vmem S1024x512 .f32).view.set)
    (View.setOn_subset_set _ _)) $$ HxV; iintro HxV
  rw [read_xV]
  -- row 0 of the exchange buffer read (the value is not used), then the partial sums stored in it
  unfold rowPts
  iapply (wp_load_rect 𝒱₀ (c : Thread nD τ) none Set.univ (m := cM)
    (r := Rect.unit (s := S16x512) ![0, 0] S1x512.size inb_S16x512_S1x512_0_0)
    (S := (rowM 0 h0lt).view.set) (Finset.Subset.refl _)) $$ Hrow0; iintro Hrow0
  iapply (wp_store 𝒱₀ (c : Thread nD τ) none Set.univ (m := cM)
    (r := Rect.unit (s := S16x512) ![0, 0] S1x512.size inb_S16x512_S1x512_0_0) (Mk := Finset.univ)
    (S := (rowM 0 h0lt).view.set) (Finset.Subset.refl _)) $$ Hrow0; iintro Hrow0
  ihave Hrow0' := (Entails.of_eq (store_row0' m c f0)) $$ Hrow0
  ihave Hsh := (row0_shares c (commFinal m c)).1 $$ Hrow0'
  icases Hsh with ⟨Hshares, Hrest⟩
  -- the barrier waited: every peer's row in hand
  iapply (wp_wait_bar m K c (insert (SemLoc.dma copyS, ()) W)) $$ [HcB HO HpB]
  · isplitr; · iexact Hrec
    isplitr; · iexact Hlev
    isplitl [HcB]; · iexact HcB
    isplitl [HO]; · iexact HO
    iexact HpB
  iintro ⟨HO, HpB, Hpay⟩
  unfold WP; rw [wp_ret]; imodintro
  unfold SendSt xVPts
  isplitr; · iexact Hrec
  isplitr; · iexact Hlev
  isplitl [HO]; · iexists _; iexact HO
  isplitl [HsT Hshares Hpay]
  · iapply (sendRes_intro m c)
    isplitl [HsT]; · iexact HsT
    isplitl [Hshares]; · iexact Hshares
    iapply (barPay_rows c); iexact Hpay
  isplitr; · iapply (none_sent c); iempintro
  isplitl [Hrest]; · iexact Hrest
  isplitl [HxV]; · iexact HxV
  isplitl [HxH]; · iexact HxH
  isplitl [HpC]; · iexact HpC
  isplitl [HpB]; · iexact HpB
  isplitl [HsP]; · iexact HsP
  isplitl [HrW]; · iexact HrW
  iexact Hout

/-- info: 'Cert.Kernel.Dist.start_intro_body' depends on axioms: [propext, Classical.choice, Quot.sound] -/
#guard_msgs in #print axioms start_intro_body
/-- info: 'Cert.Kernel.Dist.part1_spec' depends on axioms: [propext, Classical.choice, Quot.sound] -/
#guard_msgs in #print axioms part1_spec
/-- info: 'Cert.Kernel.Dist.part2_spec' depends on axioms: [propext, Classical.choice, Quot.sound] -/
#guard_msgs in #print axioms part2_spec
/-- info: 'Cert.Kernel.Dist.part3_spec' depends on axioms: [propext, Classical.choice, Quot.sound] -/
#guard_msgs in #print axioms part3_spec

end Cert.Kernel.Dist

end
-- ==== Proof.DistK.BodyB.lean ====
/- The second stretch: the fifteen copies of the partial sums into the peers' rows, each paying its send duty here and
   its receive duty on the peer. -/
import proofs.«900934_g7700000000000935_dist_mean_ax0_shard0_i_m1024_n512_v7x_i16_bf16_1_alg».proof.Proof.DistK.BodyDefs

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-! ## The two index sets of a state, one copy further -/

private theorem ge_erase (e : Fin 15) :
    (Finset.univ.filter fun x : Fin 15 => e.val ≤ x.val).erase e = Finset.univ.filter fun x : Fin 15 => e.val + 1 ≤ x.val := by
  ext x
  simp only [Finset.mem_erase, Finset.mem_filter, Finset.mem_univ, true_and]
  constructor
  · rintro ⟨hne, hle⟩
    have hv : x.val ≠ e.val := fun h => hne (Fin.ext h)
    omega
  · intro h
    refine ⟨fun hx => ?_, by omega⟩
    rw [hx] at h
    omega

private theorem lt_insert (e : Fin 15) :
    (Finset.univ.filter fun x : Fin 15 => x.val < e.val + 1) = insert e (Finset.univ.filter fun x : Fin 15 => x.val < e.val) := by
  ext x
  simp only [Finset.mem_insert, Finset.mem_filter, Finset.mem_univ, true_and]
  constructor
  · intro h
    by_cases hx : x = e
    · exact Or.inl hx
    · have hv : x.val ≠ e.val := fun h' => hx (Fin.ext h')
      exact Or.inr (by omega)
  · rintro (hx | h)
    · rw [hx]; omega
    · omega

private theorem not_mem_lt (e : Fin 15) : e ∉ Finset.univ.filter fun x : Fin 15 => x.val < e.val := by
  simp only [Finset.mem_filter, Finset.mem_univ, true_and]
  omega

/-- One summand put into a separating conjunction over a finite set. -/
private theorem bigSep_put {M : Type} [URA M] {I : Type} [DecidableEq I] {s : Finset I} {i : I} (hi : i ∉ s) (Φ : I → sProp M) :
    iprop(Φ i ∗ bigSep s Φ) ⊢ bigSep (insert i s) Φ := Entails.of_eq (bigSep_insert hi).symm

/-- Two separating conjunctions over the same set, joined summand by summand. -/
private theorem bigSep_zip {M : Type} [URA M] {I : Type} (s : Finset I) (Φ Ψ : I → sProp M) :
    iprop(bigSep s Φ ∗ bigSep s Ψ) ⊢ bigSep s fun i => iprop(Φ i ∗ Ψ i) := Entails.of_eq (bigSep_sep s Φ Ψ).symm

/-- A part's end: the state reached is what the part returns with. -/
private theorem ret_step {α : Type} (a : α) (Q : α → sProp 𝕄) : Q a ⊢ WP c (Prog.ret a) Q := by
  show Q a ⊢ wp frame (wpE (defs₀ (F := F)) 𝒱₀ (c : Thread nD τ) none) Set.univ (Prog.ret a) Q
  rw [wp_ret]
  iintro H; imodintro; iexact H

/-! ## One copy: from `b` copies started to `b + 1` -/

private theorem send_step {α : Type} {Q : α → sProp 𝕄} (e : Fin 15) (b b' : ℕ) (hb : b = e.val) (hb' : b' = e.val + 1) (n : Dev nD) (hn : n = peer c e)
    {hsc : (rowM (e.val + 1) (by omega) : Memref sig (Dev.tc n : Thread nD τ).2.kind .vmem S1x512 .f32).view.ref.isScScratch = false}
    {hsrc : (rowM 0 (by decide) : Memref sig .tc .vmem S1x512 .f32).view.WordExact}
    {hdst : (rowM (e.val + 1) (by omega) : Memref sig .tc .vmem S1x512 .f32).view.WordExact}
    {hsem : DmaTarget.Typed .vmem (.dma (recvS e)) (.remote (Dev.tc n : Thread nD τ) (rowM (e.val + 1) (by omega) : Memref sig .tc .vmem S1x512 .f32) (.dma (sendS e)) hsc)}
    {k : PUnit → Prog (TpuEff nD τ sig (Elt F) Λ₀ .tc) α} :
    SendSt m K c b ⊢ iprop((SendSt m K c b' -∗ WP c (k ⟨⟩) Q)
        -∗ WP c (.op (.enqueueDma (rowM 0 (by decide)) (.remote (Dev.tc n : Thread nD τ) (rowM (e.val + 1) (by omega)) (.dma (sendS e)) hsc) (.dma (recvS e)) hsrc hdst hsem) k) Q) := by
  subst hb hb'
  have h1 : 15 - (e.val + 1) = 14 - e.val := by omega
  unfold SendSt
  iintro ⟨#Hrec, #Hlev, ⟨%W, HO⟩, Hres, Hcr, Hrow, HxV, HxH, HaC, HaB, Hsp, Hrw, Hout⟩ Hk
  ihave Hp := (Cert.Lib.bigSep_pick (s := Finset.univ.filter fun x : Fin 15 => e.val ≤ x.val) (i := e) (Finset.mem_filter.mpr ⟨Finset.mem_univ _, Nat.le_refl _⟩) (sendRes m c)) $$ Hres
  icases Hp with ⟨Hre, Hres⟩
  iapply (wp_send m K c n e hn W) $$ [HO Hre]
  · isplitr; · iexact Hrec
    isplitl [HO]; · iexact HO
    iexact Hre
  iintro ⟨Hc, HO⟩
  iapply Hk
  rw [ge_erase e, lt_insert e, h1]
  isplitr; · iexact Hrec
  isplitr; · iexact Hlev
  isplitl [HO]; · iexists W; iexact HO
  isplitl [Hres]; · iexact Hres
  isplitl [Hc Hcr]
  · iapply (bigSep_put (not_mem_lt e) fun x : Fin 15 => (cred (tallyAt (sendCell c x) () N) : sProp 𝕄))
    isplitl [Hc]; · iexact Hc
    iexact Hcr
  isplitl [Hrow]; · iexact Hrow
  isplitl [HxV]; · iexact HxV
  isplitl [HxH]; · iexact HxH
  isplitl [HaC]; · iexact HaC
  isplitl [HaB]; · iexact HaB
  isplitl [Hsp]; · iexact Hsp
  isplitl [Hrw]; · iexact Hrw
  iexact Hout

theorem part4_spec (v2 v71 : BitVec 32) :
    SendSt m K c 0 ⊢ WP c (part4 (F := F) c v2 v71) (fun _ => SendSt m K c 3) := by
  show _ ⊢ wp frame (wpE (defs₀ (F := F)) 𝒱₀ (c : Thread nD τ) none) Set.univ (k0_part4 _ _ _ _ _ _ _ _ _ _ _ c v2 v71) _
  simp only [k0_part4_eq_skeleton]; unfold k0_part4_skel
  simp only [semSignalWord, semWaitWord, Prog.lift, Prog.bind_op, Prog.bind_ret, Prog.pure_eq_ret]
  iintro H
  iapply (send_step m K c ⟨0, by decide⟩ 0 1 rfl rfl _ (dev16_eq c)) $$ H
  iintro H
  iapply (send_step m K c ⟨1, by decide⟩ 1 2 rfl rfl _ (dev17_eq c)) $$ H
  iintro H
  iapply (send_step m K c ⟨2, by decide⟩ 2 3 rfl rfl _ (dev18_eq c)) $$ H
  iintro H
  iapply (ret_step c _ _) $$ H

theorem part5_spec (v2 v100 c16 : BitVec 32) :
    SendSt m K c 3 ⊢ WP c (part5 (F := F) c v2 v100 c16) (fun _ => SendSt m K c 6) := by
  show _ ⊢ wp frame (wpE (defs₀ (F := F)) 𝒱₀ (c : Thread nD τ) none) Set.univ (k0_part5 _ _ _ _ _ _ _ _ _ _ _ c v2 v100 c16) _
  simp only [k0_part5_eq_skeleton]; unfold k0_part5_skel
  simp only [semSignalWord, semWaitWord, Prog.lift, Prog.bind_op, Prog.bind_ret, Prog.pure_eq_ret]
  iintro H
  iapply (send_step m K c ⟨3, by decide⟩ 3 4 rfl rfl _ (dev19_eq c)) $$ H
  iintro H
  iapply (send_step m K c ⟨4, by decide⟩ 4 5 rfl rfl _ (dev20_eq c)) $$ H
  iintro H
  iapply (send_step m K c ⟨5, by decide⟩ 5 6 rfl rfl _ (dev21_eq c)) $$ H
  iintro H
  iapply (ret_step c _ _) $$ H

theorem part6_spec (v2 : BitVec 32) :
    SendSt m K c 6 ⊢ WP c (part6 (F := F) c v2) (fun _ => SendSt m K c 8) := by
  show _ ⊢ wp frame (wpE (defs₀ (F := F)) 𝒱₀ (c : Thread nD τ) none) Set.univ (k0_part6 _ _ _ _ _ _ _ _ _ _ _ c v2) _
  simp only [k0_part6_eq_skeleton]; unfold k0_part6_skel
  simp only [semSignalWord, semWaitWord, Prog.lift, Prog.bind_op, Prog.bind_ret, Prog.pure_eq_ret]
  iintro H
  iapply (send_step m K c ⟨6, by decide⟩ 6 7 rfl rfl _ (dev22_eq c)) $$ H
  iintro H
  iapply (send_step m K c ⟨7, by decide⟩ 7 8 rfl rfl _ (dev23_eq c)) $$ H
  iintro H
  iapply (ret_step c _ _) $$ H

theorem part7_spec (v2 : BitVec 32) :
    SendSt m K c 8 ⊢ WP c (part7 (F := F) c v2) (fun _ => SendSt m K c 11) := by
  show _ ⊢ wp frame (wpE (defs₀ (F := F)) 𝒱₀ (c : Thread nD τ) none) Set.univ (k0_part7 _ _ _ _ _ _ _ _ _ _ _ c v2) _
  simp only [k0_part7_eq_skeleton]; unfold k0_part7_skel
  simp only [semSignalWord, semWaitWord, Prog.lift, Prog.bind_op, Prog.bind_ret, Prog.pure_eq_ret]
  iintro H
  iapply (send_step m K c ⟨8, by decide⟩ 8 9 rfl rfl _ (dev24_eq c)) $$ H
  iintro H
  iapply (send_step m K c ⟨9, by decide⟩ 9 10 rfl rfl _ (dev25_eq c)) $$ H
  iintro H
  iapply (send_step m K c ⟨10, by decide⟩ 10 11 rfl rfl _ (dev26_eq c)) $$ H
  iintro H
  iapply (ret_step c _ _) $$ H

theorem part8_spec (v2 : BitVec 32) :
    SendSt m K c 11 ⊢ WP c (part8 (F := F) c v2) (fun _ => SendSt m K c 14) := by
  show _ ⊢ wp frame (wpE (defs₀ (F := F)) 𝒱₀ (c : Thread nD τ) none) Set.univ (k0_part8 _ _ _ _ _ _ _ _ _ _ _ c v2) _
  simp only [k0_part8_eq_skeleton]; unfold k0_part8_skel
  simp only [semSignalWord, semWaitWord, Prog.lift, Prog.bind_op, Prog.bind_ret, Prog.pure_eq_ret]
  iintro H
  iapply (send_step m K c ⟨11, by decide⟩ 11 12 rfl rfl _ (dev27_eq c)) $$ H
  iintro H
  iapply (send_step m K c ⟨12, by decide⟩ 12 13 rfl rfl _ (dev28_eq c)) $$ H
  iintro H
  iapply (send_step m K c ⟨13, by decide⟩ 13 14 rfl rfl _ (dev29_eq c)) $$ H
  iintro H
  iapply (ret_step c _ _) $$ H

/-! ## The waits: the index sets one wait further, the regrouping after the last copy, and one wait of each kind -/

private theorem filt_erase {p q : Fin 15 → Prop} [DecidablePred p] [DecidablePred q] (e : Fin 15)
    (h : ∀ x : Fin 15, q x ↔ (p x ∧ x.val ≠ e.val)) :
    (Finset.univ.filter p).erase e = Finset.univ.filter q := by
  ext x
  simp only [Finset.mem_erase, Finset.mem_filter, Finset.mem_univ, true_and]
  rw [h x]
  constructor
  · rintro ⟨hne, hp⟩; exact ⟨hp, fun hv => hne (Fin.ext hv)⟩
  · rintro ⟨hp, hne⟩; exact ⟨fun hx => hne (congrArg Fin.val hx), hp⟩

private theorem filt_insert {p q : Fin 15 → Prop} [DecidablePred p] [DecidablePred q] (e : Fin 15)
    (h : ∀ x : Fin 15, q x ↔ (x.val = e.val ∨ p x)) :
    Finset.univ.filter q = insert e (Finset.univ.filter p) := by
  ext x
  simp only [Finset.mem_insert, Finset.mem_filter, Finset.mem_univ, true_and]
  rw [h x]
  constructor
  · rintro (hv | hp)
    · exact Or.inl (Fin.ext hv)
    · exact Or.inr hp
  · rintro (hx | hp)
    · exact Or.inl (congrArg Fin.val hx)
    · exact Or.inr hp

private theorem filt_same {p q : Fin 15 → Prop} [DecidablePred p] [DecidablePred q] (h : ∀ x : Fin 15, p x ↔ q x) :
    Finset.univ.filter p = Finset.univ.filter q := Finset.filter_congr fun x _ => h x

/- Send wait of shift e + 1: from 2e waits done to 2e + 1. -/
private theorem ws1 (e : Fin 15) : (Finset.univ.filter fun x : Fin 15 => 2 * e.val ≤ 2 * x.val).erase e
    = Finset.univ.filter fun x : Fin 15 => 2 * e.val + 1 ≤ 2 * x.val := filt_erase e fun x => by omega
private theorem ws2 (e : Fin 15) : (Finset.univ.filter fun x : Fin 15 => 2 * x.val < 2 * e.val + 1)
    = insert e (Finset.univ.filter fun x : Fin 15 => 2 * x.val < 2 * e.val) := filt_insert e fun x => by omega
private theorem ws2n (e : Fin 15) : e ∉ Finset.univ.filter fun x : Fin 15 => 2 * x.val < 2 * e.val := by
  simp only [Finset.mem_filter, Finset.mem_univ, true_and]; omega
private theorem ws3 (e : Fin 15) : (Finset.univ.filter fun x : Fin 15 => 2 * e.val + 1 ≤ 2 * x.val + 1)
    = Finset.univ.filter fun x : Fin 15 => 2 * e.val ≤ 2 * x.val + 1 := filt_same fun x => by omega
private theorem ws4 (e : Fin 15) : (Finset.univ.filter fun x : Fin 15 => 2 * x.val + 1 < 2 * e.val + 1)
    = Finset.univ.filter fun x : Fin 15 => 2 * x.val + 1 < 2 * e.val := filt_same fun x => by omega
/- Receive wait of shift e + 1: from 2e + 1 waits done to 2e + 2. -/
private theorem wr1 (e : Fin 15) : (Finset.univ.filter fun x : Fin 15 => 2 * e.val + 2 ≤ 2 * x.val)
    = Finset.univ.filter fun x : Fin 15 => 2 * e.val + 1 ≤ 2 * x.val := filt_same fun x => by omega
private theorem wr2 (e : Fin 15) : (Finset.univ.filter fun x : Fin 15 => 2 * x.val < 2 * e.val + 2)
    = Finset.univ.filter fun x : Fin 15 => 2 * x.val < 2 * e.val + 1 := filt_same fun x => by omega
private theorem wr3 (e : Fin 15) : (Finset.univ.filter fun x : Fin 15 => 2 * e.val + 1 ≤ 2 * x.val + 1).erase e
    = Finset.univ.filter fun x : Fin 15 => 2 * e.val + 2 ≤ 2 * x.val + 1 := filt_erase e fun x => by omega
private theorem wr4 (e : Fin 15) : (Finset.univ.filter fun x : Fin 15 => 2 * x.val + 1 < 2 * e.val + 2)
    = insert e (Finset.univ.filter fun x : Fin 15 => 2 * x.val + 1 < 2 * e.val + 1) := filt_insert e fun x => by omega
private theorem wr4n (e : Fin 15) : e ∉ Finset.univ.filter fun x : Fin 15 => 2 * x.val + 1 < 2 * e.val + 1 := by
  simp only [Finset.mem_filter, Finset.mem_univ, true_and]; omega

/-- All fifteen copies started: every send credit paired with its cell's position, nothing waited yet. -/
private theorem send_done : SendSt m K c 15 ⊢ WaitSt m K c 0 := by
  have e1 : (Finset.univ.filter fun e : Fin 15 => 15 ≤ e.val) = ∅ := Finset.filter_false_of_mem fun x _ => by omega
  have e2 : (Finset.univ.filter fun e : Fin 15 => e.val < 15) = Finset.univ := Finset.filter_true_of_mem fun x _ => by omega
  have e3 : (Finset.univ.filter fun e : Fin 15 => 0 ≤ 2 * e.val) = Finset.univ := Finset.filter_true_of_mem fun x _ => by omega
  have e4 : (Finset.univ.filter fun e : Fin 15 => 2 * e.val < 0) = ∅ := Finset.filter_false_of_mem fun x _ => by omega
  have e5 : (Finset.univ.filter fun e : Fin 15 => 0 ≤ 2 * e.val + 1) = Finset.univ := Finset.filter_true_of_mem fun x _ => by omega
  have e6 : (Finset.univ.filter fun e : Fin 15 => 2 * e.val + 1 < 0) = ∅ := Finset.filter_false_of_mem fun x _ => by omega
  have h0 : owe c (15 - 15) = 0 := rfl
  unfold SendSt WaitSt sendPoss recvWaits
  rw [e1, e2, e3, e4, e5, e6, h0, bigSep_empty, bigSep_empty, bigSep_empty]
  iintro ⟨#Hrec, #Hlev, ⟨%W, HO⟩, -, Hcr, Hrow, HxV, HxH, HaC, HaB, Hsp, Hrw, Hout⟩
  isplitr; · iexact Hrec
  isplitr; · iexact Hlev
  isplitl [HO]; · iexists W; iexact HO
  isplitl [Hcr Hsp]
  · iapply (bigSep_zip Finset.univ (fun e : Fin 15 => (cred (tallyAt (sendCell c e) () N) : sProp 𝕄)) fun e : Fin 15 => atPos ER (sendCell c e) 0 ∅ 0)
    isplitl [Hcr]; · iexact Hcr
    iexact Hsp
  isplitr; · iempintro
  isplitl [Hrw]; · iexact Hrw
  isplitr; · iempintro
  isplitl [Hrow]; · iexact Hrow
  isplitl [HxV]; · iexact HxV
  isplitl [HxH]; · iexact HxH
  isplitl [HaC]; · iexact HaC
  isplitl [HaB]; · iexact HaB
  iexact Hout

/-- The send wait of shift `e + 1`, the wait number `2e`. -/
private theorem wait_send_step {α : Type} {Q : α → sProp 𝕄} (e : Fin 15) (w w' : ℕ) (hw : w = 2 * e.val) (hw' : w' = 2 * e.val + 1)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c w' -∗ WP c (k ⟨⟩) Q) -∗ WP c (.op (.waitDma2 (sendS e) s d hsrc hdst) k) Q) := by
  subst hw hw'
  unfold WaitSt
  iintro ⟨#Hrec, #Hlev, ⟨%W, HO⟩, Hsp, Hsd, Hrp, Hrd, Hrow, HxV, HxH, HaC, HaB, Hout⟩ Hk
  ihave Hp := (Cert.Lib.bigSep_pick (s := Finset.univ.filter fun x : Fin 15 => 2 * e.val ≤ 2 * x.val) (i := e)
    (Finset.mem_filter.mpr ⟨Finset.mem_univ _, Nat.le_refl _⟩)
    (fun x : Fin 15 => (iprop(cred (tallyAt (sendCell c x) () N) ∗ atPos ER (sendCell c x) 0 ∅ 0) : sProp 𝕄))) $$ Hsp
  icases Hp with ⟨⟨Hc, Hat⟩, Hsp⟩
  iapply (wp_wait_send m K c e W) $$ [Hc HO Hat]
  · isplitr; · iexact Hrec
    isplitl [Hc]; · iexact Hc
    isplitl [HO]; · iexact HO
    iexact Hat
  iintro ⟨HO, Hat, Hsh⟩
  iapply Hk
  rw [ws1 e, ws2 e, ws3 e, ws4 e]
  isplitr; · iexact Hrec
  isplitr; · iexact Hlev
  isplitl [HO]; · iexists _; iexact HO
  isplitl [Hsp]; · iexact Hsp
  isplitl [Hat Hsh Hsd]
  · iapply (bigSep_put (ws2n e) _)
    isplitl [Hat Hsh]
    · isplitl [Hat]; · iexact Hat
      iexact Hsh
    iexact Hsd
  isplitl [Hrp]; · iexact Hrp
  isplitl [Hrd]; · iexact Hrd
  isplitl [Hrow]; · iexact Hrow
  isplitl [HxV]; · iexact HxV
  isplitl [HxH]; · iexact HxH
  isplitl [HaC]; · iexact HaC
  isplitl [HaB]; · iexact HaB
  iexact Hout

/-- The receive wait of shift `e + 1`, the wait number `2e + 1`. -/
private theorem wait_recv_step {α : Type} {Q : α → sProp 𝕄} (e : Fin 15) (w w' : ℕ) (hw : w = 2 * e.val + 1) (hw' : w' = 2 * e.val + 2)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c w' -∗ WP c (k ⟨⟩) Q) -∗ WP c (.op (.waitDma2 (recvS e) s d hsrc hdst) k) Q) := by
  subst hw hw'
  unfold WaitSt
  iintro ⟨#Hrec, #Hlev, ⟨%W, HO⟩, Hsp, Hsd, Hrp, Hrd, Hrow, HxV, HxH, HaC, HaB, Hout⟩ Hk
  ihave Hp := (Cert.Lib.bigSep_pick (s := Finset.univ.filter fun x : Fin 15 => 2 * e.val + 1 ≤ 2 * x.val + 1) (i := e)
    (Finset.mem_filter.mpr ⟨Finset.mem_univ _, Nat.le_refl _⟩)
    (fun x : Fin 15 => (iprop(cred (tallyAt (recvCell c x) () N) ∗ atPos ER (recvCell c x) 0 ∅ 0) : sProp 𝕄))) $$ Hrp
  icases Hp with ⟨⟨Hc, Hat⟩, Hrp⟩
  iapply (wp_wait_recv m K c e W) $$ [Hc HO Hat]
  · isplitr; · iexact Hrec
    isplitl [Hc]; · iexact Hc
    isplitl [HO]; · iexact HO
    iexact Hat
  iintro ⟨HO, Hat, Hsh⟩
  iapply Hk
  rw [wr1 e, wr2 e, wr3 e, wr4 e]
  isplitr; · iexact Hrec
  isplitr; · iexact Hlev
  isplitl [HO]; · iexists _; iexact HO
  isplitl [Hsp]; · iexact Hsp
  isplitl [Hsd]; · iexact Hsd
  isplitl [Hrp]; · iexact Hrp
  isplitl [Hat Hsh Hrd]
  · iapply (bigSep_put (wr4n e) _)
    isplitl [Hat Hsh]
    · isplitl [Hat]; · iexact Hat
      iexact Hsh
    iexact Hrd
  isplitl [Hrow]; · iexact Hrow
  isplitl [HxV]; · iexact HxV
  isplitl [HxH]; · iexact HxH
  isplitl [HaC]; · iexact HaC
  isplitl [HaB]; · iexact HaB
  iexact Hout

/-- The last copy, then the first three waits. -/
theorem part9_spec (v71 v81 : BitVec 32) :
    SendSt m K c 14 ⊢ WP c (part9 (F := F) c v71 v81) (fun _ => WaitSt m K c 3) := by
  show _ ⊢ wp frame (wpE (defs₀ (F := F)) 𝒱₀ (c : Thread nD τ) none) Set.univ (k0_part9 _ _ _ _ _ _ _ _ _ _ _ c v71 v81) _
  simp only [k0_part9_eq_skeleton]; unfold k0_part9_skel
  simp only [semSignalWord, semWaitWord, Prog.lift, Prog.bind_op, Prog.bind_ret, Prog.pure_eq_ret]
  iintro H
  iapply (send_step m K c ⟨14, by decide⟩ 14 15 rfl rfl _ (dev30_eq c)) $$ H
  iintro H
  ihave H := (send_done m K c) $$ H
  iapply (wait_send_step m K c ⟨0, by decide⟩ 0 1 rfl rfl) $$ H
  iintro H
  iapply (wait_recv_step m K c ⟨0, by decide⟩ 1 2 rfl rfl) $$ H
  iintro H
  iapply (wait_send_step m K c ⟨1, by decide⟩ 2 3 rfl rfl) $$ H
  iintro H
  iapply (ret_step c _ _) $$ H

end Cert.Kernel.Dist

end
-- ==== Proof.DistK.BodyC.lean ====
/- The third stretch: the remaining waits — a send wait returns the share of the source row lent to that copy, a receive
   wait a landed row holding the sender's partial sums —, then the rows and shares rejoined and the whole exchange
   buffer loaded and added up. -/
import proofs.«900934_g7700000000000935_dist_mean_ax0_shard0_i_m1024_n512_v7x_i16_bf16_1_alg».proof.Proof.DistK.BodyDefs

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-! ## Separating conjunctions over filtered sets of shifts: one element out, one in, the same set named twice -/

section Sets
variable {M : Type} [URA M]

/-- The element at which the condition is given up, taken out. -/
private theorem filt_take (p q : Fin 15 → Prop) [DecidablePred p] [DecidablePred q] (e : Fin 15) (Φ : Fin 15 → sProp M)
    (hp : p e) (h : ∀ x, q x ↔ (p x ∧ x ≠ e)) :
    bigSep (Finset.univ.filter p) Φ ⊢ iprop(Φ e ∗ bigSep (Finset.univ.filter q) Φ) := by
  have hs : (Finset.univ.filter p).erase e = Finset.univ.filter q := by
    ext x
    rw [Finset.mem_erase, Finset.mem_filter, Finset.mem_filter, h x]
    constructor
    · rintro ⟨h1, -, h2⟩; exact ⟨Finset.mem_univ _, h2, h1⟩
    · rintro ⟨-, h2, h1⟩; exact ⟨h1, Finset.mem_univ _, h2⟩
  have he : e ∈ Finset.univ.filter p := Finset.mem_filter.mpr ⟨Finset.mem_univ _, hp⟩
  rw [← hs]
  exact Entails.of_eq (bigSep_erase he)

/-- The element at which the condition is newly met, put in. -/
private theorem filt_put (p q : Fin 15 → Prop) [DecidablePred p] [DecidablePred q] (e : Fin 15) (Φ : Fin 15 → sProp M)
    (hp : ¬ p e) (h : ∀ x, q x ↔ (p x ∨ x = e)) :
    iprop(Φ e ∗ bigSep (Finset.univ.filter p) Φ) ⊢ bigSep (Finset.univ.filter q) Φ := by
  have hs : Finset.univ.filter q = insert e (Finset.univ.filter p) := by
    ext x
    rw [Finset.mem_insert, Finset.mem_filter, Finset.mem_filter, h x]
    constructor
    · rintro ⟨-, h1 | h1⟩
      · exact Or.inr ⟨Finset.mem_univ _, h1⟩
      · exact Or.inl h1
    · rintro (h1 | ⟨-, h1⟩)
      · exact ⟨Finset.mem_univ _, Or.inr h1⟩
      · exact ⟨Finset.mem_univ _, Or.inl h1⟩
  have he : e ∉ Finset.univ.filter p := fun hm => hp (Finset.mem_filter.mp hm).2
  rw [hs]
  exact Entails.of_eq (bigSep_insert he).symm

/-- The same set under two conditions. -/
private theorem filt_same (p q : Fin 15 → Prop) [DecidablePred p] [DecidablePred q] (Φ : Fin 15 → sProp M)
    (h : ∀ x, p x ↔ q x) :
    bigSep (Finset.univ.filter p) Φ ⊢ bigSep (Finset.univ.filter q) Φ := by
  have hs : Finset.univ.filter p = Finset.univ.filter q := by
    ext x
    rw [Finset.mem_filter, Finset.mem_filter, h x]
  rw [hs]

end Sets

/-! ## One wait, between two states of the family -/

/-- Wait number 2e, the send wait of shift e + 1: its position moves on and the share of the source row lent to that
    copy is back. -/
private theorem step_send {α : Type} {Q : α → sProp 𝕄} (w : ℕ) (e : Fin 15) (hw : w = 2 * e.val)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c (w + 1) -∗ WP c (k ⟨⟩) Q) -∗ WP c (.op (.waitDma2 (sendS e) s d hsrc hdst) k) Q) := by
  subst hw
  unfold WaitSt
  iintro ⟨#Hrec, #Hlev, ⟨%W, HO⟩, Hsp, Hsd, Hrp, Hrd, Hrest⟩ Hk
  ihave Hpick := (filt_take (fun x : Fin 15 => 2 * e.val ≤ 2 * x.val) (fun x : Fin 15 => 2 * e.val + 1 ≤ 2 * x.val) e _
    (Nat.le_refl _) (by intro x; rw [ne_eq, Fin.ext_iff]; omega)) $$ Hsp
  icases Hpick with ⟨⟨Hc, Hat⟩, Hsp⟩
  iapply (wp_wait_send m K c e W) $$ [Hc HO Hat]
  · isplitr; · iexact Hrec
    isplitl [Hc]; · iexact Hc
    isplitl [HO]; · iexact HO
    iexact Hat
  iintro ⟨HO, Hat, Hrow⟩
  iapply Hk
  isplitr; · iexact Hrec
  isplitr; · iexact Hlev
  isplitl [HO]; · iexists _; iexact HO
  isplitl [Hsp]; · iexact Hsp
  isplitl [Hsd Hat Hrow]
  · iapply (filt_put (fun x : Fin 15 => 2 * x.val < 2 * e.val) (fun x : Fin 15 => 2 * x.val < 2 * e.val + 1) e _
      (Nat.lt_irrefl _) (by intro x; rw [Fin.ext_iff]; omega))
    isplitl [Hat Hrow]
    · isplitl [Hat]; · iexact Hat
      iexact Hrow
    iexact Hsd
  isplitl [Hrp]
  · iapply (filt_same (fun x : Fin 15 => 2 * e.val ≤ 2 * x.val + 1) (fun x : Fin 15 => 2 * e.val + 1 ≤ 2 * x.val + 1) _
      (by intro x; omega)) $$ Hrp
  isplitl [Hrd]
  · iapply (filt_same (fun x : Fin 15 => 2 * x.val + 1 < 2 * e.val) (fun x : Fin 15 => 2 * x.val + 1 < 2 * e.val + 1) _
      (by intro x; omega)) $$ Hrd
  iexact Hrest

/-- Wait number 2e + 1, the receive wait of shift e + 1: its position moves on and row e + 1 has landed. -/
private theorem step_recv {α : Type} {Q : α → sProp 𝕄} (w : ℕ) (e : Fin 15) (hw : w = 2 * e.val + 1)
    {s d : Memref sig .tc .vmem S1x512 .f32} {hsrc : s.view.WordExact} {hdst : d.view.WordExact}
    {k : PUnit → Prog (TpuEff nD τ sig (Elt F) Λ₀ .tc) α} :
    WaitSt m K c w ⊢ iprop((WaitSt m K c (w + 1) -∗ WP c (k ⟨⟩) Q) -∗ WP c (.op (.waitDma2 (recvS e) s d hsrc hdst) k) Q) := by
  subst hw
  unfold WaitSt
  iintro ⟨#Hrec, #Hlev, ⟨%W, HO⟩, Hsp, Hsd, Hrp, Hrd, Hrest⟩ Hk
  ihave Hpick := (filt_take (fun x : Fin 15 => 2 * e.val + 1 ≤ 2 * x.val + 1) (fun x : Fin 15 => 2 * e.val + 1 + 1 ≤ 2 * x.val + 1) e _
    (Nat.le_refl _) (by intro x; rw [ne_eq, Fin.ext_iff]; omega)) $$ Hrp
  icases Hpick with ⟨⟨Hc, Hat⟩, Hrp⟩
  iapply (wp_wait_recv m K c e W) $$ [Hc HO Hat]
  · isplitr; · iexact Hrec
    isplitl [Hc]; · iexact Hc
    isplitl [HO]; · iexact HO
    iexact Hat
  iintro ⟨HO, Hat, Hrow⟩
  iapply Hk
  isplitr; · iexact Hrec
  isplitr; · iexact Hlev
  isplitl [HO]; · iexists _; iexact HO
  isplitl [Hsp]
  · iapply (filt_same (fun x : Fin 15 => 2 * e.val + 1 ≤ 2 * x.val) (fun x : Fin 15 => 2 * e.val + 1 + 1 ≤ 2 * x.val) _
      (by intro x; omega)) $$ Hsp
  isplitl [Hsd]
  · iapply (filt_same (fun x : Fin 15 => 2 * x.val < 2 * e.val + 1) (fun x : Fin 15 => 2 * x.val < 2 * e.val + 1 + 1) _
      (by intro x; omega)) $$ Hsd
  isplitl [Hrp]; · iexact Hrp
  isplitl [Hrd Hat Hrow]
  · iapply (filt_put (fun x : Fin 15 => 2 * x.val + 1 < 2 * e.val + 1) (fun x : Fin 15 => 2 * x.val + 1 < 2 * e.val + 1 + 1) e _
      (Nat.lt_irrefl _) (by intro x; rw [Fin.ext_iff]; omega))
    isplitl [Hat Hrow]
    · isplitl [Hat]; · iexact Hat
      iexact Hrow
    iexact Hrd
  iexact Hrest

theorem part10_spec (v91 v101 : BitVec 32) :
    WaitSt m K c 3 ⊢ WP c (part10 (F := F) v91 v101) (fun _ => WaitSt m K c 8) := by
  show _ ⊢ wp frame (wpE (defs₀ (F := F)) 𝒱₀ (c : Thread nD τ) none) Set.univ (k0_part10 _ _ _ _ _ _ _ _ _ _ _ _ _) _
  simp only [k0_part10_eq_skeleton]; unfold k0_part10_skel
  simp only [Prog.lift, Prog.bind_op, Prog.bind_ret, Prog.pure_eq_ret]
  iintro H
  iapply (step_recv m K c 3 (1 : Fin 15) (by decide)) $$ H; iintro H
  iapply (step_send m K c 4 (2 : Fin 15) (by decide)) $$ H; iintro H
  iapply (step_recv m K c 5 (2 : Fin 15) (by decide)) $$ H; iintro H
  iapply (step_send m K c 6 (3 : Fin 15) (by decide)) $$ H; iintro H
  iapply (step_recv m K c 7 (3 : Fin 15) (by decide)) $$ H; iintro H
  unfold WP; rw [wp_ret]; imodintro
  iexact H

theorem part11_spec (v111 v121 : BitVec 32) :
    WaitSt m K c 8 ⊢ WP c (part11 (F := F) v111 v121) (fun _ => WaitSt m K c 12) := by
  show _ ⊢ wp frame (wpE (defs₀ (F := F)) 𝒱₀ (c : Thread nD τ) none) Set.univ (k0_part11 _ _ _ _ _ _ _ _ _ _ _ _ _) _
  simp only [k0_part11_eq_skeleton]; unfold k0_part11_skel
  simp only [Prog.lift, Prog.bind_op, Prog.bind_ret, Prog.pure_eq_ret]
  iintro H
  iapply (step_send m K c 8 (4 : Fin 15) (by decide)) $$ H; iintro H
  iapply (step_recv m K c 9 (4 : Fin 15) (by decide)) $$ H; iintro H
  iapply (step_send m K c 10 (5 : Fin 15) (by decide)) $$ H; iintro H
  iapply (step_recv m K c 11 (5 : Fin 15) (by decide)) $$ H; iintro H
  unfold WP; rw [wp_ret]; imodintro
  iexact H

theorem part12_spec (v131 v141 : BitVec 32) :
    WaitSt m K c 12 ⊢ WP c (part12 (F := F) v131 v141) (fun _ => WaitSt m K c 17) := by
  show _ ⊢ wp frame (wpE (defs₀ (F := F)) 𝒱₀ (c : Thread nD τ) none) Set.univ (k0_part12 _ _ _ _ _ _ _ _ _ _ _ _ _) _
  simp only [k0_part12_eq_skeleton]; unfold k0_part12_skel
  simp only [Prog.lift, Prog.bind_op, Prog.bind_ret, Prog.pure_eq_ret]
  iintro H
  iapply (step_send m K c 12 (6 : Fin 15) (by decide)) $$ H; iintro H
  iapply (step_recv m K c 13 (6 : Fin 15) (by decide)) $$ H; iintro H
  iapply (step_send m K c 14 (7 : Fin 15) (by decide)) $$ H; iintro H
  iapply (step_recv m K c 15 (7 : Fin 15) (by decide)) $$ H; iintro H
  iapply (step_send m K c 16 (8 : Fin 15) (by decide)) $$ H; iintro H
  unfold WP; rw [wp_ret]; imodintro
  iexact H

theorem part13_spec (v151 v161 v171 c1 : BitVec 32) :
    WaitSt m K c 17 ⊢ WP c (part13 (F := F) v151 v161 v171 c1) (fun _ => WaitSt m K c 21) := by
  show _ ⊢ wp frame (wpE (defs₀ (F := F)) 𝒱₀ (c : Thread nD τ) none) Set.univ (k0_part13 _ _ _ _ _ _ _ _ _ _ _ _ _ _ _) _
  simp only [k0_part13_eq_skeleton]; unfold k0_part13_skel
  simp only [Prog.lift, Prog.bind_op, Prog.bind_ret, Prog.pure_eq_ret]
  iintro H
  iapply (step_recv m K c 17 (8 : Fin 15) (by decide)) $$ H; iintro H
  iapply (step_send m K c 18 (9 : Fin 15) (by decide)) $$ H; iintro H
  iapply (step_recv m K c 19 (9 : Fin 15) (by decide)) $$ H; iintro H
  iapply (step_send m K c 20 (10 : Fin 15) (by decide)) $$ H; iintro H
  unfold WP; rw [wp_ret]; imodintro
  iexact H

theorem part14_spec (v181 v191 : BitVec 32) :
    WaitSt m K c 21 ⊢ WP c (part14 (F := F) v181 v191) (fun _ => WaitSt m K c 26) := by
  show _ ⊢ wp frame (wpE (defs₀ (F := F)) 𝒱₀ (c : Thread nD τ) none) Set.univ (k0_part14 _ _ _ _ _ _ _ _ _ _ _ _ _) _
  simp only [k0_part14_eq_skeleton]; unfold k0_part14_skel
  simp only [Prog.lift, Prog.bind_op, Prog.bind_ret, Prog.pure_eq_ret]
  iintro H
  iapply (step_recv m K c 21 (10 : Fin 15) (by decide)) $$ H; iintro H
  iapply (step_send m K c 22 (11 : Fin 15) (by decide)) $$ H; iintro H
  iapply (step_recv m K c 23 (11 : Fin 15) (by decide)) $$ H; iintro H
  iapply (step_send m K c 24 (12 : Fin 15) (by decide)) $$ H; iintro H
  iapply (step_recv m K c 25 (12 : Fin 15) (by decide)) $$ H; iintro H
  unfold WP; rw [wp_ret]; imodintro
  iexact H

/-! ## Every wait done: the shares of the source row and the sixteen rows rejoined -/

section Join
variable {M : Type} [URA M]

/-- A condition every shift meets filters nothing out. -/
private theorem filt_all (p : Fin 15 → Prop) [DecidablePred p] (Φ : Fin 15 → sProp M) (h : ∀ x, p x) :
    bigSep (Finset.univ.filter p) Φ ⊢ bigSep Finset.univ Φ := by
  rw [Finset.filter_true_of_mem fun x _ => h x]

/-- A conjunction of pairs is the pair of the conjunctions. -/
private theorem pairs_split {I : Type} (s : Finset I) (Φ Ψ : I → sProp M) :
    bigSep s (fun i => iprop(Φ i ∗ Ψ i)) ⊢ iprop(bigSep s Φ ∗ bigSep s Ψ) := Entails.of_eq (bigSep_sep s Φ Ψ)

/-- Shift e names row e + 1. -/
private def rowOf : Fin 15 ↪ Fin 16 :=
  ⟨fun e => ⟨e.val + 1, by omega⟩, fun a b h => Fin.ext (by have := congrArg Fin.val h; simp only at this; omega)⟩

/-- Sixteen rows: row 0 and the rows of the fifteen shifts. -/
private theorem rows_join (Φ : Fin 16 → sProp M) :
    iprop(Φ 0 ∗ bigSep Finset.univ (fun e : Fin 15 => Φ ⟨e.val + 1, by omega⟩)) ⊢ bigSep Finset.univ Φ := by
  have hu : (Finset.univ : Finset (Fin 16)) = insert 0 (Finset.univ.map rowOf) := by decide
  have h0 : (0 : Fin 16) ∉ Finset.univ.map rowOf := by decide
  rw [hu, bigSep_insert h0, bigSep_map]
  exact Entails.refl _

end Join

private theorem hz00 : (![0, 0] : Fin 2 → Nat) = fun _ => 0 := funext fun a => by fin_cases a <;> rfl

/-- The whole exchange buffer read through the whole rectangle is its contents. -/
private theorem read_comm (f : (cc0_scratch1 : Ref sig .tc).ty.Contents (Elt F)) :
    (cM : Memref sig .tc .vmem S16x512 .f32).view.readAt (Elt F)
      (Rect.unit (s := S16x512) ![0, 0] S16x512.size inb_S16x512_S16x512_0_0).toLoadRect f = f :=
  Memref.readAt_unit_zero (Elt F) cc0_scratch1 hz00 _ f

/-- After the thirtieth wait nothing is pending: the fifteen lent shares and the rest make row 0 whole again, row 0 and
    the fifteen landed rows make the exchange buffer whole, at its final contents. -/
private theorem waitSt_final : WaitSt m K c 30 ⊢ FinalSt m K c := by
  unfold WaitSt FinalSt
  iintro ⟨#Hrec, #Hlev, HO, -, Hsd, -, Hrd, Hr0, HxV, HxH, Hac, Hab, Hout⟩
  ihave Hsd1 := (filt_all (fun x : Fin 15 => 2 * x.val < 30) _ (by intro x; omega)) $$ Hsd
  ihave Hrd1 := (filt_all (fun x : Fin 15 => 2 * x.val + 1 < 30) _ (by intro x; omega)) $$ Hrd
  ihave Hsd2 := (pairs_split Finset.univ _ _) $$ Hsd1
  ihave Hrd2 := (pairs_split Finset.univ _ _) $$ Hrd1
  icases Hsd2 with ⟨Hsa, Hsh⟩
  icases Hrd2 with ⟨Hra, Hrows⟩
  ihave Hrow0 := (row0_shares c (commFinal m c)).2 $$ [Hsh Hr0]
  · isplitl [Hsh]; · iexact Hsh
    iexact Hr0
  ihave Hall := (rows_join (fun k : Fin 16 => rowPts c k.val k.isLt fullShare (commFinal m c))) $$ [Hrow0 Hrows]
  · isplitl [Hrow0]; · iexact Hrow0
    iexact Hrows
  ihave Hcomm := (comm_rows c (commFinal m c)).2 $$ Hall
  isplitr; · iexact Hrec
  isplitr; · iexact Hlev
  isplitl [HO]; · iexact HO
  isplitl [Hcomm]; · iexact Hcomm
  isplitl [HxV]; · iexact HxV
  isplitl [HxH]; · iexact HxH
  isplitl [Hac]; · iexact Hac
  isplitl [Hab]; · iexact Hab
  isplitl [Hsa]; · iexact Hsa
  isplitl [Hra]; · iexact Hra
  iexact Hout

/-- The last four waits; the rows and the shares of row 0 rejoined; the whole buffer loaded and its sixteen rows added. -/
theorem part15_spec (v201 v211 : BitVec 32) :
    WaitSt m K c 26 ⊢ WP c (part15 (F := F) v201 v211) (fun v => iprop(⌜v = k0_pay3 (commFinal m c)⌝ ∗ FinalSt m K c)) := by
  show _ ⊢ wp frame (wpE (defs₀ (F := F)) 𝒱₀ (c : Thread nD τ) none) Set.univ (k0_part15 _ _ _ _ _ _ _ _ _ _ _ _ _) _
  simp only [k0_part15_eq_skeleton]; unfold k0_part15_skel
  simp only [Prog.lift, Prog.bind_op, Prog.bind_ret, Prog.pure_eq_ret]
  iintro H
  iapply (step_send m K c 26 (13 : Fin 15) (by decide)) $$ H; iintro H
  iapply (step_recv m K c 27 (13 : Fin 15) (by decide)) $$ H; iintro H
  iapply (step_send m K c 28 (14 : Fin 15) (by decide)) $$ H; iintro H
  iapply (step_recv m K c 29 (14 : Fin 15) (by decide)) $$ H; iintro H
  ihave HF := (waitSt_final m K c) $$ H
  unfold FinalSt
  icases HF with ⟨#Hrec, #Hlev, HO, Hcomm, Hrest⟩
  unfold commPts
  iapply (wp_load 𝒱₀ (c : Thread nD τ) none Set.univ (m := cM) (S := (cM : Memref sig .tc .vmem S16x512 .f32).view.set)
    (by rw [View.set_whole]; exact Finset.subset_univ _)) $$ Hcomm
  iintro Hcomm
  rw [read_comm, wp_ret]; imodintro
  isplitr; · ipureintro; rfl
  isplitr; · iexact Hrec
  isplitr; · iexact Hlev
  isplitl [HO]; · iexact HO
  isplitl [Hcomm]; · iexact Hcomm
  iexact Hrest

end Cert.Kernel.Dist

end
-- ==== Proof.DistK.BodyT.lean ====
/- The end of the body: the sum of the sixteen rows scaled and stored in the output's staging buffer, and the kernel's own
   thirty-one cells — the local copy's, the fifteen send cells, the fifteen receive cells — closed, their counters at zero
   handed back. -/
import proofs.«900934_g7700000000000935_dist_mean_ax0_shard0_i_m1024_n512_v7x_i16_bf16_1_alg».proof.Proof.DistK.BodyDefs

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-- What the body hands back. -/
def bodyPost : sProp 𝕄 :=
  iprop(Φ₁ m c ∗ (dats m ρ 0 c).owesAt () t0_0.succ
    ∗ ∃ f : Buf (Elt F) ((c : Thread nD τ).loc cc0_stg0_0), ⌜f = (dats m ρ 0 c).after (0 : Fin 1) t0_0⌝ ∗ ((c : Thread nD τ).loc cc0_stg0_0) ↦{fullShare} f)

/-! ## The thirty-one own cells, by what they are for -/

/-- The own semaphore of the copy of shift `e + 1`'s send cell, and of its receive cell, as the launch numbers them. -/
private def sIdx (e : Fin 15) : Fin 31 := ⟨e.val + 1, by omega⟩
private def rIdx (e : Fin 15) : Fin 31 := ⟨e.val + 16, by omega⟩

private theorem osem_copy : osem 0 = .dma copyS := by decide
private theorem osem_send (e : Fin 15) : osem (sIdx e) = .dma (sendS e) := by revert e; decide
private theorem osem_recv (e : Fin 15) : osem (rIdx e) = .dma (recvS e) := by revert e; decide

/-- The thirty-one own semaphores are the local copy's, the fifteen send ones and the fifteen receive ones. -/
private def ownEquiv : Fin 1 ⊕ (Fin 15 ⊕ Fin 15) ≃ Fin 31 where
  toFun x := match x with
    | .inl _ => 0
    | .inr (.inl e) => sIdx e
    | .inr (.inr e) => rIdx e
  invFun j := if h : j.val = 0 then .inl 0
    else if h2 : j.val < 16 then .inr (.inl ⟨j.val - 1, by omega⟩)
    else .inr (.inr ⟨j.val - 16, by omega⟩)
  left_inv := by decide
  right_inv := by decide

omit [FloatOps F] in
private theorem bigSep_own (Φ : Fin 31 → sProp 𝕄) :
    bigSep Finset.univ Φ = iprop(Φ 0 ∗ (bigSep Finset.univ fun e : Fin 15 => Φ (sIdx e)) ∗ bigSep Finset.univ fun e : Fin 15 => Φ (rIdx e)) := by
  rw [bigSep_univ_equiv ownEquiv Φ, bigSep_univ_sum, bigSep_univ_sum, bigSep_univ_of_subsingleton (0 : Fin 1)]
  rfl

omit [FloatOps F] in
/-- A persistent fact in hand serves every summand. -/
private theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The kernel's thirty-one own cells, each with its one round consumed, closed at once: their counters, at zero, back. -/
private theorem close_all :
    iprop(records m K ∗ atPos ER (copyCell c) 1 ∅ 0
        ∗ (bigSep Finset.univ fun e : Fin 15 => atPos ER (sendCell c e) 1 ∅ 0)
        ∗ (bigSep Finset.univ fun e : Fin 15 => atPos ER (recvCell c e) 1 ∅ 0))
      ⊢ iprop(|={Set.univ}=> bigSep Finset.univ fun j : Fin 31 => semVal ((c : Thread nD τ), osem j) 0) := by
  have hcells : iprop(atPos ER (copyCell c) 1 ∅ 0
        ∗ (bigSep Finset.univ fun e : Fin 15 => atPos ER (sendCell c e) 1 ∅ 0)
        ∗ (bigSep Finset.univ fun e : Fin 15 => atPos ER (recvCell c e) 1 ∅ 0))
      ⊢ (bigSep Finset.univ fun j : Fin 31 => atPos ER ((c : Thread nD τ), osem j) 1 ∅ 0 : sProp 𝕄) := by
    rw [bigSep_own (fun j : Fin 31 => (atPos ER ((c : Thread nD τ), osem j) 1 ∅ 0 : sProp 𝕄))]
    simp only [osem_copy, osem_send, osem_recv]
    exact .rfl
  exact (sep_mono_right hcells).trans ((bigSep_pers (R := records m K) fun j _ => close_own m K c j).trans (bigSep_fupd _ _))

omit [FloatOps F] in
private theorem hz : (![0, 0] : Fin 2 → Nat) = fun _ => 0 := funext fun a => by fin_cases a <;> rfl

omit [FloatOps F] in
/-- A store over the whole staging buffer leaves what is stored. -/
private theorem write_out (f w : (cc0_stg0_0 : Ref sig .tc).ty.Contents (Elt F)) :
    (((Memref.whole cc0_stg0_0 : Memref sig .tc .vmem S1x512 .f32).access
        (Rect.unit (s := S1x512) ![0, 0] S1x512.size inb_S1x512_S1x512_0_0) : View sig .tc _ _ _)).write (Elt F) f w Finset.univ = w :=
  Memref.write_access_unit_zero_univ (Elt F) cc0_stg0_0 hz _ f w

/-- After the last part: the sum scaled and stored in the output's staging buffer, the own cells closed. -/
theorem tail_spec (v : FVec F S1x512 .f32) (hv : v = k0_pay3 (commFinal m c)) :
    FinalSt m K c ⊢ WP c
      (Prog.op (TpuEff.load (Memref.whole cc0_stg0_0) (Rect.unit (s := S1x512) ![0, 0] S1x512.size inb_S1x512_S1x512_0_0).toLoadRect (View.loadsAt_vmem h_S1x512))
        fun _ => Prog.op (TpuEff.store (Memref.whole cc0_stg0_0) (Rect.unit (s := S1x512) ![0, 0] S1x512.size inb_S1x512_S1x512_0_0) (k0_pay1 v) Finset.univ (View.stores_vmem_bits_univ h_S1x512 rfl) (.inl rfl))
          fun _ => Prog.ret PUnit.unit)
      (fun _ => bodyPost m ρ c) := by
  subst hv
  unfold FinalSt outStg
  iintro ⟨#Hrec, Hlev, ⟨%W, HO⟩, Hcomm, HxV, HxH, HatC, HatB, HatS, HatR, ⟨%f0, Hout⟩⟩
  -- the load (its value is not used) and the store
  iapply (wp_load 𝒱₀ (c : Thread nD τ) none Set.univ (m := (Memref.whole cc0_stg0_0 : Memref sig .tc .vmem S1x512 .f32)) (Finset.subset_univ _)) $$ Hout
  iintro Hout
  iapply (wp_store 𝒱₀ (c : Thread nD τ) none Set.univ (m := (Memref.whole cc0_stg0_0 : Memref sig .tc .vmem S1x512 .f32))
    (r := Rect.unit (s := S1x512) ![0, 0] S1x512.size inb_S1x512_S1x512_0_0) (Mk := Finset.univ) (Finset.subset_univ _)) $$ Hout
  iintro Hout
  rw [write_out, wp_ret]
  -- the own cells close
  imod (close_all m K c) $$ [HatC HatS HatR] with Hz
  · isplitr; · iexact Hrec
    isplitl [HatC]; · iexact HatC
    isplitl [HatS]; · iexact HatS
    iexact HatR
  imodintro
  unfold bodyPost Φ₁ Dat.owesAt Pipeline.owesWithin
  rw [show (dats m ρ 0 c).owed t0_0.succ = 0 from rfl]
  isplitl [HxH HxV Hcomm Hz]
  · isplitl [HxH]; · iexact HxH
    isplitl [HxV]; · iexists _; iexact HxV
    isplitl [Hcomm]; · iexact Hcomm
    iexact Hz
  isplitl [HO]
  · iexists W
    isplitr; · ipureintro; exact fun _ _ => Or.inl trivial
    iexact HO
  iexists _
  isplitr; · ipureintro; rfl
  iexact Hout

end Cert.Kernel.Dist

end
-- ==== Proof.DistK.Body.lean ====
/- One device's body, from the invariant before the point to the invariant after it: the fifteen printed parts chained
   through the states between them, then the scaled sum stored in the output's staging buffer and the kernel's own
   thirty-one cells closed. -/
import proofs.«900934_g7700000000000935_dist_mean_ax0_shard0_i_m1024_n512_v7x_i16_bf16_1_alg».proof.Proof.DistK.BodyA
import proofs.«900934_g7700000000000935_dist_mean_ax0_shard0_i_m1024_n512_v7x_i16_bf16_1_alg».proof.Proof.DistK.BodyB
import proofs.«900934_g7700000000000935_dist_mean_ax0_shard0_i_m1024_n512_v7x_i16_bf16_1_alg».proof.Proof.DistK.BodyC
import proofs.«900934_g7700000000000935_dist_mean_ax0_shard0_i_m1024_n512_v7x_i16_bf16_1_alg».proof.Proof.DistK.BodyT

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × Fin 32 → ℕ) (c : Dev nD)

/-- A specification of a program followed by one of its continuation. -/
theorem wp_then {α β : Type} {p : Prog (TpuEff nD τ sig (Elt F) Λ₀ .tc) α} {k : α → Prog (TpuEff nD τ sig (Elt F) Λ₀ .tc) β}
    {P : sProp 𝕄} {R : α → sProp 𝕄} {Q : β → sProp 𝕄}
    (hp : P ⊢ WP c p R) (hk : ∀ a, R a ⊢ WP c (k a) Q) : P ⊢ WP c (p >>= k) Q := by
  show P ⊢ wp frame (wpE (defs₀ (F := F)) 𝒱₀ (c : Thread nD τ) none) Set.univ (p >>= k) Q
  rw [wp_bind]
  exact hp.trans (wp_mono _ _ _ hk)

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A pure fact beside a premise. -/
theorem pure_sep_elim {φ : Prop} {P Q : sProp 𝕄} (h : φ → (P ⊢ Q)) : iprop(⌜φ⌝ ∗ P) ⊢ Q := by
  iintro ⟨%hφ, H⟩; iapply (h hφ); iexact H

set_option maxHeartbeats 1600000 in
/-- The body from the start state: the parts in sequence, each taken from the state the one before left. -/
theorem body_chain :
    StartSt m K c ⊢ WP c (cc0_body (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4) (fun _ => bodyPost m ρ c) := by
  rw [cc0_body_eq_skeleton]; unfold cc0_body_skel
  refine wp_then c (part1_spec m K c) fun r => ?_
  obtain ⟨d0, v2, v3, v24⟩ := r
  refine pure_sep_elim fun h => ?_
  obtain ⟨h1, h2⟩ := h
  dsimp only at h1 h2
  subst h1; subst h2
  dsimp only
  refine wp_then _ (part2_spec m K _ v2 v24) fun v48 => ?_
  refine wp_then _ (part3_spec m K _ v2 v48) fun v71 => ?_
  refine wp_then _ (part4_spec m K _ v2 v71) fun r => ?_
  obtain ⟨v81, v91, v100, c16⟩ := r
  dsimp only
  refine wp_then _ (part5_spec m K _ v2 v100 c16) fun r => ?_
  obtain ⟨v101, v111, v121⟩ := r
  dsimp only
  refine wp_then _ (part6_spec m K _ v2) fun r => ?_
  obtain ⟨v131, v141, v151⟩ := r
  dsimp only
  refine wp_then _ (part7_spec m K _ v2) fun r => ?_
  obtain ⟨v161, v171, v181⟩ := r
  dsimp only
  refine wp_then _ (part8_spec m K _ v2) fun r => ?_
  obtain ⟨v191, v201, v211⟩ := r
  dsimp only
  refine wp_then _ (part9_spec m K _ v71 v81) fun _ => ?_
  refine wp_then _ (part10_spec m K _ v91 v101) fun _ => ?_
  refine wp_then _ (part11_spec m K _ v111 v121) fun _ => ?_
  refine wp_then _ (part12_spec m K _ v131 v141) fun c1 => ?_
  refine wp_then _ (part13_spec m K _ v151 v161 v171 c1) fun _ => ?_
  refine wp_then _ (part14_spec m K _ v181 v191) fun _ => ?_
  refine wp_then _ (part15_spec m K _ v201 v211) fun v372 => ?_
  refine pure_sep_elim fun hv => ?_
  simp only [Prog.lift, Prog.bind_op, Prog.bind_ret, Prog.pure_eq_ret]
  exact tail_spec m ρ K _ v372 hv

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc
        ∗ (∃ d f, ⌜f = (dats m ρ 0 c).before (0 : Fin 1) t0_0 d⌝ ∗ ((c : Thread nD τ).loc cc0_stg0_0) ↦{fullShare} f))
      ⊢ WP c (cc0_body (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4) (fun _ => bodyPost m ρ c)
  refine (start_intro_body m ρ c).trans ?_
  iintro ⟨%K, H⟩
  iapply (body_chain m ρ K c)
  iexact H

end Cert.Kernel.Dist

end
-- ==== Proof.DistK.Launch.lean ====
/- The launch: the exchange's ghost state funded and dealt to the sixteen devices, each device's start made from what the
   launch hands it, and the run of @main: every weakly fair execution terminates with each device's result array at the
   computed contents and its block of x unchanged. -/
import proofs.«900934_g7700000000000935_dist_mean_ax0_shard0_i_m1024_n512_v7x_i16_bf16_1_alg».proof.Proof.DistK.Body
import proofs.«900934_g7700000000000935_dist_mean_ax0_shard0_i_m1024_n512_v7x_i16_bf16_1_alg».proof.Proof.Gen.Kernel.Points

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The cells and the tokens the launch element holds -/

theorem ownSemFacts : Pipeline.OwnSemFacts cfg0.spec osem := by decide

theorem kcell_injective : Function.Injective (kcell : Dev nD × Fin 32 → GSem nD τ sig) := by
  rintro ⟨c, k⟩ ⟨c', k'⟩ h
  have h1 : c = c' := by have := congrArg (fun g : GSem nD τ sig => g.1.1) h; exact this
  subst h1
  have h2 : csem k = csem k' := congrArg Prod.snd h
  have := csem_injective h2
  subst this; rfl
/-- All sixteen devices' thirty-two cells. -/
def exCells : Finset (GSem nD τ sig) := Finset.univ.map ⟨kcell, kcell_injective⟩

/-- The duties of one device's own cells: the barrier's fifteen, the copy's one, each send's and each receive's one. -/
abbrev TI : Type := Fin 15 ⊕ (Unit ⊕ (Fin 15 ⊕ Fin 15))

/-- A duty as (cell number, duty name). -/
def tokIdx : TI → Fin 32 × Fin 15
  | .inl d => (0, d)
  | .inr (.inl _) => (1, 0)
  | .inr (.inr (.inl e)) => (⟨e.val + 2, by omega⟩, 0)
  | .inr (.inr (.inr e)) => (⟨e.val + 17, by omega⟩, 0)
theorem tokIdx_injective : Function.Injective tokIdx := by decide

/-- The duty tokens as minted: (device, which duty of its own cells). -/
def tokOf (cj : Dev nD × TI) : GSem nD τ sig × ℕ × Fin 15 := match cj.2 with
  | .inl d => (barCell cj.1, 0, d)
  | .inr (.inl _) => (copyCell cj.1, 0, 0)
  | .inr (.inr (.inl e)) => (sendCell cj.1 e, 0, 0)
  | .inr (.inr (.inr e)) => (recvCell cj.1 e, 0, 0)
theorem tokOf_eq (c : Dev nD) (j : TI) : tokOf (c, j) = (kcell (c, (tokIdx j).1), 0, (tokIdx j).2) := by
  rcases j with d | _ | e | e
  · rfl
  · exact congrArg (fun s : SemLoc sig => ((((c : Thread nD τ), s) : GSem nD τ sig), (0 : ℕ), (0 : Fin 15))) csem_copy.symm
  · exact congrArg (fun s : SemLoc sig => ((((c : Thread nD τ), s) : GSem nD τ sig), (0 : ℕ), (0 : Fin 15))) (csem_send e).symm
  · exact congrArg (fun s : SemLoc sig => ((((c : Thread nD τ), s) : GSem nD τ sig), (0 : ℕ), (0 : Fin 15))) (csem_recv e).symm
theorem tokOf_injective : Function.Injective (tokOf : Dev nD × TI → GSem nD τ sig × ℕ × Fin 15) := by
  rintro ⟨c, j⟩ ⟨c', j'⟩ h
  rw [tokOf_eq, tokOf_eq] at h
  have h1 : (c, (tokIdx j).1) = (c', (tokIdx j').1) := kcell_injective (congrArg (fun x : GSem nD τ sig × ℕ × Fin 15 => x.1) h)
  have h2 : (tokIdx j).2 = (tokIdx j').2 := congrArg (fun x : GSem nD τ sig × ℕ × Fin 15 => x.2.2) h
  have hc : c = c' := congrArg Prod.fst h1
  have hj : j = j' := tokIdx_injective (Prod.ext (congrArg Prod.snd h1) h2)
  subst hc; subst hj; rfl
def exToks : Finset (GSem nD τ sig × ℕ × Fin 15) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d : Fin 15 => dutyTok ER (barCell c) 0 d)
    ∗ dutyTok ER (copyCell c) 0 (0 : Fin 15)
    ∗ (bigSep Finset.univ fun e : Fin 15 => dutyTok ER (sendCell c e) 0 (0 : Fin 15))
    ∗ (bigSep Finset.univ fun e : Fin 15 => dutyTok ER (recvCell c e) 0 (0 : Fin 15)))

/-- What the launch element deals device `c`. -/
def G (c : Dev nD) : sProp 𝕄 :=
  iprop((bigSep Finset.univ fun k : Fin 32 => roundState ER (sched m) (kcell (c, k)) 0)
    ∗ (bigSep Finset.univ fun k : Fin 32 => iprop(atPos ER (kcell (c, k)) 0 ∅ 0 ∗ reached ER (kcell (c, k)) 0)) ∗ toks c)

/-- What the global step makes of it. -/
def G' (c : Dev nD) : sProp 𝕄 := iprop(∃ K, ghost m K c)

/-! ## Funding: the launch element as the sixteen devices' shares -/

/-- A device's minted tokens, by cell. -/
theorem toks_eq (c : Dev nD) :
    (bigSep Finset.univ fun j : TI => (dutyTok ER (tokOf (c, j)).1 (tokOf (c, j)).2.1 (tokOf (c, j)).2.2 : sProp 𝕄)) = toks c := by
  rw [bigSep_univ_sum, bigSep_univ_sum, bigSep_univ_sum, bigSep_univ_of_subsingleton ()]
  rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 32 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => toks_eq c
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
theorem bigSep_fin32 (Φ : Fin 32 → sProp 𝕄) : bigSep Finset.univ Φ = iprop(Φ 0 ∗ bigSep Finset.univ fun j : Fin 31 => Φ j.succ) := by
  rw [bigSep_univ_at Φ 0, show (Finset.univ.erase (0 : Fin 32)) = Finset.univ.map (Fin.succEmb 31) from by decide, bigSep_map]; rfl

theorem csem_succ (j : Fin 31) : csem j.succ = osem j := by revert j; decide

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own thirty-one semaphores and the barrier semaphore are the device's thirty-two cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 32 => semVal (kcell (c, k)) 0 : sProp 𝕄) := by
  rw [unscopedSems0_eq, bigSep_fin32]
  unfold Pipeline.ownSems0
  rw [bigSep_congr (s := Finset.univ) (fun (j : Fin 31) _ => show (semVal (kcell (c, j.succ)) 0 : sProp 𝕄) = semVal ((c.tc : Thread nD τ), osem j) 0 from by
    rw [show kcell (c, j.succ) = ((c.tc : Thread nD τ), osem j) from congrArg (Prod.mk _) (csem_succ j)])]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 32 => semVal (kcell (c, k)) 0) ∗ bigSep Finset.univ fun k : Fin 32 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 32 → ℕ) (c : Dev nD) :
    iprop(records m K ∗ (bigSep Finset.univ fun k : Fin 32 => atPos ER (kcell (c, k)) 0 ∅ 0) ∗ payToks c) ⊢ G' m c := by
  unfold G' ghost positions
  iintro ⟨HR, Hp, Ht⟩
  iexists K
  isplitl [HR]; · iexact HR
  isplitl [Hp]; · iexact Hp
  iexact Ht

omit [FloatOps F] in
/-- A family over (device, shift) summed over all devices and shifts, each device's entry moved to the device it
    addresses at that shift. -/
theorem deal (B : Dev nD → Fin 15 → sProp 𝕄) :
    (bigSep Finset.univ fun c : Dev nD => bigSep Finset.univ fun d : Fin 15 => B c d)
      = bigSep Finset.univ fun c : Dev nD => bigSep Finset.univ fun d : Fin 15 => B (peer c d) d := by
  rw [bigSep_univ_comm, bigSep_congr (s := Finset.univ) (fun (d : Fin 15) _ => bigSep_univ_equiv (shift d) (fun c : Dev nD => B c d)),
    bigSep_univ_comm (fun (d : Fin 15) (a : Dev nD) => B ((shift d) a) d)]
  rfl

omit [FloatOps F] in
/-- The tokens dealt around the mesh: duty `d` of a device's barrier cell to the device `d + 1` steps behind it, the duty
    of its receive cell of shift `e + 1` to the device `e + 1` steps behind it; the send and copy tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal (fun c d => (dutyTok ER (barCell c) 0 d : sProp 𝕄)),
    deal (fun c e => (dutyTok ER (recvCell c e) 0 (0 : Fin 15) : sProp 𝕄))]
  iintro ⟨H1, H2, H3, H4⟩
  isplitl [H1]; · iexact H1
  isplitl [H4]; · iexact H4
  isplitl [H3]; · iexact H3
  iexact H2

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 32 => iprop(∃ κ : ℕ, cellInv ER (sched m) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok⟩
  ihave HK := (BI.bigSep_exists_pi Finset.univ (fun (ck : Dev nD × Fin 32) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 32 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- The buffers as the launch hands them: whole, at the full share. -/
theorem xHPts_eq (c : Dev nD) : xHPts m c = (((c : Thread nD τ).loc main_arg0) ↦{fullShare} m ((c : Thread nD τ).loc main_arg0) : sProp 𝕄) := by
  unfold xHPts xblk; rw [View.set_whole]
omit [FloatOps F] in
theorem xVPts_eq (c : Dev nD) (f : Buf (Elt F) ((c : Thread nD τ).loc cc0_scratch0)) :
    xVPts c f = (((c : Thread nD τ).loc cc0_scratch0) ↦{fullShare} f : sProp 𝕄) := by unfold xVPts; rw [View.set_whole]
omit [FloatOps F] in
theorem commPts_eq (c : Dev nD) (f : Buf (Elt F) ((c : Thread nD τ).loc cc0_scratch1)) :
    commPts c f = (((c : Thread nD τ).loc cc0_scratch1) ↦{fullShare} f : sProp 𝕄) := by unfold commPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    rw [xHPts_eq]; iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hv⟩, ⟨%g, Hc⟩⟩
  isplitl [Hs]; · iexact Hs
  isplitl [Hv]
  · iexists f; rw [xVPts_eq]; iexact Hv
  · iexists g; rw [commPts_eq]; iexact Hc

theorem phi1_exit (c : Dev nD) :
    (dats m ρ 0 c).Φ (Fin.last cfg0.N) ⊢ iprop(xHPts m c ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hx, ⟨%f, Hv⟩, Hc, Hs⟩
  isplitl [Hx]; · iexact Hx
  isplitl [Hs]; · iexact Hs
  isplitl [Hv]
  · iexists f; rw [← xVPts_eq]; iexact Hv
  · iexists (commFinal m c); rw [← commPts_eq]; iexact Hc

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), SemLoc.dma (((cfgs 0).win w).sem s)) () = 0 := by
      fin_cases w; fin_cases s
      show (match kind (.dma cc0_sem0_0) with | .bar => 1 | .recv _ => 2 | _ => 0) = 0
      rw [kind_stage]
    rcases t with ⟨_ | _, ht⟩
    · exact mayWait_low c _ hlv 30
    · exact mayWait_low c _ hlv 0

/-- The block of `x` read against the memory. -/
theorem read_x (c : Dev nD) (s' : Phys nD τ sig (Elt F)) :
    iprop(xHPts m c ∗ emp ∗ SI s') ⊢ |={Set.univ}=> iprop(⌜s'.mem.mem ((c.tc : Thread nD τ).loc main_arg0) = m ((c.tc : Thread nD τ).loc main_arg0)⌝ ∗ (SI s' : sProp 𝕄)) := by
  rw [xHPts_eq]
  iintro ⟨Hx, -, HSI⟩
  icombine HSI Hx gives %hx
  imodintro
  isplitr; · ipureintro; exact Buf.eq_of_forall_mem_univ hx
  iexact HSI

/-- The result array after the one point: the body's result, written back whole. -/
theorem arrAt_final (c : Dev nD) : (dats m ρ 0 c).arrAt (0 : Fin 1) cfg0.N = outAt m c := by
  have h := (dats m ρ 0 c).arrAt_succ (0 : Fin 1) t0_0
  rw [flush0_0 t0_0, if_pos rfl] at h
  refine (show (dats m ρ 0 c).arrAt (0 : Fin 1) cfg0.N = (dats m ρ 0 c).arrAt (0 : Fin 1) (t0_0.val + 1) from rfl).trans (h.trans ?_)
  exact Memref.write_access_unit_zero_univ (Elt F) main_v1 (funext fun a => Nat.zero_mul _) _ _ (outAt m c)

/-! ## The run -/

set_option maxRecDepth 8000 in
/-- At the compiled mesh of sixteen devices, for any float values, from any memory with zero counters: every weakly fair
    execution of @main terminates, and every final state has each device's result array at the scaled sum of the sixteen
    partial sums and its block of `x` as launched. -/
theorem run_main : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := xHPts m) (Z := fun _ => iprop(emp))
    (hX := start_intro m ρ) (hin := phi0_intro m ρ) (hout := phi1_exit m ρ)
    (QY := fun c s => s.mem ((c.tc : Thread nD τ).loc main_arg0) = m ((c.tc : Thread nD τ).loc main_arg0))
    (hY := read_x m)
    (hQ := fun s h c => ⟨((h c).1 0).trans (arrAt_final m ρ c), (h c).2.2⟩)

end Cert.Kernel.Dist

end
-- ==== Proof.Dist.Value.lean ====
/- The value: the scaled sum of the sixteen devices' partial column sums is the whole array's column mean. -/
import proofs.«900934_g7700000000000935_dist_mean_ax0_shard0_i_m1024_n512_v7x_i16_bf16_1_alg».proof.Proof.Dist.Cells
import proofs.«900934_g7700000000000935_dist_mean_ax0_shard0_i_m1024_n512_v7x_i16_bf16_1_alg».proof.Proof.Gen.ReferenceIdeal.Run
import proofs.«900934_g7700000000000935_dist_mean_ax0_shard0_i_m1024_n512_v7x_i16_bf16_1_alg».proof.Proof.Gen.ReferenceIdeal.Read
import Idealize.ShloMosaic.Lib.Layout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Dist

open Cert.KernelIdeal Cert.KernelIdeal.Gen
open Idealize.ShloMosaic Idealize.ShloMosaic.TcCoe Idealize.SL.Sem
open Idealize.ShloMosaic.ValueIdx
open scoped BigOperators

/-! ## The two literals -/

/-- The reference's divisor: the pattern of `16384.0` denotes the real 16384. -/
theorem ofBits_16384 : Ideal.ofBits .f32 0x46800000#32 = ((16384 : ℝ) : EReal) := by
  simp [Ideal.ofBits, Ideal.ieee, -EReal.coe_mul]; norm_num

/-- The kernel's factor: the pattern of `2^-14` denotes the real 1/16384. -/
theorem ofBits_inv_16384 : Ideal.ofBits .f32 0x38800000#32 = ((1 / 16384 : ℝ) : EReal) := by
  simp [Ideal.ofBits, Ideal.ieee, -EReal.coe_mul]; norm_num

/-! ## Regrouping sums -/

/-- Row `r` of block `p` is a row of the whole array. -/
theorem row_lt (p : Fin 16) (r : Fin 1024) : p.val * 1024 + r.val < 16384 := by omega

/-- Sixteen blocks of 1024 rows are the 16384 rows. -/
theorem sum_blocks {M : Type*} [AddCommMonoid M] (f : Fin 16384 → M) :
    ∑ p : Fin 16, ∑ r : Fin 1024, f ⟨p.val * 1024 + r.val, row_lt p r⟩ = ∑ n : Fin 16384, f n := by
  calc ∑ p : Fin 16, ∑ r : Fin 1024, f ⟨p.val * 1024 + r.val, row_lt p r⟩
      = ∑ x : Fin 16 × Fin 1024, f (finProdFinEquiv x) := by
        rw [Fintype.sum_prod_type]
        exact Finset.sum_congr rfl fun p _ => Finset.sum_congr rfl fun r _ => congrArg f (Fin.ext (by
          show p.val * 1024 + r.val = r.val + 1024 * p.val
          omega))
    _ = ∑ n : Fin 16384, f n := Equiv.sum_comp (finProdFinEquiv (m := 16) (n := 1024)) f

/-- Going back `k` steps from `c`, `k = 0 … 15`, meets every device once. -/
theorem donor_injective (c : Dev nD) : Function.Injective (donor c) := by revert c; decide

theorem sum_donor {M : Type*} [AddCommMonoid M] (c : Dev nD) (g : Dev nD → M) :
    ∑ k : Fin 16, g (donor c k) = ∑ p : Fin 16, g p :=
  Function.Bijective.sum_comp (Finite.injective_iff_bijective.1 (donor_injective c)) g

/-! ## The lane sums at an index -/

/-- The index a sum over the 1024 rows of a block inserts: row `r`, column `j`. -/
theorem lift_1024 (j : Fin 512) (r : Fin 1024) :
    reduces_S1024x512_S512.lift (ix1 j) r = ix2 r j := by
  funext a; apply Fin.ext; match a with | ⟨0, _⟩ => rfl | ⟨1, _⟩ => rfl

/-- The index a sum over the 16 rows of the exchange buffer inserts. -/
theorem lift_16 (j : Fin 512) (k : Fin 16) :
    reduces_S16x512_S512.lift (ix1 j) k = ix2 k j := by
  funext a; apply Fin.ext; match a with | ⟨0, _⟩ => rfl | ⟨1, _⟩ => rfl

/-- A block's column sums, at column `j`: the sum of the block's 1024 rows there. -/
theorem pay2_apply (v : FVec Ideal S1024x512 .f32) (u : Fin 1) (j : Fin 512) :
    k0_pay2 v (ix2 u j) = ∑ r : Fin 1024, v (ix2 r j) := by
  show shapeCast S1x512 (shapeCast S1x512 (multiReduction .add [0] S512 v 0x00000000#32 reduces_S1024x512_S512 (.inl rfl) rfl)
      shapeCasts_S512_S1x512) shapeCasts_S1x512_S1x512 (ix2 u j) = _
  rw [shapeCast_self, shapeCast_a_1a_apply]
  refine (Ideal.multiReduction_add_single v _ reduces_S1024x512_S512 (.inl rfl) rfl (ix1 j)).trans ?_
  exact Finset.sum_congr rfl fun r _ => congrArg v (lift_1024 j r)

/-- The exchange buffer's column sums, at column `j`: the sum of its 16 rows there. -/
theorem pay3_apply (V : FVec Ideal S16x512 .f32) (u : Fin 1) (j : Fin 512) :
    k0_pay3 V (ix2 u j) = ∑ k : Fin 16, V (ix2 k j) := by
  show shapeCast S1x512 (multiReduction .add [0] S512 V 0x00000000#32 reduces_S16x512_S512 (.inl rfl) rfl)
      shapeCasts_S512_S1x512 (ix2 u j) = _
  rw [shapeCast_a_1a_apply]
  refine (Ideal.multiReduction_add_single V _ reduces_S16x512_S512 (.inl rfl) rfl (ix1 j)).trans ?_
  exact Finset.sum_congr rfl fun k _ => congrArg V (lift_16 j k)

/-- The scaling, at an index: the product with the real 1/16384. -/
theorem pay1_apply (w : FVec Ideal S1x512 .f32) (i : S1x512.Idx) :
    k0_pay1 w i = w i * ((1 / 16384 : ℝ) : EReal) := by
  rw [← ofBits_inv_16384]; rfl

/-- When every device's block of `x` is its block of sixteen of the whole array `X`, each device's result is the reference's:
    the column sums of `X` over its 16384 rows, divided by 16384. -/
theorem outAt_eq_ref (m : (ℓ : Loc nD τ sig) → Buf (Elt Ideal) ℓ)
    (X : (⟨Cert.ReferenceIdeal.S16384x512, .f32⟩ : BufTy).Contents (Elt Ideal))
    (hblk : ∀ c : Dev nD, m ((c.tc : Thread nD τ).loc main_arg0) = Layout.block ⟨2, ![1024, 512]⟩ ⟨2, ![16384, 512]⟩ 0 16 c X)
    (c : Dev nD) :
    outAt (F := Ideal) m c = Cert.ReferenceIdeal.Read.val_main_v3 (F := Ideal) X := by
  funext i
  obtain ⟨u, j, rfl⟩ : ∃ (u : Fin 1) (j : Fin 512), i = ix2 u j := ⟨i 0, i 1, eq_ix2 i⟩
  -- the whole array's column `j`, by row
  let col : Fin 16384 → EReal := fun n => X (ix2 n j)
  -- the kernel's side: the sixteen rows of the exchange buffer are the sixteen blocks' column sums
  have hrow : ∀ k : Fin 16, commFinal (F := Ideal) m c (ix2 k j)
      = ∑ r : Fin 1024, col ⟨(donor c k).val * 1024 + r.val, row_lt (donor c k) r⟩ := by
    intro k
    show k0_pay2 (xblk (F := Ideal) m (donor c k)) (ix2 (0 : Fin 1) j) = _
    rw [pay2_apply]
    refine Finset.sum_congr rfl fun r _ => ?_
    show m (((donor c k).tc : Thread nD τ).loc main_arg0) (ix2 r j) = _
    rw [hblk]
    exact congrArg X (funext fun a => Fin.ext (by match a with | ⟨0, _⟩ => rfl | ⟨1, _⟩ => rfl))
  have hk : outAt (F := Ideal) m c (ix2 u j) = (∑ n : Fin 16384, col n) * ((1 / 16384 : ℝ) : EReal) := by
    show k0_pay1 (k0_pay3 (commFinal (F := Ideal) m c)) (ix2 u j) = _
    rw [pay1_apply, pay3_apply, Finset.sum_congr rfl fun k _ => hrow k,
      sum_donor c (fun p => ∑ r : Fin 1024, col ⟨p.val * 1024 + r.val, row_lt p r⟩), sum_blocks col]
  -- the reference's side
  have hr : Cert.ReferenceIdeal.Read.val_main_v3 (F := Ideal) X (ix2 u j)
      = (∑ n : Fin 16384, col n) * ((1 / 16384 : ℝ) : EReal) := by
    rw [Cert.ReferenceIdeal.Read.val_main_v3_apply, Cert.ReferenceIdeal.Read.val_main_v1_apply,
      Cert.ReferenceIdeal.Read.val_main_v2_apply, Cert.ReferenceIdeal.Read.val_main_cst_0_apply,
      Cert.ReferenceIdeal.Read.val_main_v0_apply, Cert.ReferenceIdeal.Read.val_main_cst_apply,
      Ideal.hostDivf_def, Ideal.ofBits_def, Ideal.ofBits_def, ofBits_16384, Ideal.ofBits_zero_f32,
      Ideal.div_coe (by norm_num : (16384 : ℝ) ≠ 0), zero_add]
    refine congrArg (· * ((1 / 16384 : ℝ) : EReal)) (Finset.sum_congr rfl fun n _ => ?_)
    exact congrArg X (funext fun a => Fin.ext (by match a with | ⟨0, _⟩ => rfl | ⟨1, _⟩ => rfl))
  exact hk.trans hr.symm

end Cert.KernelIdeal.Dist

end
-- ==== Proof.lean ====
/- The kernel computes, on each of sixteen devices, the column sums of its 1024-row block of x; the devices exchange these
   partial sums all-to-all (an entry handshake on the barrier semaphore, then fifteen remote copies of one row each), and
   every device adds the sixteen rows and scales by 2^-14. Over the extended reals that is the column sum of the whole
   16384-row array divided by 16384: addition is commutative and associative there, and dividing by 16384 is
   multiplying by 2^-14. The three frames are the runs of the programs with the values dropped. -/
import proofs.«900934_g7700000000000935_dist_mean_ax0_shard0_i_m1024_n512_v7x_i16_bf16_1_alg».proof.Defs
import proofs.«900934_g7700000000000935_dist_mean_ax0_shard0_i_m1024_n512_v7x_i16_bf16_1_alg».proof.Proof.Gen.Kernel
import proofs.«900934_g7700000000000935_dist_mean_ax0_shard0_i_m1024_n512_v7x_i16_bf16_1_alg».proof.Proof.Gen.KernelIdeal
import proofs.«900934_g7700000000000935_dist_mean_ax0_shard0_i_m1024_n512_v7x_i16_bf16_1_alg».proof.Proof.Gen.ReferenceIdeal
import proofs.«900934_g7700000000000935_dist_mean_ax0_shard0_i_m1024_n512_v7x_i16_bf16_1_alg».proof.Proof.Gen.Pre_finite_inputs_Kernel
import proofs.«900934_g7700000000000935_dist_mean_ax0_shard0_i_m1024_n512_v7x_i16_bf16_1_alg».proof.Proof.Gen.Pre_finite_inputs_ReferenceIdeal
import proofs.«900934_g7700000000000935_dist_mean_ax0_shard0_i_m1024_n512_v7x_i16_bf16_1_alg».proof.Proof.Gen.ReferenceIdeal.Run
import proofs.«900934_g7700000000000935_dist_mean_ax0_shard0_i_m1024_n512_v7x_i16_bf16_1_alg».proof.Proof.Gen.ReferenceIdeal.Read
import proofs.«900934_g7700000000000935_dist_mean_ax0_shard0_i_m1024_n512_v7x_i16_bf16_1_alg».proof.Proof.Dist.Launch
import proofs.«900934_g7700000000000935_dist_mean_ax0_shard0_i_m1024_n512_v7x_i16_bf16_1_alg».proof.Proof.DistK.Launch
import proofs.«900934_g7700000000000935_dist_mean_ax0_shard0_i_m1024_n512_v7x_i16_bf16_1_alg».proof.Proof.Dist.Value
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs_Kernel.Gen.facts := fun m g _ =>
  (θ_run Cert.Kernel.defs _ _).mono (fun _ h c => (h c).2) (Cert.Kernel.Dist.run_main (F := Bits) m g)

theorem frame_ki : @Cert.frame_KernelIdeal Cert.KernelIdeal.Gen.facts Cert.Pre_finite_inputs_Kernel.Gen.facts := fun m g _ =>
  (θ_run Cert.KernelIdeal.defs _ _).mono (fun _ h c => (h c).2) (Cert.KernelIdeal.Dist.run_main (F := Ideal) m g)

theorem frame_ri : @Cert.frame_ReferenceIdeal Cert.ReferenceIdeal.Gen.facts Cert.Pre_finite_inputs_ReferenceIdeal.Gen.facts := fun m ρ _ =>
  (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs_Kernel.Gen.facts := by
  intro m g m' g' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.Dist.outAt_eq_ref m _ hagree c), (h c).2⟩)
      (Cert.KernelIdeal.Dist.run_main (F := Ideal) m g)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
